-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000x128 : Shape := ⟨2, ![640000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S_ : Shape := ⟨0, ![]⟩
abbrev S1x640000 : Shape := ⟨2, ![1, 640000]⟩
abbrev S640000 : Shape := ⟨1, ![640000]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part5 {F : FTy → Type} [FloatOps F] (main_arg2 : IVec S2x640000 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : IVec S1x640000 32 := (extractStridedSlice S1x640000 ![0, 0] · slices_S2x640000_S1x640000_0_0) main_arg2
  let main_v90 : IVec S640000 32 := shapeCast S640000 main_v89 shapeCasts_S1x640000_S640000
  let main_c_34 : IVec S_ 32 := constantI S_ 32 4294927296#32
  let main_v91 : IVec S640000 32 := broadcastInDim S640000 ![] bcast_S_S640000 main_c_34
  let main_v92 : IVec S640000 1 := cmpi .sge main_v90 main_v91
  let main_c_35 : IVec S_ 1 := constantI S_ 1 1#1
  let main_v93 : IVec S_ 1 := (fun x v => Host.reduce IntOp.andi x v reducesTo_S640000_S_d0 h_S_) main_v92 main_c_35
  let main_v94 : IVec S_ 1 := andi main_v88 main_v93
  let main_v95 : IVec S1x640000 32 := (extractStridedSlice S1x640000 ![0, 0] · slices_S2x640000_S1x640000_0_0) main_arg2
  let main_v96 : IVec S640000 32 := shapeCast S640000 main_v95 shapeCasts_S1x640000_S640000
  let main_c_36 : IVec S_ 32 := constantI S_ 32 40000#32
  let main_v97 : IVec S640000 32 := broadcastInDim S640000 ![] bcast_S_S640000 main_c_36
  let main_v98 : IVec S640000 1 := cmpi .slt main_v96 main_v97
  let main_c_37 : IVec S_ 1 := constantI S_ 1 1#1
  let main_v99 : IVec S_ 1 := (fun x v => Host.reduce IntOp.andi x v reducesTo_S640000_S_d0 h_S_) main_v98 main_c_37
  let main_v100 : IVec S_ 1 := andi main_v94 main_v99
  main_v100

def fn_part4 {F : FTy → Type} [FloatOps F] (main_arg2 : IVec S2x640000 32) (main_arg16 : FVec F S128x128 .f32) (main_arg17 : FVec F S128 .f32) (main_arg18 : FVec F S128x128 .f32) (main_arg19 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg2 main_v83 main_v84 main_cst_32

def fn_part3 {F : FTy → Type} [FloatOps F] (main_arg2 : IVec S2x640000 32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg16 main_arg17 main_arg18 main_arg19 main_v63 main_v67

def fn_part2 {F : FTy → Type} [FloatOps F] (main_arg2 : IVec S2x640000 32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg13 main_arg14 main_arg15 main_arg16 main_arg17 main_arg18 main_arg19 main_v48 main_v49 main_v50

def fn_part1 {F : FTy → Type} [FloatOps F] (main_arg2 : IVec S2x640000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_v33

def fn {F : FTy → Type} [FloatOps F] (main_arg0 : FVec F S40000x128 .f32) (main_arg1 : FVec F S640000x128 .f32) (main_arg2 : IVec S2x640000 32) (main_arg3 : IVec S40000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_v13 main_v16
-- ==== Kernel.lean ====
abbrev S40000x128 : Shape := ⟨2, ![40000, 128]⟩
abbrev S640000x128 : Shape := ⟨2, ![640000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S8000x128 : Shape := ⟨2, ![8000, 128]⟩
abbrev S1x128 : Shape := ⟨2, ![1, 128]⟩
abbrev S5000x128 : Shape := ⟨2, ![5000, 128]⟩
abbrev S64x128 : Shape := ⟨2, ![64, 128]⟩
abbrev S40000x1 : Shape := ⟨2, ![40000, 1]⟩
abbrev S64 : Shape := ⟨1, ![64]⟩
abbrev S64x1 : Shape := ⟨2, ![64, 1]⟩

abbrev nBuf : Space → Nat
  | .hbm => 164
  | .vmem => 64
  | .smem => 0
  | _ => 0

abbrev hbmTy0_0 (i : Nat) : BufTy := match i % 128 with
  | 0 => ⟨S40000x128, .f32⟩
  | 1 => ⟨S640000x128, .f32⟩
  | 2 => ⟨S2x640000, .i32⟩
  | 3 => ⟨S40000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S1x640000, .i32⟩
  | 21 => ⟨S640000, .i32⟩
  | 22 => ⟨S1x640000, .i32⟩
  | 23 => ⟨S640000, .i32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S1, .i32⟩
  | 33 => ⟨S_, .i32⟩
  | 34 => ⟨S640000x1, .i32⟩
  | 35 => ⟨S640000x1, .i1⟩
  | 36 => ⟨S1x1, .i32⟩
  | 37 => ⟨S640000x1, .i32⟩
  | 38 => ⟨S640000x1, .i1⟩
  | 39 => ⟨S640000x1, .i1⟩
  | 40 => ⟨S_, .i1⟩
  | 41 => ⟨S640000, .i1⟩
  | 42 => ⟨S640000x128, .f32⟩
  | 43 => ⟨S640000x128, .i1⟩
  | 44 => ⟨S_, .f32⟩
  | 45 => ⟨S640000x128, .f32⟩
  | 46 => ⟨S640000x128, .f32⟩
  | 47 => ⟨S640000x128, .f32⟩
  | 48 => ⟨S_, .f32⟩
  | 49 => ⟨S40000x128, .f32⟩
  | 50 => ⟨S640000x1, .i32⟩
  | 51 => ⟨S40000x128, .f32⟩
  | 52 => ⟨S1x128, .f32⟩
  | 53 => ⟨S1x128, .f32⟩
  | 54 => ⟨S40000x128, .f32⟩
  | 55 => ⟨S_, .i32⟩
  | 56 => ⟨S640000, .i32⟩
  | 57 => ⟨S640000, .i1⟩
  | 58 => ⟨S_, .i32⟩
  | 59 => ⟨S640000, .i32⟩
  | 60 => ⟨S640000, .i32⟩
  | 61 => ⟨S640000, .i32⟩
  | 62 => ⟨S640000x1, .i32⟩
  | 63 => ⟨S1, .i32⟩
  | 64 => ⟨S_, .i32⟩
  | 65 => ⟨S640000x1, .i32⟩
  | 66 => ⟨S640000x1, .i1⟩
  | 67 => ⟨S1x1, .i32⟩
  | 68 => ⟨S640000x1, .i32⟩
  | 69 => ⟨S640000x1, .i1⟩
  | 70 => ⟨S640000x1, .i1⟩
  | 71 => ⟨S_, .i1⟩
  | 72 => ⟨S640000, .i1⟩
  | 73 => ⟨S640000x128, .f32⟩
  | 74 => ⟨S640000x128, .i1⟩
  | 75 => ⟨S_, .f32⟩
  | 76 => ⟨S640000x128, .f32⟩
  | 77 => ⟨S640000x128, .f32⟩
  | 78 => ⟨S640000x128, .f32⟩
  | 79 => ⟨S_, .f32⟩
  | 80 => ⟨S40000x128, .f32⟩
  | 81 => ⟨S640000x1, .i32⟩
  | 82 => ⟨S40000x128, .f32⟩
  | 83 => ⟨S1x128, .f32⟩
  | 84 => ⟨S1x128, .f32⟩
  | 85 => ⟨S40000x128, .f32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S1, .i32⟩
  | 95 => ⟨S_, .i32⟩
  | 96 => ⟨S640000x1, .i32⟩
  | 97 => ⟨S640000x1, .i1⟩
  | 98 => ⟨S1x1, .i32⟩
  | 99 => ⟨S640000x1, .i32⟩
  | 100 => ⟨S640000x1, .i1⟩
  | 101 => ⟨S640000x1, .i1⟩
  | 102 => ⟨S_, .i1⟩
  | 103 => ⟨S640000, .i1⟩
  | 104 => ⟨S640000x128, .f32⟩
  | 105 => ⟨S640000x128, .i1⟩
  | 106 => ⟨S_, .f32⟩
  | 107 => ⟨S640000x128, .f32⟩
  | 108 => ⟨S640000x128, .f32⟩
  | 109 => ⟨S640000x128, .f32⟩
  | 110 => ⟨S_, .f32⟩
  | 111 => ⟨S40000x128, .f32⟩
  | 112 => ⟨S640000x1, .i32⟩
  | 113 => ⟨S40000x128, .f32⟩
  | 114 => ⟨S1x128, .f32⟩
  | 115 => ⟨S1x128, .f32⟩
  | 116 => ⟨S40000x128, .f32⟩
  | 117 => ⟨S_, .i32⟩
  | 118 => ⟨S640000, .i32⟩
  | 119 => ⟨S640000, .i1⟩
  | 120 => ⟨S_, .i32⟩
  | 121 => ⟨S640000, .i32⟩
  | 122 => ⟨S640000, .i32⟩
  | 123 => ⟨S640000, .i32⟩
  | 124 => ⟨S640000x1, .i32⟩
  | 125 => ⟨S1, .i32⟩
  | 126 => ⟨S_, .i32⟩
  | 127 => ⟨S640000x1, .i32⟩
  | _ => ⟨S40000x128, .f32⟩

abbrev hbmTy0_1 (i : Nat) : BufTy := match i % 128 with
  | 0 => ⟨S640000x1, .i1⟩
  | 1 => ⟨S1x1, .i32⟩
  | 2 => ⟨S640000x1, .i32⟩
  | 3 => ⟨S640000x1, .i1⟩
  | 4 => ⟨S640000x1, .i1⟩
  | 5 => ⟨S_, .i1⟩
  | 6 => ⟨S640000, .i1⟩
  | 7 => ⟨S640000x128, .f32⟩
  | 8 => ⟨S640000x128, .i1⟩
  | 9 => ⟨S_, .f32⟩
  | 10 => ⟨S640000x128, .f32⟩
  | 11 => ⟨S640000x128, .f32⟩
  | 12 => ⟨S640000x128, .f32⟩
  | 13 => ⟨S_, .f32⟩
  | 14 => ⟨S40000x128, .f32⟩
  | 15 => ⟨S640000x1, .i32⟩
  | 16 => ⟨S40000x128, .f32⟩
  | 17 => ⟨S1x128, .f32⟩
  | 18 => ⟨S1x128, .f32⟩
  | 19 => ⟨S40000x128, .f32⟩
  | 20 => ⟨S_, .f32⟩
  | 21 => ⟨S64x128, .f32⟩
  | 22 => ⟨S40000x1, .i32⟩
  | 23 => ⟨S64x128, .f32⟩
  | 24 => ⟨S_, .f32⟩
  | 25 => ⟨S40000, .f32⟩
  | 26 => ⟨S_, .f32⟩
  | 27 => ⟨S64, .f32⟩
  | 28 => ⟨S40000x1, .i32⟩
  | 29 => ⟨S64, .f32⟩
  | 30 => ⟨S_, .f32⟩
  | 31 => ⟨S64, .f32⟩
  | 32 => ⟨S64, .f32⟩
  | 33 => ⟨S64x1, .f32⟩
  | 34 => ⟨S64x128, .f32⟩
  | 35 => ⟨S64x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S8000x128, .f32⟩
  | .local _ .vmem, ⟨33, _⟩ => ⟨S8000x128, .f32⟩
  | .local _ .vmem, ⟨34, _⟩ => ⟨S8000x128, .f32⟩
  | .local _ .vmem, ⟨35, _⟩ => ⟨S8000x128, .f32⟩
  | .local _ .vmem, ⟨36, _⟩ => ⟨S8000x128, .f32⟩
  | .local _ .vmem, ⟨37, _⟩ => ⟨S8000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S8000x128, .f32⟩
  | .local _ .vmem, ⟨49, _⟩ => ⟨S8000x128, .f32⟩
  | .local _ .vmem, ⟨50, _⟩ => ⟨S8000x128, .f32⟩
  | .local _ .vmem, ⟨51, _⟩ => ⟨S8000x128, .f32⟩
  | .local _ .vmem, ⟨52, _⟩ => ⟨S8000x128, .f32⟩
  | .local _ .vmem, ⟨53, _⟩ => ⟨S8000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S1x128, .f32⟩
  | .local _ .vmem, ⟨60, _⟩ => ⟨S128x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v4 : Ref sig .tc := ⟨.hbm, 46, rfl⟩
abbrev main_v5 : Ref sig .tc := ⟨.hbm, 47, rfl⟩
abbrev main_cst : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v12 : Ref sig .tc := ⟨.hbm, 77, rfl⟩
abbrev main_v13 : Ref sig .tc := ⟨.hbm, 78, rfl⟩
abbrev main_cst_0 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v20 : Ref sig .tc := ⟨.hbm, 108, rfl⟩
abbrev main_v21 : Ref sig .tc := ⟨.hbm, 109, rfl⟩
abbrev main_cst_1 : Ref sig .tc := ⟨.hbm, 110, rfl⟩
abbrev main_v22 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev main_v27 : Ref sig .tc := ⟨.hbm, 116, rfl⟩
abbrev main_call3_c : Ref sig .tc := ⟨.hbm, 117, rfl⟩
abbrev main_call3_v0 : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_c_1 : Ref sig .tc := ⟨.hbm, 125, rfl⟩
abbrev main_call3_c_2 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_c_3 : Ref sig .tc := ⟨.hbm, 133, rfl⟩
abbrev main_call3_v12 : Ref sig .tc := ⟨.hbm, 134, rfl⟩
abbrev main_call3_v13 : Ref sig .tc := ⟨.hbm, 135, rfl⟩
abbrev main_call3_v14 : Ref sig .tc := ⟨.hbm, 136, rfl⟩
abbrev main_call3_cst : Ref sig .tc := ⟨.hbm, 137, rfl⟩
abbrev main_call3_v15 : Ref sig .tc := ⟨.hbm, 138, rfl⟩
abbrev main_v28 : Ref sig .tc := ⟨.hbm, 139, rfl⟩
abbrev main_v29 : Ref sig .tc := ⟨.hbm, 140, rfl⟩
abbrev main_cst_2 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_cst_3 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_cst_4 : Ref sig .tc := ⟨.hbm, 152, rfl⟩
abbrev main_v39 : Ref sig .tc := ⟨.hbm, 153, rfl⟩
abbrev main_cst_5 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_cst_6 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg5_0 : Ref sig .tc := ⟨.vmem, 61, rfl⟩
abbrev cc7_stg6_0 : Ref sig .tc := ⟨.vmem, 62, rfl⟩
abbrev cc7_stg6_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem5_0 : DmaSem sig := 61
abbrev cc7_sem6_0 : DmaSem sig := 62
abbrev cc7_sem6_1 : DmaSem sig := 63

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![80], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S40000x128 : S_.BroadcastsInDim S40000x128 (![] : Fin 0 → Fin S40000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S40000_S40000x1_0 : S40000.BroadcastsInDim S40000x1 (![0] : Fin 1 → Fin S40000x1.rank)
  bcast_S_S40000 : S_.BroadcastsInDim S40000 (![] : Fin 0 → Fin S40000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .f32 = 32 ∨ (Rect.block (s := S640000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S640000x128.size a
  hwx0_2 : ∀ i : grid0.Coords, EltTy.bits .f32 = 32 ∨ (Rect.block (s := S640000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S40000x128.size a
  hwx1_6 : ∀ i : grid1.Coords, EltTy.bits .f32 = 32 ∨ (Rect.block (s := S40000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S640000x128.size a
  hwx2_0 : ∀ i : grid2.Coords, EltTy.bits .f32 = 32 ∨ (Rect.block (s := S640000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S640000x128.size a
  hwx2_1 : ∀ i : grid2.Coords, EltTy.bits .f32 = 32 ∨ (Rect.block (s := S640000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S640000x128.size a
  hwx2_2 : ∀ i : grid2.Coords, EltTy.bits .f32 = 32 ∨ (Rect.block (s := S640000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S40000x128.size a
  hwx3_1 : ∀ i : grid3.Coords, EltTy.bits .f32 = 32 ∨ (Rect.block (s := S40000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S40000x128.size a
  hwx3_6 : ∀ i : grid3.Coords, EltTy.bits .f32 = 32 ∨ (Rect.block (s := S40000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S640000x128.size a
  hwx4_0 : ∀ i : grid4.Coords, EltTy.bits .f32 = 32 ∨ (Rect.block (s := S640000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S640000x128.size a
  hwx4_1 : ∀ i : grid4.Coords, EltTy.bits .f32 = 32 ∨ (Rect.block (s := S640000x128) S8000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S640000x128.size a
  hwx4_2 : ∀ i : grid4.Coords, EltTy.bits .f32 = 32 ∨ (Rect.block (s := S640000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S40000x128.size a
  hwx5_0 : ∀ i : grid5.Coords, EltTy.bits .f32 = 32 ∨ (Rect.block (s := S40000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S40000x128.size a
  hwx5_1 : ∀ i : grid5.Coords, EltTy.bits .f32 = 32 ∨ (Rect.block (s := S40000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S40000x128.size a
  hwx5_6 : ∀ i : grid5.Coords, EltTy.bits .f32 = 32 ∨ (Rect.block (s := S40000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x128.size a ≤ S640000x128.size a
  hwx6_0 : ∀ i : grid6.Coords, EltTy.bits .f32 = 32 ∨ (Rect.block (s := S640000x128) S8000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x128.size a ≤ S640000x128.size a
  hwx6_1 : ∀ i : grid6.Coords, EltTy.bits .f32 = 32 ∨ (Rect.block (s := S640000x128) S8000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8000x128.size a ≤ S640000x128.size a
  hwx6_2 : ∀ i : grid6.Coords, EltTy.bits .f32 = 32 ∨ (Rect.block (s := S640000x128) S8000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S40000x128.size a
  hwx7_0 : ∀ i : grid7.Coords, EltTy.bits .f32 = 32 ∨ (Rect.block (s := S40000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S40000x128.size a
  hwx7_1 : ∀ i : grid7.Coords, EltTy.bits .f32 = 32 ∨ (Rect.block (s := S40000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x128.size a ≤ S40000x128.size a
  hwx7_6 : ∀ i : grid7.Coords, EltTy.bits .f32 = 32 ∨ (Rect.block (s := S40000x128) S5000x128.size (cc7_transform_6 i) (hinb7_6 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf

abbrev win0_0 : Pipeline.Window sig grid0 :=
  Pipeline.Window.ofSpec (Memref.whole main_v4) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v12) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v11) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v18) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v19) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v20) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v21) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v19) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v24) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v25) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg14) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v26) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v27) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v28) S8000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg1) S8000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v29) S8000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v27) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v32) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg16) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v33) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg18) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v34) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v35) S5000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S40000x128 : Shape := ⟨2, ![40000, 128]⟩
abbrev S640000x128 : Shape := ⟨2, ![640000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩
abbrev S64x128 : Shape := ⟨2, ![64, 128]⟩
abbrev S40000x1 : Shape := ⟨2, ![40000, 1]⟩
abbrev S64 : Shape := ⟨1, ![64]⟩
abbrev S64x1 : Shape := ⟨2, ![64, 1]⟩

abbrev nBuf : Space → Nat
  | .hbm => 168
  | .vmem => 0
  | .smem => 0
  | _ => 0

abbrev hbmTy0_0 (i : Nat) : BufTy := match i % 128 with
  | 0 => ⟨S40000x128, .f32⟩
  | 1 => ⟨S640000x128, .f32⟩
  | 2 => ⟨S2x640000, .i32⟩
  | 3 => ⟨S40000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S1x640000, .i32⟩
  | 21 => ⟨S640000, .i32⟩
  | 22 => ⟨S1x640000, .i32⟩
  | 23 => ⟨S640000, .i32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000x128, .f32⟩
  | 33 => ⟨S640000x128, .f32⟩
  | 34 => ⟨S_, .f32⟩
  | 35 => ⟨S640000x128, .f32⟩
  | 36 => ⟨S640000x128, .f32⟩
  | 37 => ⟨S_, .f32⟩
  | 38 => ⟨S40000x128, .f32⟩
  | 39 => ⟨S640000x1, .i32⟩
  | 40 => ⟨S40000x128, .f32⟩
  | 41 => ⟨S40000x128, .f32⟩
  | 42 => ⟨S40000x128, .f32⟩
  | 43 => ⟨S1x128, .f32⟩
  | 44 => ⟨S40000x128, .f32⟩
  | 45 => ⟨S40000x128, .f32⟩
  | 46 => ⟨S_, .f32⟩
  | 47 => ⟨S40000x128, .f32⟩
  | 48 => ⟨S40000x128, .f32⟩
  | 49 => ⟨S40000x128, .f32⟩
  | 50 => ⟨S1x128, .f32⟩
  | 51 => ⟨S40000x128, .f32⟩
  | 52 => ⟨S40000x128, .f32⟩
  | 53 => ⟨S_, .f32⟩
  | 54 => ⟨S40000x128, .f32⟩
  | 55 => ⟨S40000x128, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S640000x128, .f32⟩
  | 65 => ⟨S640000x128, .f32⟩
  | 66 => ⟨S_, .f32⟩
  | 67 => ⟨S640000x128, .f32⟩
  | 68 => ⟨S640000x128, .f32⟩
  | 69 => ⟨S_, .f32⟩
  | 70 => ⟨S40000x128, .f32⟩
  | 71 => ⟨S640000x1, .i32⟩
  | 72 => ⟨S40000x128, .f32⟩
  | 73 => ⟨S40000x128, .f32⟩
  | 74 => ⟨S40000x128, .f32⟩
  | 75 => ⟨S1x128, .f32⟩
  | 76 => ⟨S40000x128, .f32⟩
  | 77 => ⟨S40000x128, .f32⟩
  | 78 => ⟨S_, .f32⟩
  | 79 => ⟨S40000x128, .f32⟩
  | 80 => ⟨S40000x128, .f32⟩
  | 81 => ⟨S40000x128, .f32⟩
  | 82 => ⟨S1x128, .f32⟩
  | 83 => ⟨S40000x128, .f32⟩
  | 84 => ⟨S40000x128, .f32⟩
  | 85 => ⟨S_, .f32⟩
  | 86 => ⟨S40000x128, .f32⟩
  | 87 => ⟨S40000x128, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000x128, .f32⟩
  | 97 => ⟨S640000x128, .f32⟩
  | 98 => ⟨S_, .f32⟩
  | 99 => ⟨S640000x128, .f32⟩
  | 100 => ⟨S640000x128, .f32⟩
  | 101 => ⟨S_, .f32⟩
  | 102 => ⟨S40000x128, .f32⟩
  | 103 => ⟨S640000x1, .i32⟩
  | 104 => ⟨S40000x128, .f32⟩
  | 105 => ⟨S40000x128, .f32⟩
  | 106 => ⟨S40000x128, .f32⟩
  | 107 => ⟨S1x128, .f32⟩
  | 108 => ⟨S40000x128, .f32⟩
  | 109 => ⟨S40000x128, .f32⟩
  | 110 => ⟨S_, .f32⟩
  | 111 => ⟨S40000x128, .f32⟩
  | 112 => ⟨S40000x128, .f32⟩
  | 113 => ⟨S40000x128, .f32⟩
  | 114 => ⟨S1x128, .f32⟩
  | 115 => ⟨S40000x128, .f32⟩
  | 116 => ⟨S40000x128, .f32⟩
  | 117 => ⟨S_, .f32⟩
  | 118 => ⟨S40000x128, .f32⟩
  | 119 => ⟨S40000x128, .f32⟩
  | 120 => ⟨S_, .i32⟩
  | 121 => ⟨S640000, .i32⟩
  | 122 => ⟨S640000, .i1⟩
  | 123 => ⟨S_, .i32⟩
  | 124 => ⟨S640000, .i32⟩
  | 125 => ⟨S640000, .i32⟩
  | 126 => ⟨S640000, .i32⟩
  | 127 => ⟨S640000x1, .i32⟩
  | _ => ⟨S40000x128, .f32⟩

abbrev hbmTy0_1 (i : Nat) : BufTy := match i % 128 with
  | 0 => ⟨S640000x128, .f32⟩
  | 1 => ⟨S640000x128, .f32⟩
  | 2 => ⟨S_, .f32⟩
  | 3 => ⟨S640000x128, .f32⟩
  | 4 => ⟨S640000x128, .f32⟩
  | 5 => ⟨S_, .f32⟩
  | 6 => ⟨S40000x128, .f32⟩
  | 7 => ⟨S640000x1, .i32⟩
  | 8 => ⟨S40000x128, .f32⟩
  | 9 => ⟨S40000x128, .f32⟩
  | 10 => ⟨S40000x128, .f32⟩
  | 11 => ⟨S1x128, .f32⟩
  | 12 => ⟨S40000x128, .f32⟩
  | 13 => ⟨S40000x128, .f32⟩
  | 14 => ⟨S_, .f32⟩
  | 15 => ⟨S40000x128, .f32⟩
  | 16 => ⟨S40000x128, .f32⟩
  | 17 => ⟨S40000x128, .f32⟩
  | 18 => ⟨S1x128, .f32⟩
  | 19 => ⟨S40000x128, .f32⟩
  | 20 => ⟨S40000x128, .f32⟩
  | 21 => ⟨S_, .f32⟩
  | 22 => ⟨S40000x128, .f32⟩
  | 23 => ⟨S40000x128, .f32⟩
  | 24 => ⟨S_, .f32⟩
  | 25 => ⟨S64x128, .f32⟩
  | 26 => ⟨S40000x1, .i32⟩
  | 27 => ⟨S64x128, .f32⟩
  | 28 => ⟨S_, .f32⟩
  | 29 => ⟨S40000, .f32⟩
  | 30 => ⟨S_, .f32⟩
  | 31 => ⟨S64, .f32⟩
  | 32 => ⟨S40000x1, .i32⟩
  | 33 => ⟨S64, .f32⟩
  | 34 => ⟨S_, .f32⟩
  | 35 => ⟨S64, .f32⟩
  | 36 => ⟨S64, .f32⟩
  | 37 => ⟨S64x1, .f32⟩
  | 38 => ⟨S64x128, .f32⟩
  | 39 => ⟨S64x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_call0_cst : Ref sig .tc := ⟨.hbm, 34, rfl⟩
abbrev main_call0_v0 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_1 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_call1_cst : Ref sig .tc := ⟨.hbm, 53, rfl⟩
abbrev main_call1_v0 : Ref sig .tc := ⟨.hbm, 54, rfl⟩
abbrev main_v27 : Ref sig .tc := ⟨.hbm, 55, rfl⟩
abbrev main_c_2 : Ref sig .tc := ⟨.hbm, 56, rfl⟩
abbrev main_v28 : Ref sig .tc := ⟨.hbm, 57, rfl⟩
abbrev main_v29 : Ref sig .tc := ⟨.hbm, 58, rfl⟩
abbrev main_c_3 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_call2_cst : Ref sig .tc := ⟨.hbm, 66, rfl⟩
abbrev main_call2_v0 : Ref sig .tc := ⟨.hbm, 67, rfl⟩
abbrev main_v36 : Ref sig .tc := ⟨.hbm, 68, rfl⟩
abbrev main_cst_4 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_5 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_call3_cst : Ref sig .tc := ⟨.hbm, 85, rfl⟩
abbrev main_call3_v0 : Ref sig .tc := ⟨.hbm, 86, rfl⟩
abbrev main_v51 : Ref sig .tc := ⟨.hbm, 87, rfl⟩
abbrev main_c_6 : Ref sig .tc := ⟨.hbm, 88, rfl⟩
abbrev main_v52 : Ref sig .tc := ⟨.hbm, 89, rfl⟩
abbrev main_v53 : Ref sig .tc := ⟨.hbm, 90, rfl⟩
abbrev main_c_7 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_call4_cst : Ref sig .tc := ⟨.hbm, 98, rfl⟩
abbrev main_call4_v0 : Ref sig .tc := ⟨.hbm, 99, rfl⟩
abbrev main_v60 : Ref sig .tc := ⟨.hbm, 100, rfl⟩
abbrev main_cst_8 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_9 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_call5_cst : Ref sig .tc := ⟨.hbm, 117, rfl⟩
abbrev main_call5_v0 : Ref sig .tc := ⟨.hbm, 118, rfl⟩
abbrev main_v75 : Ref sig .tc := ⟨.hbm, 119, rfl⟩
abbrev main_c_10 : Ref sig .tc := ⟨.hbm, 120, rfl⟩
abbrev main_v76 : Ref sig .tc := ⟨.hbm, 121, rfl⟩
abbrev main_v77 : Ref sig .tc := ⟨.hbm, 122, rfl⟩
abbrev main_c_11 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_call6_cst : Ref sig .tc := ⟨.hbm, 130, rfl⟩
abbrev main_call6_v0 : Ref sig .tc := ⟨.hbm, 131, rfl⟩
abbrev main_v84 : Ref sig .tc := ⟨.hbm, 132, rfl⟩
abbrev main_cst_12 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_13 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_call7_cst : Ref sig .tc := ⟨.hbm, 149, rfl⟩
abbrev main_call7_v0 : Ref sig .tc := ⟨.hbm, 150, rfl⟩
abbrev main_v99 : Ref sig .tc := ⟨.hbm, 151, rfl⟩
abbrev main_cst_14 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_15 : Ref sig .tc := ⟨.hbm, 156, rfl⟩
abbrev main_v103 : Ref sig .tc := ⟨.hbm, 157, rfl⟩
abbrev main_cst_16 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_cst_17 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S64x128 : S_.BroadcastsInDim S64x128 (![] : Fin 0 → Fin S64x128.rank)
  bcast_S40000_S40000x1_0 : S40000.BroadcastsInDim S40000x1 (![0] : Fin 1 → Fin S40000x1.rank)
  bcast_S_S40000 : S_.BroadcastsInDim S40000 (![] : Fin 0 → Fin S40000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf

class Facts : Prop extends Facts₀ where

variable [Facts]
-- ==== Proof.Keep.lean ====
/-
  A buffer that no host operation of a stretch writes holds after the stretch what it held before it, and a kernel
  region leaves every buffer that is not one of its arrays, and every array it only reads, as it found it. Chained
  over the segments between two boundaries of the program, each line below says that one buffer holds at the later
  boundary what it held at the earlier one.
-/
import proofs.«430419_j69750268887652_1_alg».proof.Proof.Gen.KernelIdeal.Frame

set_option maxRecDepth 16384

noncomputable section

namespace Cert.Gine

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- No operation of the stretch writes the buffer: the writes of every operation are read off and compared. -/
macro "host_keep" : tactic => `(tactic|
  (refine StableHlo.after_of_forall_not_mem _ _ (List.forall_iff_forall_mem.mp ?_)
   simp only [hostOps0, hostOps0_1, hostOps1, hostOps2, hostOps3, hostOps4, hostOps5, hostOps6, hostOps7, hostOps8, List.flatten_cons, List.flatten_nil, List.append_nil, List.cons_append,
     List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide)))

/-- At launch the fold's contents are the memory's. -/
theorem W0_eq (b : Ref sig .tc) : W0 m ρ c (Proc.devRef .tc b) = m ((c : Thread nD τ).loc b) := rfl

theorem keep_main_arg0_1_0 : W1 m ρ c (Proc.devRef .tc main_arg0) = W0 m ρ c (Proc.devRef .tc main_arg0) :=
  (show W1 m ρ c (Proc.devRef .tc main_arg0) = W0 m ρ c (Proc.devRef .tc main_arg0) from by host_keep)

theorem keep_main_arg0_4_0 : W4 m ρ c (Proc.devRef .tc main_arg0) = W0 m ρ c (Proc.devRef .tc main_arg0) :=
  (show W4 m ρ c (Proc.devRef .tc main_arg0) = W3 m ρ c (Proc.devRef .tc main_arg0) from by host_keep).trans
    ((show W3 m ρ c (Proc.devRef .tc main_arg0) = W2 m ρ c (Proc.devRef .tc main_arg0) from W3_of_ne m ρ c main_arg0 (by decide)).trans
    ((show W2 m ρ c (Proc.devRef .tc main_arg0) = W1 m ρ c (Proc.devRef .tc main_arg0) from by host_keep).trans
    ((show W1 m ρ c (Proc.devRef .tc main_arg0) = W0 m ρ c (Proc.devRef .tc main_arg0) from by host_keep))))

theorem keep_main_arg1_2_0 : W2 m ρ c (Proc.devRef .tc main_arg1) = W0 m ρ c (Proc.devRef .tc main_arg1) :=
  (show W2 m ρ c (Proc.devRef .tc main_arg1) = W1 m ρ c (Proc.devRef .tc main_arg1) from by host_keep).trans
    ((show W1 m ρ c (Proc.devRef .tc main_arg1) = W0 m ρ c (Proc.devRef .tc main_arg1) from by host_keep))

theorem keep_main_arg1_6_0 : W6 m ρ c (Proc.devRef .tc main_arg1) = W0 m ρ c (Proc.devRef .tc main_arg1) :=
  (show W6 m ρ c (Proc.devRef .tc main_arg1) = W5 m ρ c (Proc.devRef .tc main_arg1) from by host_keep).trans
    ((show W5 m ρ c (Proc.devRef .tc main_arg1) = W4 m ρ c (Proc.devRef .tc main_arg1) from W5_of_ne m ρ c main_arg1 (by decide)).trans
    ((show W4 m ρ c (Proc.devRef .tc main_arg1) = W3 m ρ c (Proc.devRef .tc main_arg1) from by host_keep).trans
    ((show W3 m ρ c (Proc.devRef .tc main_arg1) = W2 m ρ c (Proc.devRef .tc main_arg1) from (W3_arr m ρ c 1).trans (((dat0 (V2 m ρ) c).arrAt_in 1 rfl _).trans (A_eq0 (V2 m ρ) c 1))).trans
    ((show W2 m ρ c (Proc.devRef .tc main_arg1) = W1 m ρ c (Proc.devRef .tc main_arg1) from by host_keep).trans
    ((show W1 m ρ c (Proc.devRef .tc main_arg1) = W0 m ρ c (Proc.devRef .tc main_arg1) from by host_keep))))))

theorem keep_main_arg1_10_0 : W10 m ρ c (Proc.devRef .tc main_arg1) = W0 m ρ c (Proc.devRef .tc main_arg1) :=
  (show W10 m ρ c (Proc.devRef .tc main_arg1) = W9 m ρ c (Proc.devRef .tc main_arg1) from by host_keep).trans
    ((show W9 m ρ c (Proc.devRef .tc main_arg1) = W8 m ρ c (Proc.devRef .tc main_arg1) from W9_of_ne m ρ c main_arg1 (by decide)).trans
    ((show W8 m ρ c (Proc.devRef .tc main_arg1) = W7 m ρ c (Proc.devRef .tc main_arg1) from by host_keep).trans
    ((show W7 m ρ c (Proc.devRef .tc main_arg1) = W6 m ρ c (Proc.devRef .tc main_arg1) from (W7_arr m ρ c 1).trans (((dat2 (V6 m ρ) c).arrAt_in 1 rfl _).trans (A_eq2 (V6 m ρ) c 1))).trans
    ((show W6 m ρ c (Proc.devRef .tc main_arg1) = W5 m ρ c (Proc.devRef .tc main_arg1) from by host_keep).trans
    ((show W5 m ρ c (Proc.devRef .tc main_arg1) = W4 m ρ c (Proc.devRef .tc main_arg1) from W5_of_ne m ρ c main_arg1 (by decide)).trans
    ((show W4 m ρ c (Proc.devRef .tc main_arg1) = W3 m ρ c (Proc.devRef .tc main_arg1) from by host_keep).trans
    ((show W3 m ρ c (Proc.devRef .tc main_arg1) = W2 m ρ c (Proc.devRef .tc main_arg1) from (W3_arr m ρ c 1).trans (((dat0 (V2 m ρ) c).arrAt_in 1 rfl _).trans (A_eq0 (V2 m ρ) c 1))).trans
    ((show W2 m ρ c (Proc.devRef .tc main_arg1) = W1 m ρ c (Proc.devRef .tc main_arg1) from by host_keep).trans
    ((show W1 m ρ c (Proc.devRef .tc main_arg1) = W0 m ρ c (Proc.devRef .tc main_arg1) from by host_keep))))))))))

theorem keep_main_arg1_14_0 : W14 m ρ c (Proc.devRef .tc main_arg1) = W0 m ρ c (Proc.devRef .tc main_arg1) :=
  (show W14 m ρ c (Proc.devRef .tc main_arg1) = W13 m ρ c (Proc.devRef .tc main_arg1) from by host_keep).trans
    ((show W13 m ρ c (Proc.devRef .tc main_arg1) = W12 m ρ c (Proc.devRef .tc main_arg1) from W13_of_ne m ρ c main_arg1 (by decide)).trans
    ((show W12 m ρ c (Proc.devRef .tc main_arg1) = W11 m ρ c (Proc.devRef .tc main_arg1) from by host_keep).trans
    ((show W11 m ρ c (Proc.devRef .tc main_arg1) = W10 m ρ c (Proc.devRef .tc main_arg1) from (W11_arr m ρ c 1).trans (((dat4 (V10 m ρ) c).arrAt_in 1 rfl _).trans (A_eq4 (V10 m ρ) c 1))).trans
    ((show W10 m ρ c (Proc.devRef .tc main_arg1) = W9 m ρ c (Proc.devRef .tc main_arg1) from by host_keep).trans
    ((show W9 m ρ c (Proc.devRef .tc main_arg1) = W8 m ρ c (Proc.devRef .tc main_arg1) from W9_of_ne m ρ c main_arg1 (by decide)).trans
    ((show W8 m ρ c (Proc.devRef .tc main_arg1) = W7 m ρ c (Proc.devRef .tc main_arg1) from by host_keep).trans
    ((show W7 m ρ c (Proc.devRef .tc main_arg1) = W6 m ρ c (Proc.devRef .tc main_arg1) from (W7_arr m ρ c 1).trans (((dat2 (V6 m ρ) c).arrAt_in 1 rfl _).trans (A_eq2 (V6 m ρ) c 1))).trans
    ((show W6 m ρ c (Proc.devRef .tc main_arg1) = W5 m ρ c (Proc.devRef .tc main_arg1) from by host_keep).trans
    ((show W5 m ρ c (Proc.devRef .tc main_arg1) = W4 m ρ c (Proc.devRef .tc main_arg1) from W5_of_ne m ρ c main_arg1 (by decide)).trans
    ((show W4 m ρ c (Proc.devRef .tc main_arg1) = W3 m ρ c (Proc.devRef .tc main_arg1) from by host_keep).trans
    ((show W3 m ρ c (Proc.devRef .tc main_arg1) = W2 m ρ c (Proc.devRef .tc main_arg1) from (W3_arr m ρ c 1).trans (((dat0 (V2 m ρ) c).arrAt_in 1 rfl _).trans (A_eq0 (V2 m ρ) c 1))).trans
    ((show W2 m ρ c (Proc.devRef .tc main_arg1) = W1 m ρ c (Proc.devRef .tc main_arg1) from by host_keep).trans
    ((show W1 m ρ c (Proc.devRef .tc main_arg1) = W0 m ρ c (Proc.devRef .tc main_arg1) from by host_keep))))))))))))))

theorem keep_main_arg3_17_0 : W17 m ρ c (Proc.devRef .tc main_arg3) = W0 m ρ c (Proc.devRef .tc main_arg3) :=
  (show W17 m ρ c (Proc.devRef .tc main_arg3) = W16 m ρ c (Proc.devRef .tc main_arg3) from W17_of_ne m ρ c main_arg3 (by decide)).trans
    ((show W16 m ρ c (Proc.devRef .tc main_arg3) = W15 m ρ c (Proc.devRef .tc main_arg3) from by host_keep).trans
    ((show W15 m ρ c (Proc.devRef .tc main_arg3) = W14 m ρ c (Proc.devRef .tc main_arg3) from W15_of_ne m ρ c main_arg3 (by decide)).trans
    ((show W14 m ρ c (Proc.devRef .tc main_arg3) = W13 m ρ c (Proc.devRef .tc main_arg3) from by host_keep).trans
    ((show W13 m ρ c (Proc.devRef .tc main_arg3) = W12 m ρ c (Proc.devRef .tc main_arg3) from W13_of_ne m ρ c main_arg3 (by decide)).trans
    ((show W12 m ρ c (Proc.devRef .tc main_arg3) = W11 m ρ c (Proc.devRef .tc main_arg3) from by host_keep).trans
    ((show W11 m ρ c (Proc.devRef .tc main_arg3) = W10 m ρ c (Proc.devRef .tc main_arg3) from W11_of_ne m ρ c main_arg3 (by decide)).trans
    ((show W10 m ρ c (Proc.devRef .tc main_arg3) = W9 m ρ c (Proc.devRef .tc main_arg3) from by host_keep).trans
    ((show W9 m ρ c (Proc.devRef .tc main_arg3) = W8 m ρ c (Proc.devRef .tc main_arg3) from W9_of_ne m ρ c main_arg3 (by decide)).trans
    ((show W8 m ρ c (Proc.devRef .tc main_arg3) = W7 m ρ c (Proc.devRef .tc main_arg3) from by host_keep).trans
    ((show W7 m ρ c (Proc.devRef .tc main_arg3) = W6 m ρ c (Proc.devRef .tc main_arg3) from W7_of_ne m ρ c main_arg3 (by decide)).trans
    ((show W6 m ρ c (Proc.devRef .tc main_arg3) = W5 m ρ c (Proc.devRef .tc main_arg3) from by host_keep).trans
    ((show W5 m ρ c (Proc.devRef .tc main_arg3) = W4 m ρ c (Proc.devRef .tc main_arg3) from W5_of_ne m ρ c main_arg3 (by decide)).trans
    ((show W4 m ρ c (Proc.devRef .tc main_arg3) = W3 m ρ c (Proc.devRef .tc main_arg3) from by host_keep).trans
    ((show W3 m ρ c (Proc.devRef .tc main_arg3) = W2 m ρ c (Proc.devRef .tc main_arg3) from W3_of_ne m ρ c main_arg3 (by decide)).trans
    ((show W2 m ρ c (Proc.devRef .tc main_arg3) = W1 m ρ c (Proc.devRef .tc main_arg3) from by host_keep).trans
    ((show W1 m ρ c (Proc.devRef .tc main_arg3) = W0 m ρ c (Proc.devRef .tc main_arg3) from by host_keep)))))))))))))))))

theorem keep_main_arg4_4_0 : W4 m ρ c (Proc.devRef .tc main_arg4) = W0 m ρ c (Proc.devRef .tc main_arg4) :=
  (show W4 m ρ c (Proc.devRef .tc main_arg4) = W3 m ρ c (Proc.devRef .tc main_arg4) from by host_keep).trans
    ((show W3 m ρ c (Proc.devRef .tc main_arg4) = W2 m ρ c (Proc.devRef .tc main_arg4) from W3_of_ne m ρ c main_arg4 (by decide)).trans
    ((show W2 m ρ c (Proc.devRef .tc main_arg4) = W1 m ρ c (Proc.devRef .tc main_arg4) from by host_keep).trans
    ((show W1 m ρ c (Proc.devRef .tc main_arg4) = W0 m ρ c (Proc.devRef .tc main_arg4) from by host_keep))))

theorem keep_main_arg6_4_0 : W4 m ρ c (Proc.devRef .tc main_arg6) = W0 m ρ c (Proc.devRef .tc main_arg6) :=
  (show W4 m ρ c (Proc.devRef .tc main_arg6) = W3 m ρ c (Proc.devRef .tc main_arg6) from by host_keep).trans
    ((show W3 m ρ c (Proc.devRef .tc main_arg6) = W2 m ρ c (Proc.devRef .tc main_arg6) from W3_of_ne m ρ c main_arg6 (by decide)).trans
    ((show W2 m ρ c (Proc.devRef .tc main_arg6) = W1 m ρ c (Proc.devRef .tc main_arg6) from by host_keep).trans
    ((show W1 m ρ c (Proc.devRef .tc main_arg6) = W0 m ρ c (Proc.devRef .tc main_arg6) from by host_keep))))

theorem keep_main_arg5_3_0 : W3 m ρ c (Proc.devRef .tc main_arg5) = W0 m ρ c (Proc.devRef .tc main_arg5) :=
  (show W3 m ρ c (Proc.devRef .tc main_arg5) = W2 m ρ c (Proc.devRef .tc main_arg5) from W3_of_ne m ρ c main_arg5 (by decide)).trans
    ((show W2 m ρ c (Proc.devRef .tc main_arg5) = W1 m ρ c (Proc.devRef .tc main_arg5) from by host_keep).trans
    ((show W1 m ρ c (Proc.devRef .tc main_arg5) = W0 m ρ c (Proc.devRef .tc main_arg5) from by host_keep)))

theorem keep_main_arg7_3_0 : W3 m ρ c (Proc.devRef .tc main_arg7) = W0 m ρ c (Proc.devRef .tc main_arg7) :=
  (show W3 m ρ c (Proc.devRef .tc main_arg7) = W2 m ρ c (Proc.devRef .tc main_arg7) from W3_of_ne m ρ c main_arg7 (by decide)).trans
    ((show W2 m ρ c (Proc.devRef .tc main_arg7) = W1 m ρ c (Proc.devRef .tc main_arg7) from by host_keep).trans
    ((show W1 m ρ c (Proc.devRef .tc main_arg7) = W0 m ρ c (Proc.devRef .tc main_arg7) from by host_keep)))

theorem keep_main_arg8_8_0 : W8 m ρ c (Proc.devRef .tc main_arg8) = W0 m ρ c (Proc.devRef .tc main_arg8) :=
  (show W8 m ρ c (Proc.devRef .tc main_arg8) = W7 m ρ c (Proc.devRef .tc main_arg8) from by host_keep).trans
    ((show W7 m ρ c (Proc.devRef .tc main_arg8) = W6 m ρ c (Proc.devRef .tc main_arg8) from W7_of_ne m ρ c main_arg8 (by decide)).trans
    ((show W6 m ρ c (Proc.devRef .tc main_arg8) = W5 m ρ c (Proc.devRef .tc main_arg8) from by host_keep).trans
    ((show W5 m ρ c (Proc.devRef .tc main_arg8) = W4 m ρ c (Proc.devRef .tc main_arg8) from W5_of_ne m ρ c main_arg8 (by decide)).trans
    ((show W4 m ρ c (Proc.devRef .tc main_arg8) = W3 m ρ c (Proc.devRef .tc main_arg8) from by host_keep).trans
    ((show W3 m ρ c (Proc.devRef .tc main_arg8) = W2 m ρ c (Proc.devRef .tc main_arg8) from W3_of_ne m ρ c main_arg8 (by decide)).trans
    ((show W2 m ρ c (Proc.devRef .tc main_arg8) = W1 m ρ c (Proc.devRef .tc main_arg8) from by host_keep).trans
    ((show W1 m ρ c (Proc.devRef .tc main_arg8) = W0 m ρ c (Proc.devRef .tc main_arg8) from by host_keep))))))))

theorem keep_main_arg10_8_0 : W8 m ρ c (Proc.devRef .tc main_arg10) = W0 m ρ c (Proc.devRef .tc main_arg10) :=
  (show W8 m ρ c (Proc.devRef .tc main_arg10) = W7 m ρ c (Proc.devRef .tc main_arg10) from by host_keep).trans
    ((show W7 m ρ c (Proc.devRef .tc main_arg10) = W6 m ρ c (Proc.devRef .tc main_arg10) from W7_of_ne m ρ c main_arg10 (by decide)).trans
    ((show W6 m ρ c (Proc.devRef .tc main_arg10) = W5 m ρ c (Proc.devRef .tc main_arg10) from by host_keep).trans
    ((show W5 m ρ c (Proc.devRef .tc main_arg10) = W4 m ρ c (Proc.devRef .tc main_arg10) from W5_of_ne m ρ c main_arg10 (by decide)).trans
    ((show W4 m ρ c (Proc.devRef .tc main_arg10) = W3 m ρ c (Proc.devRef .tc main_arg10) from by host_keep).trans
    ((show W3 m ρ c (Proc.devRef .tc main_arg10) = W2 m ρ c (Proc.devRef .tc main_arg10) from W3_of_ne m ρ c main_arg10 (by decide)).trans
    ((show W2 m ρ c (Proc.devRef .tc main_arg10) = W1 m ρ c (Proc.devRef .tc main_arg10) from by host_keep).trans
    ((show W1 m ρ c (Proc.devRef .tc main_arg10) = W0 m ρ c (Proc.devRef .tc main_arg10) from by host_keep))))))))

theorem keep_main_arg9_7_0 : W7 m ρ c (Proc.devRef .tc main_arg9) = W0 m ρ c (Proc.devRef .tc main_arg9) :=
  (show W7 m ρ c (Proc.devRef .tc main_arg9) = W6 m ρ c (Proc.devRef .tc main_arg9) from W7_of_ne m ρ c main_arg9 (by decide)).trans
    ((show W6 m ρ c (Proc.devRef .tc main_arg9) = W5 m ρ c (Proc.devRef .tc main_arg9) from by host_keep).trans
    ((show W5 m ρ c (Proc.devRef .tc main_arg9) = W4 m ρ c (Proc.devRef .tc main_arg9) from W5_of_ne m ρ c main_arg9 (by decide)).trans
    ((show W4 m ρ c (Proc.devRef .tc main_arg9) = W3 m ρ c (Proc.devRef .tc main_arg9) from by host_keep).trans
    ((show W3 m ρ c (Proc.devRef .tc main_arg9) = W2 m ρ c (Proc.devRef .tc main_arg9) from W3_of_ne m ρ c main_arg9 (by decide)).trans
    ((show W2 m ρ c (Proc.devRef .tc main_arg9) = W1 m ρ c (Proc.devRef .tc main_arg9) from by host_keep).trans
    ((show W1 m ρ c (Proc.devRef .tc main_arg9) = W0 m ρ c (Proc.devRef .tc main_arg9) from by host_keep)))))))

theorem keep_main_arg11_7_0 : W7 m ρ c (Proc.devRef .tc main_arg11) = W0 m ρ c (Proc.devRef .tc main_arg11) :=
  (show W7 m ρ c (Proc.devRef .tc main_arg11) = W6 m ρ c (Proc.devRef .tc main_arg11) from W7_of_ne m ρ c main_arg11 (by decide)).trans
    ((show W6 m ρ c (Proc.devRef .tc main_arg11) = W5 m ρ c (Proc.devRef .tc main_arg11) from by host_keep).trans
    ((show W5 m ρ c (Proc.devRef .tc main_arg11) = W4 m ρ c (Proc.devRef .tc main_arg11) from W5_of_ne m ρ c main_arg11 (by decide)).trans
    ((show W4 m ρ c (Proc.devRef .tc main_arg11) = W3 m ρ c (Proc.devRef .tc main_arg11) from by host_keep).trans
    ((show W3 m ρ c (Proc.devRef .tc main_arg11) = W2 m ρ c (Proc.devRef .tc main_arg11) from W3_of_ne m ρ c main_arg11 (by decide)).trans
    ((show W2 m ρ c (Proc.devRef .tc main_arg11) = W1 m ρ c (Proc.devRef .tc main_arg11) from by host_keep).trans
    ((show W1 m ρ c (Proc.devRef .tc main_arg11) = W0 m ρ c (Proc.devRef .tc main_arg11) from by host_keep)))))))

theorem keep_main_arg12_12_0 : W12 m ρ c (Proc.devRef .tc main_arg12) = W0 m ρ c (Proc.devRef .tc main_arg12) :=
  (show W12 m ρ c (Proc.devRef .tc main_arg12) = W11 m ρ c (Proc.devRef .tc main_arg12) from by host_keep).trans
    ((show W11 m ρ c (Proc.devRef .tc main_arg12) = W10 m ρ c (Proc.devRef .tc main_arg12) from W11_of_ne m ρ c main_arg12 (by decide)).trans
    ((show W10 m ρ c (Proc.devRef .tc main_arg12) = W9 m ρ c (Proc.devRef .tc main_arg12) from by host_keep).trans
    ((show W9 m ρ c (Proc.devRef .tc main_arg12) = W8 m ρ c (Proc.devRef .tc main_arg12) from W9_of_ne m ρ c main_arg12 (by decide)).trans
    ((show W8 m ρ c (Proc.devRef .tc main_arg12) = W7 m ρ c (Proc.devRef .tc main_arg12) from by host_keep).trans
    ((show W7 m ρ c (Proc.devRef .tc main_arg12) = W6 m ρ c (Proc.devRef .tc main_arg12) from W7_of_ne m ρ c main_arg12 (by decide)).trans
    ((show W6 m ρ c (Proc.devRef .tc main_arg12) = W5 m ρ c (Proc.devRef .tc main_arg12) from by host_keep).trans
    ((show W5 m ρ c (Proc.devRef .tc main_arg12) = W4 m ρ c (Proc.devRef .tc main_arg12) from W5_of_ne m ρ c main_arg12 (by decide)).trans
    ((show W4 m ρ c (Proc.devRef .tc main_arg12) = W3 m ρ c (Proc.devRef .tc main_arg12) from by host_keep).trans
    ((show W3 m ρ c (Proc.devRef .tc main_arg12) = W2 m ρ c (Proc.devRef .tc main_arg12) from W3_of_ne m ρ c main_arg12 (by decide)).trans
    ((show W2 m ρ c (Proc.devRef .tc main_arg12) = W1 m ρ c (Proc.devRef .tc main_arg12) from by host_keep).trans
    ((show W1 m ρ c (Proc.devRef .tc main_arg12) = W0 m ρ c (Proc.devRef .tc main_arg12) from by host_keep))))))))))))

theorem keep_main_arg14_12_0 : W12 m ρ c (Proc.devRef .tc main_arg14) = W0 m ρ c (Proc.devRef .tc main_arg14) :=
  (show W12 m ρ c (Proc.devRef .tc main_arg14) = W11 m ρ c (Proc.devRef .tc main_arg14) from by host_keep).trans
    ((show W11 m ρ c (Proc.devRef .tc main_arg14) = W10 m ρ c (Proc.devRef .tc main_arg14) from W11_of_ne m ρ c main_arg14 (by decide)).trans
    ((show W10 m ρ c (Proc.devRef .tc main_arg14) = W9 m ρ c (Proc.devRef .tc main_arg14) from by host_keep).trans
    ((show W9 m ρ c (Proc.devRef .tc main_arg14) = W8 m ρ c (Proc.devRef .tc main_arg14) from W9_of_ne m ρ c main_arg14 (by decide)).trans
    ((show W8 m ρ c (Proc.devRef .tc main_arg14) = W7 m ρ c (Proc.devRef .tc main_arg14) from by host_keep).trans
    ((show W7 m ρ c (Proc.devRef .tc main_arg14) = W6 m ρ c (Proc.devRef .tc main_arg14) from W7_of_ne m ρ c main_arg14 (by decide)).trans
    ((show W6 m ρ c (Proc.devRef .tc main_arg14) = W5 m ρ c (Proc.devRef .tc main_arg14) from by host_keep).trans
    ((show W5 m ρ c (Proc.devRef .tc main_arg14) = W4 m ρ c (Proc.devRef .tc main_arg14) from W5_of_ne m ρ c main_arg14 (by decide)).trans
    ((show W4 m ρ c (Proc.devRef .tc main_arg14) = W3 m ρ c (Proc.devRef .tc main_arg14) from by host_keep).trans
    ((show W3 m ρ c (Proc.devRef .tc main_arg14) = W2 m ρ c (Proc.devRef .tc main_arg14) from W3_of_ne m ρ c main_arg14 (by decide)).trans
    ((show W2 m ρ c (Proc.devRef .tc main_arg14) = W1 m ρ c (Proc.devRef .tc main_arg14) from by host_keep).trans
    ((show W1 m ρ c (Proc.devRef .tc main_arg14) = W0 m ρ c (Proc.devRef .tc main_arg14) from by host_keep))))))))))))

theorem keep_main_arg13_11_0 : W11 m ρ c (Proc.devRef .tc main_arg13) = W0 m ρ c (Proc.devRef .tc main_arg13) :=
  (show W11 m ρ c (Proc.devRef .tc main_arg13) = W10 m ρ c (Proc.devRef .tc main_arg13) from W11_of_ne m ρ c main_arg13 (by decide)).trans
    ((show W10 m ρ c (Proc.devRef .tc main_arg13) = W9 m ρ c (Proc.devRef .tc main_arg13) from by host_keep).trans
    ((show W9 m ρ c (Proc.devRef .tc main_arg13) = W8 m ρ c (Proc.devRef .tc main_arg13) from W9_of_ne m ρ c main_arg13 (by decide)).trans
    ((show W8 m ρ c (Proc.devRef .tc main_arg13) = W7 m ρ c (Proc.devRef .tc main_arg13) from by host_keep).trans
    ((show W7 m ρ c (Proc.devRef .tc main_arg13) = W6 m ρ c (Proc.devRef .tc main_arg13) from W7_of_ne m ρ c main_arg13 (by decide)).trans
    ((show W6 m ρ c (Proc.devRef .tc main_arg13) = W5 m ρ c (Proc.devRef .tc main_arg13) from by host_keep).trans
    ((show W5 m ρ c (Proc.devRef .tc main_arg13) = W4 m ρ c (Proc.devRef .tc main_arg13) from W5_of_ne m ρ c main_arg13 (by decide)).trans
    ((show W4 m ρ c (Proc.devRef .tc main_arg13) = W3 m ρ c (Proc.devRef .tc main_arg13) from by host_keep).trans
    ((show W3 m ρ c (Proc.devRef .tc main_arg13) = W2 m ρ c (Proc.devRef .tc main_arg13) from W3_of_ne m ρ c main_arg13 (by decide)).trans
    ((show W2 m ρ c (Proc.devRef .tc main_arg13) = W1 m ρ c (Proc.devRef .tc main_arg13) from by host_keep).trans
    ((show W1 m ρ c (Proc.devRef .tc main_arg13) = W0 m ρ c (Proc.devRef .tc main_arg13) from by host_keep)))))))))))

theorem keep_main_arg15_11_0 : W11 m ρ c (Proc.devRef .tc main_arg15) = W0 m ρ c (Proc.devRef .tc main_arg15) :=
  (show W11 m ρ c (Proc.devRef .tc main_arg15) = W10 m ρ c (Proc.devRef .tc main_arg15) from W11_of_ne m ρ c main_arg15 (by decide)).trans
    ((show W10 m ρ c (Proc.devRef .tc main_arg15) = W9 m ρ c (Proc.devRef .tc main_arg15) from by host_keep).trans
    ((show W9 m ρ c (Proc.devRef .tc main_arg15) = W8 m ρ c (Proc.devRef .tc main_arg15) from W9_of_ne m ρ c main_arg15 (by decide)).trans
    ((show W8 m ρ c (Proc.devRef .tc main_arg15) = W7 m ρ c (Proc.devRef .tc main_arg15) from by host_keep).trans
    ((show W7 m ρ c (Proc.devRef .tc main_arg15) = W6 m ρ c (Proc.devRef .tc main_arg15) from W7_of_ne m ρ c main_arg15 (by decide)).trans
    ((show W6 m ρ c (Proc.devRef .tc main_arg15) = W5 m ρ c (Proc.devRef .tc main_arg15) from by host_keep).trans
    ((show W5 m ρ c (Proc.devRef .tc main_arg15) = W4 m ρ c (Proc.devRef .tc main_arg15) from W5_of_ne m ρ c main_arg15 (by decide)).trans
    ((show W4 m ρ c (Proc.devRef .tc main_arg15) = W3 m ρ c (Proc.devRef .tc main_arg15) from by host_keep).trans
    ((show W3 m ρ c (Proc.devRef .tc main_arg15) = W2 m ρ c (Proc.devRef .tc main_arg15) from W3_of_ne m ρ c main_arg15 (by decide)).trans
    ((show W2 m ρ c (Proc.devRef .tc main_arg15) = W1 m ρ c (Proc.devRef .tc main_arg15) from by host_keep).trans
    ((show W1 m ρ c (Proc.devRef .tc main_arg15) = W0 m ρ c (Proc.devRef .tc main_arg15) from by host_keep)))))))))))

theorem keep_main_arg16_16_0 : W16 m ρ c (Proc.devRef .tc main_arg16) = W0 m ρ c (Proc.devRef .tc main_arg16) :=
  (show W16 m ρ c (Proc.devRef .tc main_arg16) = W15 m ρ c (Proc.devRef .tc main_arg16) from by host_keep).trans
    ((show W15 m ρ c (Proc.devRef .tc main_arg16) = W14 m ρ c (Proc.devRef .tc main_arg16) from W15_of_ne m ρ c main_arg16 (by decide)).trans
    ((show W14 m ρ c (Proc.devRef .tc main_arg16) = W13 m ρ c (Proc.devRef .tc main_arg16) from by host_keep).trans
    ((show W13 m ρ c (Proc.devRef .tc main_arg16) = W12 m ρ c (Proc.devRef .tc main_arg16) from W13_of_ne m ρ c main_arg16 (by decide)).trans
    ((show W12 m ρ c (Proc.devRef .tc main_arg16) = W11 m ρ c (Proc.devRef .tc main_arg16) from by host_keep).trans
    ((show W11 m ρ c (Proc.devRef .tc main_arg16) = W10 m ρ c (Proc.devRef .tc main_arg16) from W11_of_ne m ρ c main_arg16 (by decide)).trans
    ((show W10 m ρ c (Proc.devRef .tc main_arg16) = W9 m ρ c (Proc.devRef .tc main_arg16) from by host_keep).trans
    ((show W9 m ρ c (Proc.devRef .tc main_arg16) = W8 m ρ c (Proc.devRef .tc main_arg16) from W9_of_ne m ρ c main_arg16 (by decide)).trans
    ((show W8 m ρ c (Proc.devRef .tc main_arg16) = W7 m ρ c (Proc.devRef .tc main_arg16) from by host_keep).trans
    ((show W7 m ρ c (Proc.devRef .tc main_arg16) = W6 m ρ c (Proc.devRef .tc main_arg16) from W7_of_ne m ρ c main_arg16 (by decide)).trans
    ((show W6 m ρ c (Proc.devRef .tc main_arg16) = W5 m ρ c (Proc.devRef .tc main_arg16) from by host_keep).trans
    ((show W5 m ρ c (Proc.devRef .tc main_arg16) = W4 m ρ c (Proc.devRef .tc main_arg16) from W5_of_ne m ρ c main_arg16 (by decide)).trans
    ((show W4 m ρ c (Proc.devRef .tc main_arg16) = W3 m ρ c (Proc.devRef .tc main_arg16) from by host_keep).trans
    ((show W3 m ρ c (Proc.devRef .tc main_arg16) = W2 m ρ c (Proc.devRef .tc main_arg16) from W3_of_ne m ρ c main_arg16 (by decide)).trans
    ((show W2 m ρ c (Proc.devRef .tc main_arg16) = W1 m ρ c (Proc.devRef .tc main_arg16) from by host_keep).trans
    ((show W1 m ρ c (Proc.devRef .tc main_arg16) = W0 m ρ c (Proc.devRef .tc main_arg16) from by host_keep))))))))))))))))

theorem keep_main_arg18_16_0 : W16 m ρ c (Proc.devRef .tc main_arg18) = W0 m ρ c (Proc.devRef .tc main_arg18) :=
  (show W16 m ρ c (Proc.devRef .tc main_arg18) = W15 m ρ c (Proc.devRef .tc main_arg18) from by host_keep).trans
    ((show W15 m ρ c (Proc.devRef .tc main_arg18) = W14 m ρ c (Proc.devRef .tc main_arg18) from W15_of_ne m ρ c main_arg18 (by decide)).trans
    ((show W14 m ρ c (Proc.devRef .tc main_arg18) = W13 m ρ c (Proc.devRef .tc main_arg18) from by host_keep).trans
    ((show W13 m ρ c (Proc.devRef .tc main_arg18) = W12 m ρ c (Proc.devRef .tc main_arg18) from W13_of_ne m ρ c main_arg18 (by decide)).trans
    ((show W12 m ρ c (Proc.devRef .tc main_arg18) = W11 m ρ c (Proc.devRef .tc main_arg18) from by host_keep).trans
    ((show W11 m ρ c (Proc.devRef .tc main_arg18) = W10 m ρ c (Proc.devRef .tc main_arg18) from W11_of_ne m ρ c main_arg18 (by decide)).trans
    ((show W10 m ρ c (Proc.devRef .tc main_arg18) = W9 m ρ c (Proc.devRef .tc main_arg18) from by host_keep).trans
    ((show W9 m ρ c (Proc.devRef .tc main_arg18) = W8 m ρ c (Proc.devRef .tc main_arg18) from W9_of_ne m ρ c main_arg18 (by decide)).trans
    ((show W8 m ρ c (Proc.devRef .tc main_arg18) = W7 m ρ c (Proc.devRef .tc main_arg18) from by host_keep).trans
    ((show W7 m ρ c (Proc.devRef .tc main_arg18) = W6 m ρ c (Proc.devRef .tc main_arg18) from W7_of_ne m ρ c main_arg18 (by decide)).trans
    ((show W6 m ρ c (Proc.devRef .tc main_arg18) = W5 m ρ c (Proc.devRef .tc main_arg18) from by host_keep).trans
    ((show W5 m ρ c (Proc.devRef .tc main_arg18) = W4 m ρ c (Proc.devRef .tc main_arg18) from W5_of_ne m ρ c main_arg18 (by decide)).trans
    ((show W4 m ρ c (Proc.devRef .tc main_arg18) = W3 m ρ c (Proc.devRef .tc main_arg18) from by host_keep).trans
    ((show W3 m ρ c (Proc.devRef .tc main_arg18) = W2 m ρ c (Proc.devRef .tc main_arg18) from W3_of_ne m ρ c main_arg18 (by decide)).trans
    ((show W2 m ρ c (Proc.devRef .tc main_arg18) = W1 m ρ c (Proc.devRef .tc main_arg18) from by host_keep).trans
    ((show W1 m ρ c (Proc.devRef .tc main_arg18) = W0 m ρ c (Proc.devRef .tc main_arg18) from by host_keep))))))))))))))))

theorem keep_main_arg17_15_0 : W15 m ρ c (Proc.devRef .tc main_arg17) = W0 m ρ c (Proc.devRef .tc main_arg17) :=
  (show W15 m ρ c (Proc.devRef .tc main_arg17) = W14 m ρ c (Proc.devRef .tc main_arg17) from W15_of_ne m ρ c main_arg17 (by decide)).trans
    ((show W14 m ρ c (Proc.devRef .tc main_arg17) = W13 m ρ c (Proc.devRef .tc main_arg17) from by host_keep).trans
    ((show W13 m ρ c (Proc.devRef .tc main_arg17) = W12 m ρ c (Proc.devRef .tc main_arg17) from W13_of_ne m ρ c main_arg17 (by decide)).trans
    ((show W12 m ρ c (Proc.devRef .tc main_arg17) = W11 m ρ c (Proc.devRef .tc main_arg17) from by host_keep).trans
    ((show W11 m ρ c (Proc.devRef .tc main_arg17) = W10 m ρ c (Proc.devRef .tc main_arg17) from W11_of_ne m ρ c main_arg17 (by decide)).trans
    ((show W10 m ρ c (Proc.devRef .tc main_arg17) = W9 m ρ c (Proc.devRef .tc main_arg17) from by host_keep).trans
    ((show W9 m ρ c (Proc.devRef .tc main_arg17) = W8 m ρ c (Proc.devRef .tc main_arg17) from W9_of_ne m ρ c main_arg17 (by decide)).trans
    ((show W8 m ρ c (Proc.devRef .tc main_arg17) = W7 m ρ c (Proc.devRef .tc main_arg17) from by host_keep).trans
    ((show W7 m ρ c (Proc.devRef .tc main_arg17) = W6 m ρ c (Proc.devRef .tc main_arg17) from W7_of_ne m ρ c main_arg17 (by decide)).trans
    ((show W6 m ρ c (Proc.devRef .tc main_arg17) = W5 m ρ c (Proc.devRef .tc main_arg17) from by host_keep).trans
    ((show W5 m ρ c (Proc.devRef .tc main_arg17) = W4 m ρ c (Proc.devRef .tc main_arg17) from W5_of_ne m ρ c main_arg17 (by decide)).trans
    ((show W4 m ρ c (Proc.devRef .tc main_arg17) = W3 m ρ c (Proc.devRef .tc main_arg17) from by host_keep).trans
    ((show W3 m ρ c (Proc.devRef .tc main_arg17) = W2 m ρ c (Proc.devRef .tc main_arg17) from W3_of_ne m ρ c main_arg17 (by decide)).trans
    ((show W2 m ρ c (Proc.devRef .tc main_arg17) = W1 m ρ c (Proc.devRef .tc main_arg17) from by host_keep).trans
    ((show W1 m ρ c (Proc.devRef .tc main_arg17) = W0 m ρ c (Proc.devRef .tc main_arg17) from by host_keep)))))))))))))))

theorem keep_main_arg19_15_0 : W15 m ρ c (Proc.devRef .tc main_arg19) = W0 m ρ c (Proc.devRef .tc main_arg19) :=
  (show W15 m ρ c (Proc.devRef .tc main_arg19) = W14 m ρ c (Proc.devRef .tc main_arg19) from W15_of_ne m ρ c main_arg19 (by decide)).trans
    ((show W14 m ρ c (Proc.devRef .tc main_arg19) = W13 m ρ c (Proc.devRef .tc main_arg19) from by host_keep).trans
    ((show W13 m ρ c (Proc.devRef .tc main_arg19) = W12 m ρ c (Proc.devRef .tc main_arg19) from W13_of_ne m ρ c main_arg19 (by decide)).trans
    ((show W12 m ρ c (Proc.devRef .tc main_arg19) = W11 m ρ c (Proc.devRef .tc main_arg19) from by host_keep).trans
    ((show W11 m ρ c (Proc.devRef .tc main_arg19) = W10 m ρ c (Proc.devRef .tc main_arg19) from W11_of_ne m ρ c main_arg19 (by decide)).trans
    ((show W10 m ρ c (Proc.devRef .tc main_arg19) = W9 m ρ c (Proc.devRef .tc main_arg19) from by host_keep).trans
    ((show W9 m ρ c (Proc.devRef .tc main_arg19) = W8 m ρ c (Proc.devRef .tc main_arg19) from W9_of_ne m ρ c main_arg19 (by decide)).trans
    ((show W8 m ρ c (Proc.devRef .tc main_arg19) = W7 m ρ c (Proc.devRef .tc main_arg19) from by host_keep).trans
    ((show W7 m ρ c (Proc.devRef .tc main_arg19) = W6 m ρ c (Proc.devRef .tc main_arg19) from W7_of_ne m ρ c main_arg19 (by decide)).trans
    ((show W6 m ρ c (Proc.devRef .tc main_arg19) = W5 m ρ c (Proc.devRef .tc main_arg19) from by host_keep).trans
    ((show W5 m ρ c (Proc.devRef .tc main_arg19) = W4 m ρ c (Proc.devRef .tc main_arg19) from W5_of_ne m ρ c main_arg19 (by decide)).trans
    ((show W4 m ρ c (Proc.devRef .tc main_arg19) = W3 m ρ c (Proc.devRef .tc main_arg19) from by host_keep).trans
    ((show W3 m ρ c (Proc.devRef .tc main_arg19) = W2 m ρ c (Proc.devRef .tc main_arg19) from W3_of_ne m ρ c main_arg19 (by decide)).trans
    ((show W2 m ρ c (Proc.devRef .tc main_arg19) = W1 m ρ c (Proc.devRef .tc main_arg19) from by host_keep).trans
    ((show W1 m ρ c (Proc.devRef .tc main_arg19) = W0 m ρ c (Proc.devRef .tc main_arg19) from by host_keep)))))))))))))))

theorem keep_main_v1_5_1 : W5 m ρ c (Proc.devRef .tc main_v1) = W1 m ρ c (Proc.devRef .tc main_v1) :=
  (show W5 m ρ c (Proc.devRef .tc main_v1) = W4 m ρ c (Proc.devRef .tc main_v1) from W5_of_ne m ρ c main_v1 (by decide)).trans
    ((show W4 m ρ c (Proc.devRef .tc main_v1) = W3 m ρ c (Proc.devRef .tc main_v1) from by host_keep).trans
    ((show W3 m ρ c (Proc.devRef .tc main_v1) = W2 m ρ c (Proc.devRef .tc main_v1) from W3_of_ne m ρ c main_v1 (by decide)).trans
    ((show W2 m ρ c (Proc.devRef .tc main_v1) = W1 m ρ c (Proc.devRef .tc main_v1) from by host_keep))))

theorem keep_main_v1_9_1 : W9 m ρ c (Proc.devRef .tc main_v1) = W1 m ρ c (Proc.devRef .tc main_v1) :=
  (show W9 m ρ c (Proc.devRef .tc main_v1) = W8 m ρ c (Proc.devRef .tc main_v1) from W9_of_ne m ρ c main_v1 (by decide)).trans
    ((show W8 m ρ c (Proc.devRef .tc main_v1) = W7 m ρ c (Proc.devRef .tc main_v1) from by host_keep).trans
    ((show W7 m ρ c (Proc.devRef .tc main_v1) = W6 m ρ c (Proc.devRef .tc main_v1) from W7_of_ne m ρ c main_v1 (by decide)).trans
    ((show W6 m ρ c (Proc.devRef .tc main_v1) = W5 m ρ c (Proc.devRef .tc main_v1) from by host_keep).trans
    ((show W5 m ρ c (Proc.devRef .tc main_v1) = W4 m ρ c (Proc.devRef .tc main_v1) from W5_of_ne m ρ c main_v1 (by decide)).trans
    ((show W4 m ρ c (Proc.devRef .tc main_v1) = W3 m ρ c (Proc.devRef .tc main_v1) from by host_keep).trans
    ((show W3 m ρ c (Proc.devRef .tc main_v1) = W2 m ρ c (Proc.devRef .tc main_v1) from W3_of_ne m ρ c main_v1 (by decide)).trans
    ((show W2 m ρ c (Proc.devRef .tc main_v1) = W1 m ρ c (Proc.devRef .tc main_v1) from by host_keep))))))))

theorem keep_main_v1_13_1 : W13 m ρ c (Proc.devRef .tc main_v1) = W1 m ρ c (Proc.devRef .tc main_v1) :=
  (show W13 m ρ c (Proc.devRef .tc main_v1) = W12 m ρ c (Proc.devRef .tc main_v1) from W13_of_ne m ρ c main_v1 (by decide)).trans
    ((show W12 m ρ c (Proc.devRef .tc main_v1) = W11 m ρ c (Proc.devRef .tc main_v1) from by host_keep).trans
    ((show W11 m ρ c (Proc.devRef .tc main_v1) = W10 m ρ c (Proc.devRef .tc main_v1) from W11_of_ne m ρ c main_v1 (by decide)).trans
    ((show W10 m ρ c (Proc.devRef .tc main_v1) = W9 m ρ c (Proc.devRef .tc main_v1) from by host_keep).trans
    ((show W9 m ρ c (Proc.devRef .tc main_v1) = W8 m ρ c (Proc.devRef .tc main_v1) from W9_of_ne m ρ c main_v1 (by decide)).trans
    ((show W8 m ρ c (Proc.devRef .tc main_v1) = W7 m ρ c (Proc.devRef .tc main_v1) from by host_keep).trans
    ((show W7 m ρ c (Proc.devRef .tc main_v1) = W6 m ρ c (Proc.devRef .tc main_v1) from W7_of_ne m ρ c main_v1 (by decide)).trans
    ((show W6 m ρ c (Proc.devRef .tc main_v1) = W5 m ρ c (Proc.devRef .tc main_v1) from by host_keep).trans
    ((show W5 m ρ c (Proc.devRef .tc main_v1) = W4 m ρ c (Proc.devRef .tc main_v1) from W5_of_ne m ρ c main_v1 (by decide)).trans
    ((show W4 m ρ c (Proc.devRef .tc main_v1) = W3 m ρ c (Proc.devRef .tc main_v1) from by host_keep).trans
    ((show W3 m ρ c (Proc.devRef .tc main_v1) = W2 m ρ c (Proc.devRef .tc main_v1) from W3_of_ne m ρ c main_v1 (by decide)).trans
    ((show W2 m ρ c (Proc.devRef .tc main_v1) = W1 m ρ c (Proc.devRef .tc main_v1) from by host_keep))))))))))))

theorem keep_main_v3_3_1 : W3 m ρ c (Proc.devRef .tc main_v3) = W1 m ρ c (Proc.devRef .tc main_v3) :=
  (show W3 m ρ c (Proc.devRef .tc main_v3) = W2 m ρ c (Proc.devRef .tc main_v3) from W3_of_ne m ρ c main_v3 (by decide)).trans
    ((show W2 m ρ c (Proc.devRef .tc main_v3) = W1 m ρ c (Proc.devRef .tc main_v3) from by host_keep))

theorem keep_main_v3_7_1 : W7 m ρ c (Proc.devRef .tc main_v3) = W1 m ρ c (Proc.devRef .tc main_v3) :=
  (show W7 m ρ c (Proc.devRef .tc main_v3) = W6 m ρ c (Proc.devRef .tc main_v3) from W7_of_ne m ρ c main_v3 (by decide)).trans
    ((show W6 m ρ c (Proc.devRef .tc main_v3) = W5 m ρ c (Proc.devRef .tc main_v3) from by host_keep).trans
    ((show W5 m ρ c (Proc.devRef .tc main_v3) = W4 m ρ c (Proc.devRef .tc main_v3) from W5_of_ne m ρ c main_v3 (by decide)).trans
    ((show W4 m ρ c (Proc.devRef .tc main_v3) = W3 m ρ c (Proc.devRef .tc main_v3) from by host_keep).trans
    ((show W3 m ρ c (Proc.devRef .tc main_v3) = W2 m ρ c (Proc.devRef .tc main_v3) from W3_of_ne m ρ c main_v3 (by decide)).trans
    ((show W2 m ρ c (Proc.devRef .tc main_v3) = W1 m ρ c (Proc.devRef .tc main_v3) from by host_keep))))))

theorem keep_main_v3_11_1 : W11 m ρ c (Proc.devRef .tc main_v3) = W1 m ρ c (Proc.devRef .tc main_v3) :=
  (show W11 m ρ c (Proc.devRef .tc main_v3) = W10 m ρ c (Proc.devRef .tc main_v3) from W11_of_ne m ρ c main_v3 (by decide)).trans
    ((show W10 m ρ c (Proc.devRef .tc main_v3) = W9 m ρ c (Proc.devRef .tc main_v3) from by host_keep).trans
    ((show W9 m ρ c (Proc.devRef .tc main_v3) = W8 m ρ c (Proc.devRef .tc main_v3) from W9_of_ne m ρ c main_v3 (by decide)).trans
    ((show W8 m ρ c (Proc.devRef .tc main_v3) = W7 m ρ c (Proc.devRef .tc main_v3) from by host_keep).trans
    ((show W7 m ρ c (Proc.devRef .tc main_v3) = W6 m ρ c (Proc.devRef .tc main_v3) from W7_of_ne m ρ c main_v3 (by decide)).trans
    ((show W6 m ρ c (Proc.devRef .tc main_v3) = W5 m ρ c (Proc.devRef .tc main_v3) from by host_keep).trans
    ((show W5 m ρ c (Proc.devRef .tc main_v3) = W4 m ρ c (Proc.devRef .tc main_v3) from W5_of_ne m ρ c main_v3 (by decide)).trans
    ((show W4 m ρ c (Proc.devRef .tc main_v3) = W3 m ρ c (Proc.devRef .tc main_v3) from by host_keep).trans
    ((show W3 m ρ c (Proc.devRef .tc main_v3) = W2 m ρ c (Proc.devRef .tc main_v3) from W3_of_ne m ρ c main_v3 (by decide)).trans
    ((show W2 m ρ c (Proc.devRef .tc main_v3) = W1 m ρ c (Proc.devRef .tc main_v3) from by host_keep))))))))))

theorem keep_main_v3_15_1 : W15 m ρ c (Proc.devRef .tc main_v3) = W1 m ρ c (Proc.devRef .tc main_v3) :=
  (show W15 m ρ c (Proc.devRef .tc main_v3) = W14 m ρ c (Proc.devRef .tc main_v3) from W15_of_ne m ρ c main_v3 (by decide)).trans
    ((show W14 m ρ c (Proc.devRef .tc main_v3) = W13 m ρ c (Proc.devRef .tc main_v3) from by host_keep).trans
    ((show W13 m ρ c (Proc.devRef .tc main_v3) = W12 m ρ c (Proc.devRef .tc main_v3) from W13_of_ne m ρ c main_v3 (by decide)).trans
    ((show W12 m ρ c (Proc.devRef .tc main_v3) = W11 m ρ c (Proc.devRef .tc main_v3) from by host_keep).trans
    ((show W11 m ρ c (Proc.devRef .tc main_v3) = W10 m ρ c (Proc.devRef .tc main_v3) from W11_of_ne m ρ c main_v3 (by decide)).trans
    ((show W10 m ρ c (Proc.devRef .tc main_v3) = W9 m ρ c (Proc.devRef .tc main_v3) from by host_keep).trans
    ((show W9 m ρ c (Proc.devRef .tc main_v3) = W8 m ρ c (Proc.devRef .tc main_v3) from W9_of_ne m ρ c main_v3 (by decide)).trans
    ((show W8 m ρ c (Proc.devRef .tc main_v3) = W7 m ρ c (Proc.devRef .tc main_v3) from by host_keep).trans
    ((show W7 m ρ c (Proc.devRef .tc main_v3) = W6 m ρ c (Proc.devRef .tc main_v3) from W7_of_ne m ρ c main_v3 (by decide)).trans
    ((show W6 m ρ c (Proc.devRef .tc main_v3) = W5 m ρ c (Proc.devRef .tc main_v3) from by host_keep).trans
    ((show W5 m ρ c (Proc.devRef .tc main_v3) = W4 m ρ c (Proc.devRef .tc main_v3) from W5_of_ne m ρ c main_v3 (by decide)).trans
    ((show W4 m ρ c (Proc.devRef .tc main_v3) = W3 m ρ c (Proc.devRef .tc main_v3) from by host_keep).trans
    ((show W3 m ρ c (Proc.devRef .tc main_v3) = W2 m ρ c (Proc.devRef .tc main_v3) from W3_of_ne m ρ c main_v3 (by decide)).trans
    ((show W2 m ρ c (Proc.devRef .tc main_v3) = W1 m ρ c (Proc.devRef .tc main_v3) from by host_keep))))))))))))))

theorem keep_main_v11_8_5 : W8 m ρ c (Proc.devRef .tc main_v11) = W5 m ρ c (Proc.devRef .tc main_v11) :=
  (show W8 m ρ c (Proc.devRef .tc main_v11) = W7 m ρ c (Proc.devRef .tc main_v11) from by host_keep).trans
    ((show W7 m ρ c (Proc.devRef .tc main_v11) = W6 m ρ c (Proc.devRef .tc main_v11) from W7_of_ne m ρ c main_v11 (by decide)).trans
    ((show W6 m ρ c (Proc.devRef .tc main_v11) = W5 m ρ c (Proc.devRef .tc main_v11) from by host_keep)))

theorem keep_main_v19_12_9 : W12 m ρ c (Proc.devRef .tc main_v19) = W9 m ρ c (Proc.devRef .tc main_v19) :=
  (show W12 m ρ c (Proc.devRef .tc main_v19) = W11 m ρ c (Proc.devRef .tc main_v19) from by host_keep).trans
    ((show W11 m ρ c (Proc.devRef .tc main_v19) = W10 m ρ c (Proc.devRef .tc main_v19) from W11_of_ne m ρ c main_v19 (by decide)).trans
    ((show W10 m ρ c (Proc.devRef .tc main_v19) = W9 m ρ c (Proc.devRef .tc main_v19) from by host_keep)))

theorem keep_main_v27_16_13 : W16 m ρ c (Proc.devRef .tc main_v27) = W13 m ρ c (Proc.devRef .tc main_v27) :=
  (show W16 m ρ c (Proc.devRef .tc main_v27) = W15 m ρ c (Proc.devRef .tc main_v27) from by host_keep).trans
    ((show W15 m ρ c (Proc.devRef .tc main_v27) = W14 m ρ c (Proc.devRef .tc main_v27) from W15_of_ne m ρ c main_v27 (by decide)).trans
    ((show W14 m ρ c (Proc.devRef .tc main_v27) = W13 m ρ c (Proc.devRef .tc main_v27) from by host_keep)))

end Cert.Gine

end
-- ==== Proof.Layer.lean ====
/-
  One message-passing layer of the graph network, and the closing mean over each graph, as functions of whole
  arrays, spelt with the host operations the reference program applies.

  A layer takes node features h (40000 × 128). Every edge e has a source node and a destination node (rows 0 and 1
  of the edge list; a negative source counts from the end, as array indexing does). The message of e is
  max(h[src e] + ea[e], 0), a destination's aggregate is the sum of the messages of the edges that point at it, and
  the new features are max(max((h + aggregate) · w1 + b1, 0) · w2 + b2, 0), each bias added to every row.
  The pool sums the rows of every graph and divides by max(number of rows of that graph, 1).
-/
import proofs.«430419_j69750268887652_1_alg».proof.Proof.Gen.ReferenceIdeal
import Idealize.ShloMosaic.PureOps.Ideal

noncomputable section

namespace Cert.Gine

open Cert.ReferenceIdeal Cert.ReferenceIdeal.Gen Idealize.ShloMosaic Idealize.ShloMosaic.TcCoe

variable {F : FTy → Type} [FloatOps F]

/-- Row 0 of the edge list: the source node of every edge. -/
def srcOf (ei : IVec S2x640000 32) : IVec S640000 32 :=
  shapeCast _ (extractStridedSlice S1x640000 ![0, 0] ei slices_S2x640000_S1x640000_0_0) shapeCasts_S1x640000_S640000

/-- Row 1 of the edge list: the destination node of every edge. -/
def dstOf (ei : IVec S2x640000 32) : IVec S640000 32 :=
  shapeCast _ (extractStridedSlice S1x640000 ![1, 0] ei slices_S2x640000_S1x640000_1_0) shapeCasts_S1x640000_S640000

/-- A source index as the gather reads it: 40000 is added to a negative one; one column. -/
def wrapSrc (s : IVec S640000 32) : IVec S640000x1 32 :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 40000#32))) s)

/-- The zero array of the edges' shape, and of the nodes'. -/
def zeroE : FVec F S640000x128 .f32 := broadcastInDim S640000x128 ![] bcast_S_S640000x128 (constant S_ .f32 0x00000000#32)
def zeroN : FVec F S40000x128 .f32 := broadcastInDim S40000x128 ![] bcast_S_S40000x128 (constant S_ .f32 0x00000000#32)

/-- Row `src e` of the node features, for every edge e. -/
def gatherRows (h : FVec F S40000x128 .f32) (s : IVec S640000 32) : FVec F S640000x128 .f32 :=
  Host.gather gather_S40000x128_S640000x1_S640000x128_1_0_n_n_0_1_1128 h (wrapSrc s)

/-- The messages: max(xs + ea, 0), entry by entry. -/
def edgeMsg (xs ea : FVec F S640000x128 .f32) : FVec F S640000x128 .f32 := maximumf (addf xs ea) zeroE

/-- Each node's sum of the messages of the edges that point at it. -/
def aggregate (d : IVec S640000 32) (msg : FVec F S640000x128 .f32) : FVec F S40000x128 .f32 :=
  Host.scatterAdd scatter_S40000x128_S640000x1_S640000x128_1_0_0_1 zeroN
    (broadcastInDim S640000x1 ![0] bcast_S640000_S640000x1_0 d) msg

/-- A bias given as one row, repeated down the 40000 rows. -/
def rowBias (br : FVec F S1x128 .f32) : FVec F S40000x128 .f32 :=
  broadcastInDim S40000x128 ![0, 1] bcast_S1x128_S40000x128_0_1 br

/-- A bias vector laid out as one row. -/
def asRow (b : FVec F S128 .f32) : FVec F S1x128 .f32 := broadcastInDim S1x128 ![1] bcast_S128_S1x128_1 b

/-- The two-layer perceptron with its closing rectifier, the biases given as rows:
    max(max(z · w1 + b1, 0) · w2 + b2, 0). -/
def mlpRow (z : FVec F S40000x128 .f32) (w1 : FVec F S128x128 .f32) (b1r : FVec F S1x128 .f32)
    (w2 : FVec F S128x128 .f32) (b2r : FVec F S1x128 .f32) : FVec F S40000x128 .f32 :=
  maximumf (addf (Host.dotGeneral dot_S40000x128_S128x128_S40000x128_1_0_0_1_n_n none
      (maximumf (addf (Host.dotGeneral dot_S40000x128_S128x128_S40000x128_1_0_0_1_n_n none z w1) (rowBias b1r)) zeroN) w2)
    (rowBias b2r)) zeroN

/-- One layer: gather, message, aggregate, add, perceptron. -/
def layer (h : FVec F S40000x128 .f32) (ei : IVec S2x640000 32) (ea : FVec F S640000x128 .f32)
    (w1 : FVec F S128x128 .f32) (b1 : FVec F S128 .f32) (w2 : FVec F S128x128 .f32) (b2 : FVec F S128 .f32) :
    FVec F S40000x128 .f32 :=
  mlpRow (addf h (aggregate (dstOf ei) (edgeMsg (gatherRows h (srcOf ei)) ea))) w1 (asRow b1) w2 (asRow b2)

/-- The mean of the node features over each of the 64 graphs (a graph with no node divides by 1). -/
def pool (bt : IVec S40000 32) (h : FVec F S40000x128 .f32) : FVec F S64x128 .f32 :=
  Host.divf
    (Host.scatterAdd scatter_S64x128_S40000x1_S40000x128_1_0_0_1
      (broadcastInDim S64x128 ![] bcast_S_S64x128 (constant S_ .f32 0x00000000#32))
      (broadcastInDim S40000x1 ![0] bcast_S40000_S40000x1_0 bt) h)
    (broadcastInDim S64x128 ![0, 1] bcast_S64x1_S64x128_0_1 (broadcastInDim S64x1 ![0] bcast_S64_S64x1_0
      (maximumf
        (Host.scatterAdd scatter_S64_S40000x1_S40000_n_0_0_1 (broadcastInDim S64 ![] bcast_S_S64 (constant S_ .f32 0x00000000#32))
          (broadcastInDim S40000x1 ![0] bcast_S40000_S40000x1_0 bt)
          (broadcastInDim S40000 ![] bcast_S_S40000 (constant S_ .f32 0x3F800000#32)))
        (broadcastInDim S64 ![] bcast_S_S64 (constant S_ .f32 0x3F800000#32)))))

/-- The whole network: four layers, then the pool. -/
def network (x : FVec F S40000x128 .f32) (ea : FVec F S640000x128 .f32) (ei : IVec S2x640000 32) (bt : IVec S40000 32)
    (w11 : FVec F S128x128 .f32) (b11 : FVec F S128 .f32) (w12 : FVec F S128x128 .f32) (b12 : FVec F S128 .f32)
    (w21 : FVec F S128x128 .f32) (b21 : FVec F S128 .f32) (w22 : FVec F S128x128 .f32) (b22 : FVec F S128 .f32)
    (w31 : FVec F S128x128 .f32) (b31 : FVec F S128 .f32) (w32 : FVec F S128x128 .f32) (b32 : FVec F S128 .f32)
    (w41 : FVec F S128x128 .f32) (b41 : FVec F S128 .f32) (w42 : FVec F S128x128 .f32) (b42 : FVec F S128 .f32) :
    FVec F S64x128 .f32 :=
  pool bt (layer (layer (layer (layer x ei ea w11 b11 w12 b12) ei ea w21 b21 w22 b22) ei ea w31 b31 w32 b32) ei ea w41 b41 w42 b42)

end Cert.Gine

end
-- ==== Proof.TakeMask.lean ====
/-
  The kernel program gathers the source rows with a guard: an edge whose source index, after a negative one has
  had 40000 added, lies outside 0 … 39999 receives a fill value instead of a row. When every source index lies in
  −40000 … 39999 — the range in which it names a node — the guard passes on every edge and the guarded gather is the
  plain gather of Layer.lean.
-/
import proofs.«430419_j69750268887652_1_alg».proof.Proof.Gen.KernelIdeal
import proofs.«430419_j69750268887652_1_alg».proof.Proof.Layer
import Idealize.ShloMosaic.Lib.StableHlo.Predicate

noncomputable section

namespace Cert.Gine

open Cert.KernelIdeal Cert.KernelIdeal.Gen Idealize.ShloMosaic Idealize.ShloMosaic.TcCoe

variable {F : FTy → Type} [FloatOps F]

/-- The guard, per edge: 0 ≤ wrapped source ≤ 39999. -/
def srcOk (s : IVec S640000 32) : IVec S640000 1 :=
  (fun x v => Host.reduce IntOp.andi x v reducesTo_S640000x1_S640000_d1 h_S_)
    (andi (cmpi .sge (wrapSrc s) (broadcastInDim S640000x1 ![] bcast_S_S640000x1 (constantI S_ 32 0#32)))
      (cmpi .sle (wrapSrc s) (broadcastInDim S640000x1 ![0, 1] bcast_S1x1_S640000x1_0_1
        (broadcastInDim S1x1 ![1] bcast_S1_S1x1_1 (constantI S1 32 39999#32)))))
    (constantI S_ 1 1#1)

/-- The guarded gather: the gathered row where the guard holds, the fill elsewhere. -/
def takeFill (h : FVec F S40000x128 .f32) (s : IVec S640000 32) : FVec F S640000x128 .f32 :=
  select (broadcastInDim S640000x128 ![0] bcast_S640000_S640000x128_0 (srcOk s)) (gatherRows h s)
    (broadcastInDim S640000x128 ![] bcast_S_S640000x128 (constant S_ .f32 0x7FC00000#32))

/-- Every source index names a node: −40000 ≤ src e < 40000. -/
def SrcInRange (ei : IVec S2x640000 32) : Prop :=
  ∀ e : S640000.Idx, -40000 ≤ (srcOf ei e).toInt ∧ (srcOf ei e).toInt < 40000

/-- A left fold by `and` from 1 over one-bit words that are all 1 is 1. -/
private theorem foldl_andi_of_all_one {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_of_all_one f hf l

/-- A scalar select on a bit that is 1 is its first operand; on a bit that is not 1, its second. -/
private theorem select_of_one {α : Type} {c : BitVec 1} (hc : c = 1#1) (a b : α) : Scalar.select c a b = a := if_pos hc
private theorem select_of_ne_one {α : Type} {c : BitVec 1} (hc : ¬ c = 1#1) (a b : α) : Scalar.select c a b = b := if_neg hc

/-- One word: for −40000 ≤ a < 40000 (read signed) the wrapped word w = (a < 0 ? a + 40000 : a) has 0 ≤ w ≤ 39999.
    A negative a has −40000 ≤ a, so a + 40000 lies in 0 … 39999 and the 32-bit sum does not wrap; a non-negative a
    is itself below 40000. -/
private theorem wrap_in_range (a : BitVec 32) (h1 : -40000 ≤ a.toInt) (h2 : a.toInt < 40000) :
    IntOp.cmpi .sge (Scalar.select (IntOp.cmpi .slt a 0#32) (IntOp.addi a 40000#32) a) 0#32 = 1#1 ∧
    IntOp.cmpi .sle (Scalar.select (IntOp.cmpi .slt a 0#32) (IntOp.addi a 40000#32) a) 39999#32 = 1#1 := by
  have h0 : (0#32 : BitVec 32).toInt = 0 := by decide
  have h4 : (40000#32 : BitVec 32).toInt = 40000 := by decide
  have h3 : (39999#32 : BitVec 32).toInt = 39999 := by decide
  by_cases hneg : a.toInt < 0
  · have hc : IntOp.cmpi .slt a 0#32 = 1#1 := by
      simp only [IntOp.cmpi, BitVec.slt, h0, StableHlo.Predicate.ofBool_eq_one_iff, decide_eq_true_eq]; exact hneg
    have hw : (IntOp.addi a 40000#32).toInt = a.toInt + 40000 := by
      simp only [IntOp.addi, BitVec.toInt_add, h4]
      exact Int.bmod_eq_of_le_mul_two (by omega) (by omega)
    rw [select_of_one hc]
    simp only [IntOp.cmpi, BitVec.sle, h0, h3, hw, StableHlo.Predicate.ofBool_eq_one_iff, decide_eq_true_eq]
    omega
  · have hc : ¬ IntOp.cmpi .slt a 0#32 = 1#1 := by
      simp only [IntOp.cmpi, BitVec.slt, h0, StableHlo.Predicate.ofBool_eq_one_iff, decide_eq_true_eq]; exact hneg
    rw [select_of_ne_one hc]
    simp only [IntOp.cmpi, BitVec.sle, h0, h3, StableHlo.Predicate.ofBool_eq_one_iff, decide_eq_true_eq]
    omega

/-- Every entry of the one-column wrapped index array is the wrapped word of some edge's source index. -/
private theorem wrapSrc_apply (s : IVec S640000 32) (i : S640000x1.Idx) :
    ∃ k : S640000.Idx, wrapSrc s i = Scalar.select (IntOp.cmpi .slt (s k) 0#32) (IntOp.addi (s k) 40000#32) (s k) :=
  ⟨_, rfl⟩

/-- In range, the guard is 1 on every edge: the and-reduction starts from 1 and meets only 1s. -/
private theorem srcOk_eq_one (s : IVec S640000 32)
    (hs : ∀ e : S640000.Idx, -40000 ≤ (s e).toInt ∧ (s e).toInt < 40000) (e : S640000.Idx) :
    srcOk s e = 1#1 := by
  simp only [srcOk]
  rw [Host.reduce_eq_foldl]
  refine foldl_andi_of_all_one _ (fun i => ?_) _
  obtain ⟨k, hk⟩ := wrapSrc_apply s i
  obtain ⟨hge, hle⟩ := wrap_in_range (s k) (hs k).1 (hs k).2
  show IntOp.andi (IntOp.cmpi .sge (wrapSrc s i) 0#32) (IntOp.cmpi .sle (wrapSrc s i) 39999#32) = 1#1
  rw [hk, hge, hle]
  decide

/-- In range, the guard passes everywhere and the guarded gather is the plain one. -/
theorem takeFill_eq (h : FVec F S40000x128 .f32) (ei : IVec S2x640000 32) (hr : SrcInRange ei) :
    takeFill h (srcOf ei) = gatherRows h (srcOf ei) := by
  funext j
  have hg : broadcastInDim S640000x128 ![0] bcast_S640000_S640000x128_0 (srcOk (srcOf ei)) j = 1#1 :=
    srcOk_eq_one (srcOf ei) hr _
  have hsel : ∀ (c : IVec S640000x128 1) (a b : FVec F S640000x128 .f32),
      select c a b j = Scalar.select (c j) (a j) (b j) := fun _ _ _ => rfl
  unfold takeFill
  rw [hsel, select_of_one hg]

end Cert.Gine

end
-- ==== Proof.BiasRow.lean ====
/-
  A vector of 128 entries laid out as one row of 128: the reshape and the broadcast along the row axis are the same
  array, entry (0, k) being entry k of the vector in both.
-/
import proofs.«430419_j69750268887652_1_alg».proof.Proof.Gen.KernelIdeal
import proofs.«430419_j69750268887652_1_alg».proof.Proof.Layer
import Idealize.ShloMosaic.Lib.Pipeline.Value
import Idealize.ShloMosaic.Lib.ValueIdx
import Idealize.ShloMosaic.Lib.ValueLayout

noncomputable section

namespace Cert.Gine

open Cert.KernelIdeal Cert.KernelIdeal.Gen Idealize.ShloMosaic Idealize.ShloMosaic.TcCoe Idealize.ShloMosaic.ValueIdx

variable {F : FTy → Type} [FloatOps F]

/-- A bias vector laid out as one row by a reshape. -/
def rowOf (b : FVec F S128 .f32) : FVec F S1x128 .f32 := shapeCast S1x128 b shapeCasts_S128_S1x128

/-- The reshaped vector at row p, column k is entry k of the vector: the one row's position k in row-major order. -/
private theorem rowOf_apply (b : FVec F S128 .f32) (p : Fin 1) (k : Fin 128) : rowOf b (ix2 p k) = b (ix1 k) := by
  unfold rowOf
  exact shapeCast_a_1a_apply b shapeCasts_S128_S1x128 p k

/-- The vector broadcast along the row axis at row p, column k is entry k of the vector. -/
private theorem asRow_apply (b : FVec F S128 .f32) (p : Fin 1) (k : Fin 128) : asRow b (ix2 p k) = b (ix1 k) := by
  unfold asRow
  exact broadcastInDim_apply _ _ b (ix2 p k) (ix1 k) (fun a => match a with
    | ⟨0, _⟩ => by show k.val = if (128 : Nat) = 1 then 0 else k.val; rw [if_neg (by decide)])

theorem rowOf_eq_asRow (b : FVec F S128 .f32) : rowOf b = asRow b := by
  funext x
  obtain ⟨p, k, rfl⟩ : ∃ (p : Fin 1) (k : Fin 128), x = ix2 p k := ⟨x 0, x 1, eq_ix2 x⟩
  rw [rowOf_apply, asRow_apply]

end Cert.Gine

end
-- ==== Proof.HostReads.lean ====
/-
  The host operations between the kernel regions, read back: from any contents W of the buffers at a stretch's
  entry, what the stretch leaves in the buffers the next region (or the caller) reads — the source and destination
  rows of the edge list, the guarded gather of the source rows, the per-node sums of the messages, the bias vectors
  laid out as rows, and the closing pool — each as the function of Layer.lean / TakeMask.lean / BiasRow.lean of the
  entry contents. Every line is the stretch's own list of operations composed.
-/
import proofs.«430419_j69750268887652_1_alg».proof.Proof.Gen.KernelIdeal.Launch
import proofs.«430419_j69750268887652_1_alg».proof.Proof.Layer
import proofs.«430419_j69750268887652_1_alg».proof.Proof.TakeMask
import proofs.«430419_j69750268887652_1_alg».proof.Proof.BiasRow
import Idealize.ShloMosaic.Lib.StableHlo.Run

set_option maxRecDepth 16384

noncomputable section

namespace Cert.Gine

open Cert.KernelIdeal Cert.KernelIdeal.Gen Idealize.ShloMosaic Idealize.ShloMosaic.TcCoe Idealize.SL.Sem Idealize.ShloMosaic.StableHlo

variable {F : FTy → Type} [FloatOps F]

theorem read_src (W : Valuation τ sig (Elt F)) :
    StableHlo.after (hostOps0 (F := F)) W (Proc.devRef .tc main_v1) = srcOf (W (Proc.devRef .tc main_arg2)) := by
  after_results <;> rfl

theorem read_dst (W : Valuation τ sig (Elt F)) :
    StableHlo.after (hostOps0 (F := F)) W (Proc.devRef .tc main_v3) = dstOf (W (Proc.devRef .tc main_arg2)) := by
  after_results <;> rfl

set_option maxHeartbeats 4000000 in
theorem read_take0 (W : Valuation τ sig (Elt F)) :
    StableHlo.after (hostOps0_1 (F := F)) W (Proc.devRef .tc main_v4) = takeFill (W (Proc.devRef .tc main_arg0)) (W (Proc.devRef .tc main_v1)) := by
  unfold takeFill srcOk gatherRows wrapSrc
  after_results_simp
  all_goals try simp only [cast_eq]
  all_goals try rfl

set_option maxHeartbeats 4000000 in
theorem read_take1 (W : Valuation τ sig (Elt F)) :
    StableHlo.after (hostOps2 (F := F)) W (Proc.devRef .tc main_v12) = takeFill (W (Proc.devRef .tc main_v11)) (W (Proc.devRef .tc main_v1)) := by
  unfold takeFill srcOk gatherRows wrapSrc
  after_results_simp
  all_goals try simp only [cast_eq]
  all_goals try rfl

set_option maxHeartbeats 4000000 in
theorem read_take2 (W : Valuation τ sig (Elt F)) :
    StableHlo.after (hostOps4 (F := F)) W (Proc.devRef .tc main_v20) = takeFill (W (Proc.devRef .tc main_v19)) (W (Proc.devRef .tc main_v1)) := by
  unfold takeFill srcOk gatherRows wrapSrc
  after_results_simp
  all_goals try simp only [cast_eq]
  all_goals try rfl

set_option maxHeartbeats 4000000 in
theorem read_take3 (W : Valuation τ sig (Elt F)) :
    StableHlo.after (hostOps6 (F := F)) W (Proc.devRef .tc main_v28) = takeFill (W (Proc.devRef .tc main_v27)) (W (Proc.devRef .tc main_v1)) := by
  unfold takeFill srcOk gatherRows wrapSrc
  after_results_simp
  all_goals try simp only [cast_eq]
  all_goals try rfl

theorem read_agg0 (W : Valuation τ sig (Elt F)) :
    StableHlo.after (hostOps1 (F := F)) W (Proc.devRef .tc main_v8) = aggregate (W (Proc.devRef .tc main_v3)) (W (Proc.devRef .tc main_v5)) := by
  after_results <;> rfl

theorem read_bias0a (W : Valuation τ sig (Elt F)) :
    StableHlo.after (hostOps1 (F := F)) W (Proc.devRef .tc main_v9) = rowOf (W (Proc.devRef .tc main_arg5)) := by
  after_results <;> rfl

theorem read_bias0b (W : Valuation τ sig (Elt F)) :
    StableHlo.after (hostOps1 (F := F)) W (Proc.devRef .tc main_v10) = rowOf (W (Proc.devRef .tc main_arg7)) := by
  after_results <;> rfl

theorem read_agg1 (W : Valuation τ sig (Elt F)) :
    StableHlo.after (hostOps3 (F := F)) W (Proc.devRef .tc main_v16) = aggregate (W (Proc.devRef .tc main_v3)) (W (Proc.devRef .tc main_v13)) := by
  after_results <;> rfl

theorem read_bias1a (W : Valuation τ sig (Elt F)) :
    StableHlo.after (hostOps3 (F := F)) W (Proc.devRef .tc main_v17) = rowOf (W (Proc.devRef .tc main_arg9)) := by
  after_results <;> rfl

theorem read_bias1b (W : Valuation τ sig (Elt F)) :
    StableHlo.after (hostOps3 (F := F)) W (Proc.devRef .tc main_v18) = rowOf (W (Proc.devRef .tc main_arg11)) := by
  after_results <;> rfl

theorem read_agg2 (W : Valuation τ sig (Elt F)) :
    StableHlo.after (hostOps5 (F := F)) W (Proc.devRef .tc main_v24) = aggregate (W (Proc.devRef .tc main_v3)) (W (Proc.devRef .tc main_v21)) := by
  after_results <;> rfl

theorem read_bias2a (W : Valuation τ sig (Elt F)) :
    StableHlo.after (hostOps5 (F := F)) W (Proc.devRef .tc main_v25) = rowOf (W (Proc.devRef .tc main_arg13)) := by
  after_results <;> rfl

theorem read_bias2b (W : Valuation τ sig (Elt F)) :
    StableHlo.after (hostOps5 (F := F)) W (Proc.devRef .tc main_v26) = rowOf (W (Proc.devRef .tc main_arg15)) := by
  after_results <;> rfl

theorem read_agg3 (W : Valuation τ sig (Elt F)) :
    StableHlo.after (hostOps7 (F := F)) W (Proc.devRef .tc main_v32) = aggregate (W (Proc.devRef .tc main_v3)) (W (Proc.devRef .tc main_v29)) := by
  after_results <;> rfl

theorem read_bias3a (W : Valuation τ sig (Elt F)) :
    StableHlo.after (hostOps7 (F := F)) W (Proc.devRef .tc main_v33) = rowOf (W (Proc.devRef .tc main_arg17)) := by
  after_results <;> rfl

theorem read_bias3b (W : Valuation τ sig (Elt F)) :
    StableHlo.after (hostOps7 (F := F)) W (Proc.devRef .tc main_v34) = rowOf (W (Proc.devRef .tc main_arg19)) := by
  after_results <;> rfl

theorem read_pool (W : Valuation τ sig (Elt F)) :
    StableHlo.after (hostOps8 (F := F)) W (Proc.devRef .tc main_v47) = pool (W (Proc.devRef .tc main_arg3)) (W (Proc.devRef .tc main_v35)) := by
  after_results <;> rfl

end Cert.Gine

end
-- ==== Proof.EdgeArr0.lean ====
/-
  What the edge kernel's pipeline leaves in its output array: max(xs + ea, 0) entry by entry, xs and ea its two
  input arrays. Grid point t writes rows 8000·t … 8000·t + 7999; the eighty blocks cover the 640000 rows.
-/
import proofs.«430419_j69750268887652_1_alg».proof.Proof.Gen.KernelIdeal.Frame
import proofs.«430419_j69750268887652_1_alg».proof.Proof.Layer
import Idealize.ShloMosaic.Lib.Pipeline.Value
import Idealize.ShloMosaic.Lib.ValueIdx

noncomputable section

namespace Cert.Gine

open Cert.KernelIdeal Cert.KernelIdeal.Gen Idealize.ShloMosaic Idealize.ShloMosaic.TcCoe Idealize.ShloMosaic.ValueIdx Idealize.SL.Sem

/-- The block's one load and one store start at offsets (0, 0): the zero function. -/
private theorem offsets_zero : (![0, 0] : Fin 2 → Nat) = fun _ => 0 := funext fun a => by fin_cases a <;> rfl

/-- The body's payload, entry by entry: max(x0 + x1, 0) (the cast to the same shape is the identity). -/
private theorem payload_eq (x0 x1 : Vec Ideal S8000x128 .f32) :
    k0_pay1 x0 x1 = maximumf (addf x0 x1) (broadcast S8000x128 (Scalar.ofBits .f32 0x00000000#32)) := by
  unfold k0_pay1
  rw [shapeCast_self]

/-- Every window's block at grid point t is block (t, 0) of its array. -/
private theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What grid point t writes back is block t of max(xs + ea, 0): the three windows' blocks at t sit at the same
    rows of their arrays, so the inputs' blocks are the inputs read where the output's block lies. -/
private theorem flushed_block (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal)
          (edgeMsg (F := Ideal) (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero offsets_zero]
  simp only [View.ld_unit_zero (S := S8000x128) offsets_zero]
  rw [payload_eq]
  obtain ⟨e00, e01, e10, e11, e20, e21⟩ := block_index t
  funext j
  show FloatOps.maximumf (F := Ideal) (φ := .f32)
        (FloatOps.addf ((V c (Pipeline.arrRef spec0 0) : S640000x128.Idx → Ideal .f32) (((cfg0.win 0).blk t).view.emb j))
          ((V c (Pipeline.arrRef spec0 1) : S640000x128.Idx → Ideal .f32) (((cfg0.win 1).blk t).view.emb j)))
        (FloatOps.ofBits .f32 0x00000000#32)
    = FloatOps.maximumf (F := Ideal) (φ := .f32)
        (FloatOps.addf ((V c (Pipeline.arrRef spec0 0) : S640000x128.Idx → Ideal .f32) (((cfg0.win 2).blk t).view.emb j))
          ((V c (Pipeline.arrRef spec0 1) : S640000x128.Idx → Ideal .f32) (((cfg0.win 2).blk t).view.emb j)))
        (FloatOps.ofBits .f32 0x00000000#32)
  have h0 : ((cfg0.win 0).blk t).view.emb j = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 128 + 1 * (j 1).val = win0_2.index t (1 : Fin 2) * 128 + 1 * (j 1).val; omega
  rw [h0, h1]

/-- An entry of the array lies in grid point t's block iff each of its coordinates lies in the block's range. -/
private theorem mem_block (t : Fin cfg0.N) (i : S640000x128.Idx) :
    i ∈ ((cfg0.win 2).blk t).view.set
      ↔ ∀ a : Fin 2, win0_2.index t a * S8000x128.size a ≤ (i a).val
          ∧ (i a).val < win0_2.index t a * S8000x128.size a + S8000x128.size a := by
  show i ∈ ((View.whole main_v5).slice (win0_2.rect t)).set ↔ _
  rw [View.set_slice_whole, Rect.mem_set_unit]
  exact Iff.rfl

/-- The blocks cover the array: row r lies in the block of grid point r / 8000. -/
private theorem blocks_cover (i : S640000x128.Idx) :
    ∃ t : Fin cfg0.N, (cfg0.win 2).flush t = true ∧ i ∈ ((cfg0.win 2).blk t).view.set := by
  have hr : (i 0).val < 640000 := (i 0).isLt
  have hl : (i 1).val < 128 := (i 1).isLt
  have hN : cfg0.N = 80 := N_0
  refine ⟨⟨(i 0).val / 8000, by rw [hN]; omega⟩, flush0_2 _, ?_⟩
  rw [mem_block]
  obtain ⟨-, -, -, -, e20, e21⟩ := block_index ⟨(i 0).val / 8000, by rw [hN]; omega⟩
  intro a
  match a with
  | ⟨0, _⟩ =>
    show win0_2.index _ (0 : Fin 2) * 8000 ≤ (i 0).val ∧ (i 0).val < win0_2.index _ (0 : Fin 2) * 8000 + 8000
    rw [e20]; show (i 0).val / 8000 * 8000 ≤ (i 0).val ∧ (i 0).val < (i 0).val / 8000 * 8000 + 8000; omega
  | ⟨1, _⟩ =>
    show win0_2.index _ (1 : Fin 2) * 128 ≤ (i 1).val ∧ (i 1).val < win0_2.index _ (1 : Fin 2) * 128 + 128
    rw [e21]; omega

theorem edge_arr0 (V : (c : Dev nD) → (b : Ref sig .tc) → Buf (Elt Ideal) ((c : Thread nD τ).loc b)) (c : Dev nD) :
    (dat0 (F := Ideal) V c).arrAt 2 cfg0.N
      = edgeMsg (F := Ideal) (V c (Pipeline.arrRef spec0 0)) (V c (Pipeline.arrRef spec0 1)) := by
  exact (dat0 (F := Ideal) V c).arrAt_eq_of_cover 2
    (edgeMsg (F := Ideal) (V c (Pipeline.arrRef spec0 0)) (V c (Pipeline.arrRef spec0 1)))
    (fun t _ => flushed_block V c t) blocks_cover

end Cert.Gine

end
-- ==== Proof.EdgeArr2.lean ====
/-
  What the edge kernel's pipeline leaves in its output array: max(xs + ea, 0) entry by entry, xs and ea its two
  input arrays. Grid point t writes rows 8000·t … 8000·t + 7999; the eighty blocks cover the 640000 rows.
-/
import proofs.«430419_j69750268887652_1_alg».proof.Proof.Gen.KernelIdeal.Frame
import proofs.«430419_j69750268887652_1_alg».proof.Proof.Layer
import Idealize.ShloMosaic.Lib.Pipeline.Value
import Idealize.ShloMosaic.Lib.ValueIdx

noncomputable section

namespace Cert.Gine

open Cert.KernelIdeal Cert.KernelIdeal.Gen Idealize.ShloMosaic Idealize.ShloMosaic.TcCoe Idealize.ShloMosaic.ValueIdx Idealize.SL.Sem

/-- The block's one load and one store start at offsets (0, 0): the zero function. -/
private theorem offsets_zero : (![0, 0] : Fin 2 → Nat) = fun _ => 0 := funext fun a => by fin_cases a <;> rfl

/-- The body's payload, entry by entry: max(x0 + x1, 0) (the cast to the same shape is the identity). -/
private theorem payload_eq (x0 x1 : Vec Ideal S8000x128 .f32) :
    k2_pay1 x0 x1 = maximumf (addf x0 x1) (broadcast S8000x128 (Scalar.ofBits .f32 0x00000000#32)) := by
  unfold k2_pay1
  rw [shapeCast_self]

/-- Every window's block at grid point t is block (t, 0) of its array. -/
private theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What grid point t writes back is block t of max(xs + ea, 0): the three windows' blocks at t sit at the same
    rows of their arrays, so the inputs' blocks are the inputs read where the output's block lies. -/
private theorem flushed_block (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal)
          (edgeMsg (F := Ideal) (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero offsets_zero]
  simp only [View.ld_unit_zero (S := S8000x128) offsets_zero]
  rw [payload_eq]
  obtain ⟨e00, e01, e10, e11, e20, e21⟩ := block_index t
  funext j
  show FloatOps.maximumf (F := Ideal) (φ := .f32)
        (FloatOps.addf ((V c (Pipeline.arrRef spec2 0) : S640000x128.Idx → Ideal .f32) (((cfg2.win 0).blk t).view.emb j))
          ((V c (Pipeline.arrRef spec2 1) : S640000x128.Idx → Ideal .f32) (((cfg2.win 1).blk t).view.emb j)))
        (FloatOps.ofBits .f32 0x00000000#32)
    = FloatOps.maximumf (F := Ideal) (φ := .f32)
        (FloatOps.addf ((V c (Pipeline.arrRef spec2 0) : S640000x128.Idx → Ideal .f32) (((cfg2.win 2).blk t).view.emb j))
          ((V c (Pipeline.arrRef spec2 1) : S640000x128.Idx → Ideal .f32) (((cfg2.win 2).blk t).view.emb j)))
        (FloatOps.ofBits .f32 0x00000000#32)
  have h0 : ((cfg2.win 0).blk t).view.emb j = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 128 + 1 * (j 1).val = win2_2.index t (1 : Fin 2) * 128 + 1 * (j 1).val; omega
  rw [h0, h1]

/-- An entry of the array lies in grid point t's block iff each of its coordinates lies in the block's range. -/
private theorem mem_block (t : Fin cfg2.N) (i : S640000x128.Idx) :
    i ∈ ((cfg2.win 2).blk t).view.set
      ↔ ∀ a : Fin 2, win2_2.index t a * S8000x128.size a ≤ (i a).val
          ∧ (i a).val < win2_2.index t a * S8000x128.size a + S8000x128.size a := by
  show i ∈ ((View.whole main_v5).slice (win2_2.rect t)).set ↔ _
  rw [View.set_slice_whole, Rect.mem_set_unit]
  exact Iff.rfl

/-- The blocks cover the array: row r lies in the block of grid point r / 8000. -/
private theorem blocks_cover (i : S640000x128.Idx) :
    ∃ t : Fin cfg2.N, (cfg2.win 2).flush t = true ∧ i ∈ ((cfg2.win 2).blk t).view.set := by
  have hr : (i 0).val < 640000 := (i 0).isLt
  have hl : (i 1).val < 128 := (i 1).isLt
  have hN : cfg2.N = 80 := N_2
  refine ⟨⟨(i 0).val / 8000, by rw [hN]; omega⟩, flush2_2 _, ?_⟩
  rw [mem_block]
  obtain ⟨-, -, -, -, e20, e21⟩ := block_index ⟨(i 0).val / 8000, by rw [hN]; omega⟩
  intro a
  match a with
  | ⟨0, _⟩ =>
    show win2_2.index _ (0 : Fin 2) * 8000 ≤ (i 0).val ∧ (i 0).val < win2_2.index _ (0 : Fin 2) * 8000 + 8000
    rw [e20]; show (i 0).val / 8000 * 8000 ≤ (i 0).val ∧ (i 0).val < (i 0).val / 8000 * 8000 + 8000; omega
  | ⟨1, _⟩ =>
    show win2_2.index _ (1 : Fin 2) * 128 ≤ (i 1).val ∧ (i 1).val < win2_2.index _ (1 : Fin 2) * 128 + 128
    rw [e21]; omega

theorem edge_arr2 (V : (c : Dev nD) → (b : Ref sig .tc) → Buf (Elt Ideal) ((c : Thread nD τ).loc b)) (c : Dev nD) :
    (dat2 (F := Ideal) V c).arrAt 2 cfg2.N
      = edgeMsg (F := Ideal) (V c (Pipeline.arrRef spec2 0)) (V c (Pipeline.arrRef spec2 1)) := by
  exact (dat2 (F := Ideal) V c).arrAt_eq_of_cover 2
    (edgeMsg (F := Ideal) (V c (Pipeline.arrRef spec2 0)) (V c (Pipeline.arrRef spec2 1)))
    (fun t _ => flushed_block V c t) blocks_cover

end Cert.Gine

end
-- ==== Proof.EdgeArr4.lean ====
/-
  What the edge kernel's pipeline leaves in its output array: max(xs + ea, 0) entry by entry, xs and ea its two
  input arrays. Grid point t writes rows 8000·t … 8000·t + 7999; the eighty blocks cover the 640000 rows.
-/
import proofs.«430419_j69750268887652_1_alg».proof.Proof.Gen.KernelIdeal.Frame
import proofs.«430419_j69750268887652_1_alg».proof.Proof.Layer
import Idealize.ShloMosaic.Lib.Pipeline.Value
import Idealize.ShloMosaic.Lib.ValueIdx

noncomputable section

namespace Cert.Gine

open Cert.KernelIdeal Cert.KernelIdeal.Gen Idealize.ShloMosaic Idealize.ShloMosaic.TcCoe Idealize.ShloMosaic.ValueIdx Idealize.SL.Sem

/-- The block's one load and one store start at offsets (0, 0): the zero function. -/
private theorem offsets_zero : (![0, 0] : Fin 2 → Nat) = fun _ => 0 := funext fun a => by fin_cases a <;> rfl

/-- The body's payload, entry by entry: max(x0 + x1, 0) (the cast to the same shape is the identity). -/
private theorem payload_eq (x0 x1 : Vec Ideal S8000x128 .f32) :
    k4_pay1 x0 x1 = maximumf (addf x0 x1) (broadcast S8000x128 (Scalar.ofBits .f32 0x00000000#32)) := by
  unfold k4_pay1
  rw [shapeCast_self]

/-- Every window's block at grid point t is block (t, 0) of its array. -/
private theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What grid point t writes back is block t of max(xs + ea, 0): the three windows' blocks at t sit at the same
    rows of their arrays, so the inputs' blocks are the inputs read where the output's block lies. -/
private theorem flushed_block (V : (c : Dev nD) → (b : Ref sig .tc) → Buf (Elt Ideal) ((c : Thread nD τ).loc b)) (c : Dev nD)
    (t : Fin cfg4.N) :
    (dat4 (F := Ideal) V c).flushed 2 t
      = ((cfg4.win 2).blk t).view.read (Elt Ideal)
          (edgeMsg (F := Ideal) (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero offsets_zero]
  simp only [View.ld_unit_zero (S := S8000x128) offsets_zero]
  rw [payload_eq]
  obtain ⟨e00, e01, e10, e11, e20, e21⟩ := block_index t
  funext j
  show FloatOps.maximumf (F := Ideal) (φ := .f32)
        (FloatOps.addf ((V c (Pipeline.arrRef spec4 0) : S640000x128.Idx → Ideal .f32) (((cfg4.win 0).blk t).view.emb j))
          ((V c (Pipeline.arrRef spec4 1) : S640000x128.Idx → Ideal .f32) (((cfg4.win 1).blk t).view.emb j)))
        (FloatOps.ofBits .f32 0x00000000#32)
    = FloatOps.maximumf (F := Ideal) (φ := .f32)
        (FloatOps.addf ((V c (Pipeline.arrRef spec4 0) : S640000x128.Idx → Ideal .f32) (((cfg4.win 2).blk t).view.emb j))
          ((V c (Pipeline.arrRef spec4 1) : S640000x128.Idx → Ideal .f32) (((cfg4.win 2).blk t).view.emb j)))
        (FloatOps.ofBits .f32 0x00000000#32)
  have h0 : ((cfg4.win 0).blk t).view.emb j = ((cfg4.win 2).blk t).view.emb j := by
    funext a; apply Fin.ext
    match a with
    | ⟨0, _⟩ => show win4_0.index t (0 : Fin 2) * 8000 + 1 * (j 0).val = win4_2.index t (0 : Fin 2) * 8000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 8000 + 1 * (j 0).val = win4_2.index t (0 : Fin 2) * 8000 + 1 * (j 0).val; omega
    | ⟨1, _⟩ => show win4_1.index t (1 : Fin 2) * 128 + 1 * (j 1).val = win4_2.index t (1 : Fin 2) * 128 + 1 * (j 1).val; omega
  rw [h0, h1]

/-- An entry of the array lies in grid point t's block iff each of its coordinates lies in the block's range. -/
private theorem mem_block (t : Fin cfg4.N) (i : S640000x128.Idx) :
    i ∈ ((cfg4.win 2).blk t).view.set
      ↔ ∀ a : Fin 2, win4_2.index t a * S8000x128.size a ≤ (i a).val
          ∧ (i a).val < win4_2.index t a * S8000x128.size a + S8000x128.size a := by
  show i ∈ ((View.whole main_v5).slice (win4_2.rect t)).set ↔ _
  rw [View.set_slice_whole, Rect.mem_set_unit]
  exact Iff.rfl

/-- The blocks cover the array: row r lies in the block of grid point r / 8000. -/
private theorem blocks_cover (i : S640000x128.Idx) :
    ∃ t : Fin cfg4.N, (cfg4.win 2).flush t = true ∧ i ∈ ((cfg4.win 2).blk t).view.set := by
  have hr : (i 0).val < 640000 := (i 0).isLt
  have hl : (i 1).val < 128 := (i 1).isLt
  have hN : cfg4.N = 80 := N_4
  refine ⟨⟨(i 0).val / 8000, by rw [hN]; omega⟩, flush4_2 _, ?_⟩
  rw [mem_block]
  obtain ⟨-, -, -, -, e20, e21⟩ := block_index ⟨(i 0).val / 8000, by rw [hN]; omega⟩
  intro a
  match a with
  | ⟨0, _⟩ =>
    show win4_2.index _ (0 : Fin 2) * 8000 ≤ (i 0).val ∧ (i 0).val < win4_2.index _ (0 : Fin 2) * 8000 + 8000
    rw [e20]; show (i 0).val / 8000 * 8000 ≤ (i 0).val ∧ (i 0).val < (i 0).val / 8000 * 8000 + 8000; omega
  | ⟨1, _⟩ =>
    show win4_2.index _ (1 : Fin 2) * 128 ≤ (i 1).val ∧ (i 1).val < win4_2.index _ (1 : Fin 2) * 128 + 128
    rw [e21]; omega

theorem edge_arr4 (V : (c : Dev nD) → (b : Ref sig .tc) → Buf (Elt Ideal) ((c : Thread nD τ).loc b)) (c : Dev nD) :
    (dat4 (F := Ideal) V c).arrAt 2 cfg4.N
      = edgeMsg (F := Ideal) (V c (Pipeline.arrRef spec4 0)) (V c (Pipeline.arrRef spec4 1)) := by
  exact (dat4 (F := Ideal) V c).arrAt_eq_of_cover 2
    (edgeMsg (F := Ideal) (V c (Pipeline.arrRef spec4 0)) (V c (Pipeline.arrRef spec4 1)))
    (fun t _ => flushed_block V c t) blocks_cover

end Cert.Gine

end
-- ==== Proof.EdgeArr6.lean ====
/-
  What the edge kernel's pipeline leaves in its output array: max(xs + ea, 0) entry by entry, xs and ea its two
  input arrays. Grid point t writes rows 8000·t … 8000·t + 7999; the eighty blocks cover the 640000 rows.
-/
import proofs.«430419_j69750268887652_1_alg».proof.Proof.Gen.KernelIdeal.Frame
import proofs.«430419_j69750268887652_1_alg».proof.Proof.Layer
import Idealize.ShloMosaic.Lib.Pipeline.Value
import Idealize.ShloMosaic.Lib.ValueIdx

noncomputable section

namespace Cert.Gine

open Cert.KernelIdeal Cert.KernelIdeal.Gen Idealize.ShloMosaic Idealize.ShloMosaic.TcCoe Idealize.ShloMosaic.ValueIdx Idealize.SL.Sem

/-- The block's one load and one store start at offsets (0, 0): the zero function. -/
private theorem offsets_zero : (![0, 0] : Fin 2 → Nat) = fun _ => 0 := funext fun a => by fin_cases a <;> rfl

/-- The body's payload, entry by entry: max(x0 + x1, 0) (the cast to the same shape is the identity). -/
private theorem payload_eq (x0 x1 : Vec Ideal S8000x128 .f32) :
    k6_pay1 x0 x1 = maximumf (addf x0 x1) (broadcast S8000x128 (Scalar.ofBits .f32 0x00000000#32)) := by
  unfold k6_pay1
  rw [shapeCast_self]

/-- Every window's block at grid point t is block (t, 0) of its array. -/
private theorem block_index : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What grid point t writes back is block t of max(xs + ea, 0): the three windows' blocks at t sit at the same
    rows of their arrays, so the inputs' blocks are the inputs read where the output's block lies. -/
private theorem flushed_block (V : (c : Dev nD) → (b : Ref sig .tc) → Buf (Elt Ideal) ((c : Thread nD τ).loc b)) (c : Dev nD)
    (t : Fin cfg6.N) :
    (dat6 (F := Ideal) V c).flushed 2 t
      = ((cfg6.win 2).blk t).view.read (Elt Ideal)
          (edgeMsg (F := Ideal) (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero offsets_zero]
  simp only [View.ld_unit_zero (S := S8000x128) offsets_zero]
  rw [payload_eq]
  obtain ⟨e00, e01, e10, e11, e20, e21⟩ := block_index t
  funext j
  show FloatOps.maximumf (F := Ideal) (φ := .f32)
        (FloatOps.addf ((V c (Pipeline.arrRef spec6 0) : S640000x128.Idx → Ideal .f32) (((cfg6.win 0).blk t).view.emb j))
          ((V c (Pipeline.arrRef spec6 1) : S640000x128.Idx → Ideal .f32) (((cfg6.win 1).blk t).view.emb j)))
        (FloatOps.ofBits .f32 0x00000000#32)
    = FloatOps.maximumf (F := Ideal) (φ := .f32)
        (FloatOps.addf ((V c (Pipeline.arrRef spec6 0) : S640000x128.Idx → Ideal .f32) (((cfg6.win 2).blk t).view.emb j))
          ((V c (Pipeline.arrRef spec6 1) : S640000x128.Idx → Ideal .f32) (((cfg6.win 2).blk t).view.emb j)))
        (FloatOps.ofBits .f32 0x00000000#32)
  have h0 : ((cfg6.win 0).blk t).view.emb j = ((cfg6.win 2).blk t).view.emb j := by
    funext a; apply Fin.ext
    match a with
    | ⟨0, _⟩ => show win6_0.index t (0 : Fin 2) * 8000 + 1 * (j 0).val = win6_2.index t (0 : Fin 2) * 8000 + 1 * (j 0).val; omega
    | ⟨1, _⟩ => show win6_0.index t (1 : Fin 2) * 128 + 1 * (j 1).val = win6_2.index t (1 : Fin 2) * 128 + 1 * (j 1).val; omega
  have h1 : ((cfg6.win 1).blk t).view.emb j = ((cfg6.win 2).blk t).view.emb j := by
    funext a; apply Fin.ext
    match a with
    | ⟨0, _⟩ => show win6_1.index t (0 : Fin 2) * 8000 + 1 * (j 0).val = win6_2.index t (0 : Fin 2) * 8000 + 1 * (j 0).val; omega
    | ⟨1, _⟩ => show win6_1.index t (1 : Fin 2) * 128 + 1 * (j 1).val = win6_2.index t (1 : Fin 2) * 128 + 1 * (j 1).val; omega
  rw [h0, h1]

/-- An entry of the array lies in grid point t's block iff each of its coordinates lies in the block's range. -/
private theorem mem_block (t : Fin cfg6.N) (i : S640000x128.Idx) :
    i ∈ ((cfg6.win 2).blk t).view.set
      ↔ ∀ a : Fin 2, win6_2.index t a * S8000x128.size a ≤ (i a).val
          ∧ (i a).val < win6_2.index t a * S8000x128.size a + S8000x128.size a := by
  show i ∈ ((View.whole main_v5).slice (win6_2.rect t)).set ↔ _
  rw [View.set_slice_whole, Rect.mem_set_unit]
  exact Iff.rfl

/-- The blocks cover the array: row r lies in the block of grid point r / 8000. -/
private theorem blocks_cover (i : S640000x128.Idx) :
    ∃ t : Fin cfg6.N, (cfg6.win 2).flush t = true ∧ i ∈ ((cfg6.win 2).blk t).view.set := by
  have hr : (i 0).val < 640000 := (i 0).isLt
  have hl : (i 1).val < 128 := (i 1).isLt
  have hN : cfg6.N = 80 := N_6
  refine ⟨⟨(i 0).val / 8000, by rw [hN]; omega⟩, flush6_2 _, ?_⟩
  rw [mem_block]
  obtain ⟨-, -, -, -, e20, e21⟩ := block_index ⟨(i 0).val / 8000, by rw [hN]; omega⟩
  intro a
  match a with
  | ⟨0, _⟩ =>
    show win6_2.index _ (0 : Fin 2) * 8000 ≤ (i 0).val ∧ (i 0).val < win6_2.index _ (0 : Fin 2) * 8000 + 8000
    rw [e20]; show (i 0).val / 8000 * 8000 ≤ (i 0).val ∧ (i 0).val < (i 0).val / 8000 * 8000 + 8000; omega
  | ⟨1, _⟩ =>
    show win6_2.index _ (1 : Fin 2) * 128 ≤ (i 1).val ∧ (i 1).val < win6_2.index _ (1 : Fin 2) * 128 + 128
    rw [e21]; omega

theorem edge_arr6 (V : (c : Dev nD) → (b : Ref sig .tc) → Buf (Elt Ideal) ((c : Thread nD τ).loc b)) (c : Dev nD) :
    (dat6 (F := Ideal) V c).arrAt 2 cfg6.N
      = edgeMsg (F := Ideal) (V c (Pipeline.arrRef spec6 0)) (V c (Pipeline.arrRef spec6 1)) := by
  exact (dat6 (F := Ideal) V c).arrAt_eq_of_cover 2
    (edgeMsg (F := Ideal) (V c (Pipeline.arrRef spec6 0)) (V c (Pipeline.arrRef spec6 1)))
    (fun t _ => flushed_block V c t) blocks_cover

end Cert.Gine

end
-- ==== Proof.NodeRow.lean ====
/-
  One output entry of the two-layer perceptron, from one row of its input: with z the input row (128 entries),
  entry j of the output row is max(Σ_k max(Σ_l z_l · w1[l,k] + b1[k], 0) · w2[k,j] + b2[j], 0).
  The whole-array perceptron of Layer.lean, read at row i and column j, is this formula at row i of its input.
-/
import proofs.«430419_j69750268887652_1_alg».proof.Proof.Layer
import Idealize.ShloMosaic.Lib.ValueIdx
import Idealize.ShloMosaic.Lib.Pipeline.Value
import Idealize.ShloMosaic.PureOps.Ideal.Laws

noncomputable section

namespace Cert.Gine

open Cert.ReferenceIdeal Cert.ReferenceIdeal.Gen Idealize.ShloMosaic Idealize.ShloMosaic.TcCoe Idealize.ShloMosaic.ValueIdx

/-- One entry of the perceptron's output row. -/
def nodeRow (z : Fin 128 → EReal) (w1 : Fin 128 → Fin 128 → EReal) (b1 : Fin 128 → EReal)
    (w2 : Fin 128 → Fin 128 → EReal) (b2 : Fin 128 → EReal) (j : Fin 128) : EReal :=
  max ((∑ k : Fin 128, max ((∑ l : Fin 128, z l * w1 l k) + b1 k) 0 * w2 k j) + b2 j) 0

/-- The left operand's index keeps the output's row … -/
private theorem lhs_axis0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide),
    dif_pos (show (0 : Fin S40000x128.rank) ∈ dot_S40000x128_S128x128_S40000x128_1_0_0_1_n_n.lhsNonContracting by decide)]
  rfl
/-- … and takes the contraction index as its column. -/
private theorem lhs_axis1 (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q
/-- The right operand's index takes the contraction index as its row … -/
private theorem rhs_axis0 (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q
/-- … and keeps the output's column. -/
private theorem rhs_axis1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide),
    dif_pos (show (1 : Fin S128x128.rank) ∈ dot_S40000x128_S128x128_S40000x128_1_0_0_1_n_n.rhsNonContracting by decide)]
  rfl

/-- The matrix product at row i, column j: Σ_k a[i,k] · b[k,j]. The contraction index has one axis of extent 128, so the
    sum over it is re-indexed to k : Fin 128, and the operands' indices are (i,k) and (k,j). -/
private theorem dot_apply (a : FVec Ideal S40000x128 .f32) (b : FVec Ideal S128x128 .f32) (i : Fin 40000) (j : Fin 128) :
    Host.dotGeneral (F := Ideal) dot_S40000x128_S128x128_S40000x128_1_0_0_1_n_n none a b (ix2 i j)
      = ∑ k : Fin 128, a (ix2 i k) * b (ix2 k j) := by
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx (ix2 i j)
      ((ValueIdx.contrEquiv1 dot_S40000x128_S128x128_S40000x128_1_0_0_1_n_n 128 rfl rfl).symm k) = ix2 i k :=
    funext fun a => Fin.ext (by
      match a with
      | ⟨0, _⟩ => exact lhs_axis0 _ _
      | ⟨1, _⟩ => exact (lhs_axis1 _ _).trans hk)
  have er : dot_S40000x128_S128x128_S40000x128_1_0_0_1_n_n.rhsIdx (ix2 i j)
      ((ValueIdx.contrEquiv1 dot_S40000x128_S128x128_S40000x128_1_0_0_1_n_n 128 rfl rfl).symm k) = ix2 k j :=
    funext fun a => Fin.ext (by
      match a with
      | ⟨0, _⟩ => exact (rhs_axis0 _ _).trans hk
      | ⟨1, _⟩ => exact rhs_axis1 _ _)
  rw [el, er]

/-- The repeated bias row at row i, column k is the row's entry k. -/
private theorem rowBias_apply (br : FVec Ideal S1x128 .f32) (i : Fin 40000) (k : Fin 128) :
    rowBias (F := Ideal) br (ix2 i k) = br (ix2 (0 : Fin 1) k) := by
  unfold rowBias
  exact broadcastInDim_apply _ bcast_S1x128_S40000x128_0_1 br (ix2 i k) (ix2 (0 : Fin 1) k) (fun a => match a with
    | ⟨0, _⟩ => by show 0 = if (1 : Nat) = 1 then 0 else i.val; rw [if_pos rfl]
    | ⟨1, _⟩ => by show k.val = if (128 : Nat) = 1 then 0 else k.val; rw [if_neg (by decide)])

/-- The zero array is 0 everywhere. -/
private theorem zeroN_apply (x : S40000x128.Idx) : zeroN (F := Ideal) x = 0 := by
  unfold zeroN
  rw [broadcastInDim_apply _ bcast_S_S40000x128 (constant (F := Ideal) S_ .f32 0x00000000#32) x ix0 (fun a => a.elim0)]
  exact Ideal.ofBits_zero_f32

/-- The whole-array perceptron at row i, column j. -/
theorem mlpRow_apply (z : FVec Ideal S40000x128 .f32) (w1 : FVec Ideal S128x128 .f32) (b1r : FVec Ideal S1x128 .f32)
    (w2 : FVec Ideal S128x128 .f32) (b2r : FVec Ideal S1x128 .f32) (i : Fin 40000) (j : Fin 128) :
    mlpRow (F := Ideal) z w1 b1r w2 b2r (ix2 i j)
      = nodeRow (fun l => z (ix2 i l)) (fun l k => w1 (ix2 l k)) (fun k => b1r (ix2 (0 : Fin 1) k))
          (fun k j => w2 (ix2 k j)) (fun j => b2r (ix2 (0 : Fin 1) j)) j := by
  unfold mlpRow nodeRow
  rw [maximumf_apply, addf_apply, dot_apply, rowBias_apply, zeroN_apply]
  refine congrArg (fun s => max (s + b2r (ix2 (0 : Fin 1) j)) 0) (Finset.sum_congr rfl fun k _ => ?_)
  rw [maximumf_apply, addf_apply, dot_apply, rowBias_apply, zeroN_apply]

end Cert.Gine

end
-- ==== Proof.NodePay1.lean ====
/-
  The node kernel's stored value at row r, column j of a block of 5000 rows: the perceptron's entry formula
  (NodeRow.lean) at the sum of the two input blocks' rows r. The two matrix products accumulate into zero, so each
  is a plain sum over the 128 contracted entries; a change of float format is the identity on extended reals.
-/
import proofs.«430419_j69750268887652_1_alg».proof.Proof.Gen.KernelIdeal.Skeleton
import proofs.«430419_j69750268887652_1_alg».proof.Proof.NodeRow
import Idealize.ShloMosaic.Lib.ValueIdx
import Idealize.ShloMosaic.Lib.ValueLayout
import Idealize.ShloMosaic.Lib.Pipeline.Value
import Idealize.ShloMosaic.PureOps.Ideal.Laws

noncomputable section

namespace Cert.Gine

open Cert.KernelIdeal Cert.KernelIdeal.Gen Idealize.ShloMosaic Idealize.ShloMosaic.TcCoe Idealize.ShloMosaic.ValueIdx

/-! ## The product's two operand indices, axis by axis -/

/-- The left operand's row is the output's row. -/
private theorem lhs_node_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted position. -/
private theorem lhs_node_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted position. -/
private theorem rhs_node_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
private theorem rhs_node_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product accumulated into zero, at row r and column j, is the sum over the 128 contracted entries of
    the products of the left operand's row r with the right operand's column j. -/
private theorem matmul_zero_apply {φ₁ φ₂ : FTy} (a : FVec Ideal S5000x128 φ₁) (b : FVec Ideal S128x128 φ₂) (r : Fin 5000) (j : Fin 128) :
    matmul dot_S5000x128_S128x128_S5000x128_1_0_0_1_n_n none a b (constant (F := Ideal) S5000x128 .f32 0x00000000#32) (ix2 r j)
      = ∑ k : Fin 128, a (ix2 r k) * b (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_node_0 _ _
    | ⟨1, _⟩ => exact (lhs_node_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_node_0 _ _).trans hk
    | ⟨1, _⟩ => exact rhs_node_1 _ _)
  rw [el, er]

theorem pay1_apply (x0 x1 : Vec Ideal S5000x128 .f32) (w1 : Vec Ideal S128x128 .f32) (b1 : Vec Ideal S1x128 .f32)
    (w2 : Vec Ideal S128x128 .f32) (b2 : Vec Ideal S1x128 .f32) (r : Fin 5000) (j : Fin 128) :
    k1_pay1 (F := Ideal) x0 x1 w1 b1 w2 b2 (ix2 r j)
      = nodeRow (fun l => x0 (ix2 r l) + x1 (ix2 r l)) (fun l k => w1 (ix2 l k)) (fun k => b1 (ix2 (0 : Fin 1) k))
          (fun k j => w2 (ix2 k j)) (fun j => b2 (ix2 (0 : Fin 1) j)) j := by
  unfold k1_pay1 nodeRow
  repeat rw [shapeCast_self]
  simp only [maximumf_apply, addf_apply, broadcast_apply, truncf_apply, matmul_zero_apply, broadcastTo_1b_ab_apply,
    Ideal.ofBits_def, Ideal.ofBits_zero_f32]

end Cert.Gine

end
-- ==== Proof.NodeArr1.lean ====
/-
  What the node kernel's pipeline leaves in its output array: the perceptron of Layer.lean applied to the sum of
  its first two input arrays, with the weights and the bias rows it was given. Grid point t writes rows
  5000·t … 5000·t + 4999; the eight blocks cover the 40000 rows.
-/
import proofs.«430419_j69750268887652_1_alg».proof.Proof.Gen.KernelIdeal.Frame
import proofs.«430419_j69750268887652_1_alg».proof.Proof.NodePay1
import proofs.«430419_j69750268887652_1_alg».proof.Proof.NodeRow
import Idealize.ShloMosaic.Lib.Pipeline.Value

noncomputable section

namespace Cert.Gine

open Cert.KernelIdeal Cert.KernelIdeal.Gen Idealize.ShloMosaic Idealize.ShloMosaic.TcCoe Idealize.ShloMosaic.ValueIdx Idealize.SL.Sem

/-- The zero offsets of a whole-block access. -/
private theorem zero_offsets : (![0, 0] : Fin 2 → Nat) = fun _ => 0 := funext fun a => by fin_cases a <;> rfl

/-- The block index maps over the grid: the row-blocked windows (the two inputs and the output) are at block
    (t, 0); the weights and bias rows are at block (0, 0) at every point. -/
private theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row r of a block whose rows r are rows i of the two input arrays and whose weights and bias rows are the given
    arrays: the kernel's stored value there is the perceptron of the summed arrays at row i. -/
private theorem block_entry (x0 x1 : Vec Ideal S5000x128 .f32) (w1 : Vec Ideal S128x128 .f32) (b1 : Vec Ideal S1x128 .f32)
    (w2 : Vec Ideal S128x128 .f32) (b2 : Vec Ideal S1x128 .f32)
    (A0 A1 : FVec Ideal S40000x128 .f32) (W1 : FVec Ideal S128x128 .f32) (B1 : FVec Ideal S1x128 .f32)
    (W2 : FVec Ideal S128x128 .f32) (B2 : FVec Ideal S1x128 .f32) (r : Fin 5000) (j : Fin 128) (i : Fin 40000)
    (h0 : ∀ l, x0 (ix2 r l) = A0 (ix2 i l)) (h1 : ∀ l, x1 (ix2 r l) = A1 (ix2 i l))
    (hw1 : w1 = W1) (hb1 : b1 = B1) (hw2 : w2 = W2) (hb2 : b2 = B2) :
    k1_pay1 (F := Ideal) x0 x1 w1 b1 w2 b2 (ix2 r j) = mlpRow (F := Ideal) (addf A0 A1) W1 B1 W2 B2 (ix2 i j) := by
  subst hw1 hb1 hw2 hb2
  rw [pay1_apply, mlpRow_apply]
  congr 1
  funext l
  rw [h0, h1]; rfl

variable (V : (c : Dev nD) → (b : Ref sig .tc) → Buf (Elt Ideal) ((c : Thread nD τ).loc b))

/-- The first input's block at point t holds rows 5000·t … 5000·t + 4999 of its array. -/
private theorem rows_block0 (c : Dev nD) (t : Fin cfg1.N) (r : Fin 5000) (l : Fin 128) (i : Fin 40000) (hi : i.val = 5000 * t.val + r.val) :
    (iblk1 V c 0 t : Vec Ideal S5000x128 .f32) (ix2 r l)
      = (V c (Pipeline.arrRef spec1 0) : FVec Ideal S40000x128 .f32) (ix2 i l) := by
  obtain ⟨e0, e1, -⟩ := block_indices t
  unfold iblk1
  rw [View.read_apply]
  refine congrArg (V c (Pipeline.arrRef spec1 0)) ?_
  funext a
  apply Fin.ext
  match a with
  | ⟨0, _⟩ => show win1_0.index t (0 : Fin 2) * 5000 + 1 * r.val = i.val; omega
  | ⟨1, _⟩ => show win1_0.index t (1 : Fin 2) * 128 + 1 * l.val = l.val; omega

/-- So does the second input's. -/
private theorem rows_block1 (c : Dev nD) (t : Fin cfg1.N) (r : Fin 5000) (l : Fin 128) (i : Fin 40000) (hi : i.val = 5000 * t.val + r.val) :
    (iblk1 V c 1 t : Vec Ideal S5000x128 .f32) (ix2 r l)
      = (V c (Pipeline.arrRef spec1 1) : FVec Ideal S40000x128 .f32) (ix2 i l) := by
  obtain ⟨-, -, e0, e1, -⟩ := block_indices t
  unfold iblk1
  rw [View.read_apply]
  refine congrArg (V c (Pipeline.arrRef spec1 1)) ?_
  funext a
  apply Fin.ext
  match a with
  | ⟨0, _⟩ => show win1_1.index t (0 : Fin 2) * 5000 + 1 * r.val = i.val; omega
  | ⟨1, _⟩ => show win1_1.index t (1 : Fin 2) * 128 + 1 * l.val = l.val; omega

/-- The first weights' block is the whole array at every point. -/
private theorem whole_block2 (c : Dev nD) (t : Fin cfg1.N) :
    (iblk1 V c 2 t : Vec Ideal S128x128 .f32) = (V c (Pipeline.arrRef spec1 2) : FVec Ideal S128x128 .f32) := by
  obtain ⟨-, -, -, -, e0, e1, -⟩ := block_indices t
  funext y
  unfold iblk1
  rw [View.read_apply]
  refine congrArg (V c (Pipeline.arrRef spec1 2)) ?_
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first bias row's block is the whole row. -/
private theorem whole_block3 (c : Dev nD) (t : Fin cfg1.N) :
    (iblk1 V c 3 t : Vec Ideal S1x128 .f32) = (V c (Pipeline.arrRef spec1 3) : FVec Ideal S1x128 .f32) := by
  obtain ⟨-, -, -, -, -, -, e0, e1, -⟩ := block_indices t
  funext y
  unfold iblk1
  rw [View.read_apply]
  refine congrArg (V c (Pipeline.arrRef spec1 3)) ?_
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second weights' block is the whole array. -/
private theorem whole_block4 (c : Dev nD) (t : Fin cfg1.N) :
    (iblk1 V c 4 t : Vec Ideal S128x128 .f32) = (V c (Pipeline.arrRef spec1 4) : FVec Ideal S128x128 .f32) := by
  obtain ⟨-, -, -, -, -, -, -, -, e0, e1, -⟩ := block_indices t
  funext y
  unfold iblk1
  rw [View.read_apply]
  refine congrArg (V c (Pipeline.arrRef spec1 4)) ?_
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second bias row's block is the whole row. -/
private theorem whole_block5 (c : Dev nD) (t : Fin cfg1.N) :
    (iblk1 V c 5 t : Vec Ideal S1x128 .f32) = (V c (Pipeline.arrRef spec1 5) : FVec Ideal S1x128 .f32) := by
  obtain ⟨-, -, -, -, -, -, -, -, -, -, e0, e1, -⟩ := block_indices t
  funext y
  unfold iblk1
  rw [View.read_apply]
  refine congrArg (V c (Pipeline.arrRef spec1 5)) ?_
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The kernel's stored value at an entry of point t's block is the perceptron of the summed arrays at the entry
    of the output array the block's entry lies at: row 5000·t + r, same column. -/
private theorem stored_entry (c : Dev nD) (t : Fin cfg1.N) (y : S5000x128.Idx) :
    k1_pay1 (F := Ideal) (iblk1 V c 0 t) (iblk1 V c 1 t) (iblk1 V c 2 t) (iblk1 V c 3 t) (iblk1 V c 4 t) (iblk1 V c 5 t) y
      = mlpRow (F := Ideal) (addf (V c (Pipeline.arrRef spec1 0)) (V c (Pipeline.arrRef spec1 1)))
          (V c (Pipeline.arrRef spec1 2)) (V c (Pipeline.arrRef spec1 3))
          (V c (Pipeline.arrRef spec1 4)) (V c (Pipeline.arrRef spec1 5)) (((cfg1.win 6).blk t).view.emb y) := by
  obtain ⟨r, j, rfl⟩ : ∃ (r : Fin 5000) (j : Fin 128), y = ix2 r j := ⟨y 0, y 1, eq_ix2 y⟩
  have ht : t.val < 8 := lt_of_lt_of_eq t.isLt N_1
  have hr : r.val < 5000 := r.isLt
  obtain ⟨-, -, -, -, -, -, -, -, -, -, -, -, e0, e1⟩ := block_indices t
  have hemb : ((cfg1.win 6).blk t).view.emb (ix2 r j) = ix2 (⟨5000 * t.val + r.val, by omega⟩ : Fin 40000) j := by
    funext a
    apply Fin.ext
    match a with
    | ⟨0, _⟩ => show win1_6.index t (0 : Fin 2) * 5000 + 1 * r.val = 5000 * t.val + r.val; omega
    | ⟨1, _⟩ => show win1_6.index t (1 : Fin 2) * 128 + 1 * j.val = j.val; omega
  rw [hemb]
  exact block_entry (iblk1 V c 0 t) (iblk1 V c 1 t) (iblk1 V c 2 t) (iblk1 V c 3 t) (iblk1 V c 4 t) (iblk1 V c 5 t)
    (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) r j
    ⟨5000 * t.val + r.val, by omega⟩ (fun l => rows_block0 V c t r l _ rfl) (fun l => rows_block1 V c t r l _ rfl)
    (whole_block2 V c t) (whole_block3 V c t) (whole_block4 V c t) (whole_block5 V c t)

/-- What grid point t writes back is its block of the perceptron of the summed inputs. -/
private theorem flushed_block (c : Dev nD) (t : Fin cfg1.N) :
    (dat1 (F := Ideal) V c).flushed 6 t = ((cfg1.win 6).blk t).view.read (Elt Ideal)
      (mlpRow (F := Ideal) (addf (V c (Pipeline.arrRef spec1 0)) (V c (Pipeline.arrRef spec1 1)))
          (V c (Pipeline.arrRef spec1 2)) (V c (Pipeline.arrRef spec1 3))
          (V c (Pipeline.arrRef spec1 4)) (V c (Pipeline.arrRef spec1 5))) := by
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S128x128) zero_offsets, View.ld_unit_zero (S := S1x128) zero_offsets]
  funext y
  exact stored_entry V c t y

/-- Row i of the output array lies in the block of point i / 5000. -/
private theorem rows_covered (i : S40000x128.Idx) :
    ∃ t : Fin cfg1.N, (cfg1.win 6).flush t = true ∧ i ∈ ((cfg1.win 6).blk t).view.set := by
  have hi0 : (i 0).val < 40000 := (i 0).isLt
  have hi1 : (i 1).val < 128 := (i 1).isLt
  have hN : cfg1.N = 8 := N_1
  have hq : (i 0).val / 5000 < cfg1.N := by rw [hN]; omega
  refine ⟨⟨(i 0).val / 5000, hq⟩, flush1_6 _, ?_⟩
  obtain ⟨-, -, -, -, -, -, -, -, -, -, -, -, e0, e1⟩ := block_indices ⟨(i 0).val / 5000, hq⟩
  show i ∈ ((View.whole main_v11).slice (win1_6.rect ⟨(i 0).val / 5000, hq⟩)).set
  rw [View.set_slice_whole, Rect.mem_set_unit]
  intro a
  match a with
  | ⟨0, _⟩ =>
    show win1_6.index ⟨(i 0).val / 5000, hq⟩ (0 : Fin 2) * 5000 ≤ (i 0).val ∧ (i 0).val < win1_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hq⟩ (1 : Fin 2) * 128 ≤ (i 1).val ∧ (i 1).val < win1_6.index ⟨(i 0).val / 5000, hq⟩ (1 : Fin 2) * 128 + 128
    rw [e1]; omega

theorem node_arr1 (V : (c : Dev nD) → (b : Ref sig .tc) → Buf (Elt Ideal) ((c : Thread nD τ).loc b)) (c : Dev nD) :
    (dat1 (F := Ideal) V c).arrAt 6 cfg1.N
      = mlpRow (F := Ideal) (addf (V c (Pipeline.arrRef spec1 0)) (V c (Pipeline.arrRef spec1 1)))
          (V c (Pipeline.arrRef spec1 2)) (V c (Pipeline.arrRef spec1 3))
          (V c (Pipeline.arrRef spec1 4)) (V c (Pipeline.arrRef spec1 5)) := by
  exact (dat1 V c).arrAt_eq_of_cover 6 _ (fun t _ => flushed_block V c t) rows_covered

end Cert.Gine

end
-- ==== Proof.NodePay3.lean ====
/-
  The node kernel's stored value at row r, column j of a block of 5000 rows: the perceptron's entry formula
  (NodeRow.lean) at the sum of the two input blocks' rows r. The two matrix products accumulate into zero, so each
  is a plain sum over the 128 contracted entries; a change of float format is the identity on extended reals.
-/
import proofs.«430419_j69750268887652_1_alg».proof.Proof.Gen.KernelIdeal.Skeleton
import proofs.«430419_j69750268887652_1_alg».proof.Proof.NodeRow
import Idealize.ShloMosaic.Lib.ValueIdx
import Idealize.ShloMosaic.Lib.ValueLayout
import Idealize.ShloMosaic.Lib.Pipeline.Value
import Idealize.ShloMosaic.PureOps.Ideal.Laws

noncomputable section

namespace Cert.Gine

open Cert.KernelIdeal Cert.KernelIdeal.Gen Idealize.ShloMosaic Idealize.ShloMosaic.TcCoe Idealize.ShloMosaic.ValueIdx

/-! ## The product's two operand indices, axis by axis -/

/-- The left operand's row is the output's row. -/
private theorem lhs_node_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted position. -/
private theorem lhs_node_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted position. -/
private theorem rhs_node_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
private theorem rhs_node_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product accumulated into zero, at row r and column j, is the sum over the 128 contracted entries of
    the products of the left operand's row r with the right operand's column j. -/
private theorem matmul_zero_apply {φ₁ φ₂ : FTy} (a : FVec Ideal S5000x128 φ₁) (b : FVec Ideal S128x128 φ₂) (r : Fin 5000) (j : Fin 128) :
    matmul dot_S5000x128_S128x128_S5000x128_1_0_0_1_n_n none a b (constant (F := Ideal) S5000x128 .f32 0x00000000#32) (ix2 r j)
      = ∑ k : Fin 128, a (ix2 r k) * b (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_node_0 _ _
    | ⟨1, _⟩ => exact (lhs_node_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_node_0 _ _).trans hk
    | ⟨1, _⟩ => exact rhs_node_1 _ _)
  rw [el, er]

theorem pay3_apply (x0 x1 : Vec Ideal S5000x128 .f32) (w1 : Vec Ideal S128x128 .f32) (b1 : Vec Ideal S1x128 .f32)
    (w2 : Vec Ideal S128x128 .f32) (b2 : Vec Ideal S1x128 .f32) (r : Fin 5000) (j : Fin 128) :
    k3_pay1 (F := Ideal) x0 x1 w1 b1 w2 b2 (ix2 r j)
      = nodeRow (fun l => x0 (ix2 r l) + x1 (ix2 r l)) (fun l k => w1 (ix2 l k)) (fun k => b1 (ix2 (0 : Fin 1) k))
          (fun k j => w2 (ix2 k j)) (fun j => b2 (ix2 (0 : Fin 1) j)) j := by
  unfold k3_pay1 nodeRow
  repeat rw [shapeCast_self]
  simp only [maximumf_apply, addf_apply, broadcast_apply, truncf_apply, matmul_zero_apply, broadcastTo_1b_ab_apply,
    Ideal.ofBits_def, Ideal.ofBits_zero_f32]

end Cert.Gine

end
-- ==== Proof.NodeArr3.lean ====
/-
  What the node kernel's pipeline leaves in its output array: the perceptron of Layer.lean applied to the sum of
  its first two input arrays, with the weights and the bias rows it was given. Grid point t writes rows
  5000·t … 5000·t + 4999; the eight blocks cover the 40000 rows.
-/
import proofs.«430419_j69750268887652_1_alg».proof.Proof.Gen.KernelIdeal.Frame
import proofs.«430419_j69750268887652_1_alg».proof.Proof.NodePay3
import proofs.«430419_j69750268887652_1_alg».proof.Proof.NodeRow
import Idealize.ShloMosaic.Lib.Pipeline.Value

noncomputable section

namespace Cert.Gine

open Cert.KernelIdeal Cert.KernelIdeal.Gen Idealize.ShloMosaic Idealize.ShloMosaic.TcCoe Idealize.ShloMosaic.ValueIdx Idealize.SL.Sem

/-- The zero offsets of a whole-block access. -/
private theorem zero_offsets : (![0, 0] : Fin 2 → Nat) = fun _ => 0 := funext fun a => by fin_cases a <;> rfl

/-- The block index maps over the grid: the row-blocked windows (the two inputs and the output) are at block
    (t, 0); the weights and bias rows are at block (0, 0) at every point. -/
private theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row r of a block whose rows r are rows i of the two input arrays and whose weights and bias rows are the given
    arrays: the kernel's stored value there is the perceptron of the summed arrays at row i. -/
private theorem block_entry (x0 x1 : Vec Ideal S5000x128 .f32) (w1 : Vec Ideal S128x128 .f32) (b1 : Vec Ideal S1x128 .f32)
    (w2 : Vec Ideal S128x128 .f32) (b2 : Vec Ideal S1x128 .f32)
    (A0 A1 : FVec Ideal S40000x128 .f32) (W1 : FVec Ideal S128x128 .f32) (B1 : FVec Ideal S1x128 .f32)
    (W2 : FVec Ideal S128x128 .f32) (B2 : FVec Ideal S1x128 .f32) (r : Fin 5000) (j : Fin 128) (i : Fin 40000)
    (h0 : ∀ l, x0 (ix2 r l) = A0 (ix2 i l)) (h1 : ∀ l, x1 (ix2 r l) = A1 (ix2 i l))
    (hw1 : w1 = W1) (hb1 : b1 = B1) (hw2 : w2 = W2) (hb2 : b2 = B2) :
    k3_pay1 (F := Ideal) x0 x1 w1 b1 w2 b2 (ix2 r j) = mlpRow (F := Ideal) (addf A0 A1) W1 B1 W2 B2 (ix2 i j) := by
  subst hw1 hb1 hw2 hb2
  rw [pay3_apply, mlpRow_apply]
  congr 1
  funext l
  rw [h0, h1]; rfl

variable (V : (c : Dev nD) → (b : Ref sig .tc) → Buf (Elt Ideal) ((c : Thread nD τ).loc b))

/-- The first input's block at point t holds rows 5000·t … 5000·t + 4999 of its array. -/
private theorem rows_block0 (c : Dev nD) (t : Fin cfg3.N) (r : Fin 5000) (l : Fin 128) (i : Fin 40000) (hi : i.val = 5000 * t.val + r.val) :
    (iblk3 V c 0 t : Vec Ideal S5000x128 .f32) (ix2 r l)
      = (V c (Pipeline.arrRef spec3 0) : FVec Ideal S40000x128 .f32) (ix2 i l) := by
  obtain ⟨e0, e1, -⟩ := block_indices t
  unfold iblk3
  rw [View.read_apply]
  refine congrArg (V c (Pipeline.arrRef spec3 0)) ?_
  funext a
  apply Fin.ext
  match a with
  | ⟨0, _⟩ => show win3_0.index t (0 : Fin 2) * 5000 + 1 * r.val = i.val; omega
  | ⟨1, _⟩ => show win3_0.index t (1 : Fin 2) * 128 + 1 * l.val = l.val; omega

/-- So does the second input's. -/
private theorem rows_block1 (c : Dev nD) (t : Fin cfg3.N) (r : Fin 5000) (l : Fin 128) (i : Fin 40000) (hi : i.val = 5000 * t.val + r.val) :
    (iblk3 V c 1 t : Vec Ideal S5000x128 .f32) (ix2 r l)
      = (V c (Pipeline.arrRef spec3 1) : FVec Ideal S40000x128 .f32) (ix2 i l) := by
  obtain ⟨-, -, e0, e1, -⟩ := block_indices t
  unfold iblk3
  rw [View.read_apply]
  refine congrArg (V c (Pipeline.arrRef spec3 1)) ?_
  funext a
  apply Fin.ext
  match a with
  | ⟨0, _⟩ => show win3_1.index t (0 : Fin 2) * 5000 + 1 * r.val = i.val; omega
  | ⟨1, _⟩ => show win3_1.index t (1 : Fin 2) * 128 + 1 * l.val = l.val; omega

/-- The first weights' block is the whole array at every point. -/
private theorem whole_block2 (c : Dev nD) (t : Fin cfg3.N) :
    (iblk3 V c 2 t : Vec Ideal S128x128 .f32) = (V c (Pipeline.arrRef spec3 2) : FVec Ideal S128x128 .f32) := by
  obtain ⟨-, -, -, -, e0, e1, -⟩ := block_indices t
  funext y
  unfold iblk3
  rw [View.read_apply]
  refine congrArg (V c (Pipeline.arrRef spec3 2)) ?_
  funext a
  apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- The first bias row's block is the whole row. -/
private theorem whole_block3 (c : Dev nD) (t : Fin cfg3.N) :
    (iblk3 V c 3 t : Vec Ideal S1x128 .f32) = (V c (Pipeline.arrRef spec3 3) : FVec Ideal S1x128 .f32) := by
  obtain ⟨-, -, -, -, -, -, e0, e1, -⟩ := block_indices t
  funext y
  unfold iblk3
  rw [View.read_apply]
  refine congrArg (V c (Pipeline.arrRef spec3 3)) ?_
  funext a
  apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The second weights' block is the whole array. -/
private theorem whole_block4 (c : Dev nD) (t : Fin cfg3.N) :
    (iblk3 V c 4 t : Vec Ideal S128x128 .f32) = (V c (Pipeline.arrRef spec3 4) : FVec Ideal S128x128 .f32) := by
  obtain ⟨-, -, -, -, -, -, -, -, e0, e1, -⟩ := block_indices t
  funext y
  unfold iblk3
  rw [View.read_apply]
  refine congrArg (V c (Pipeline.arrRef spec3 4)) ?_
  funext a
  apply Fin.ext
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- The second bias row's block is the whole row. -/
private theorem whole_block5 (c : Dev nD) (t : Fin cfg3.N) :
    (iblk3 V c 5 t : Vec Ideal S1x128 .f32) = (V c (Pipeline.arrRef spec3 5) : FVec Ideal S1x128 .f32) := by
  obtain ⟨-, -, -, -, -, -, -, -, -, -, e0, e1, -⟩ := block_indices t
  funext y
  unfold iblk3
  rw [View.read_apply]
  refine congrArg (V c (Pipeline.arrRef spec3 5)) ?_
  funext a
  apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- The kernel's stored value at an entry of point t's block is the perceptron of the summed arrays at the entry
    of the output array the block's entry lies at: row 5000·t + r, same column. -/
private theorem stored_entry (c : Dev nD) (t : Fin cfg3.N) (y : S5000x128.Idx) :
    k3_pay1 (F := Ideal) (iblk3 V c 0 t) (iblk3 V c 1 t) (iblk3 V c 2 t) (iblk3 V c 3 t) (iblk3 V c 4 t) (iblk3 V c 5 t) y
      = mlpRow (F := Ideal) (addf (V c (Pipeline.arrRef spec3 0)) (V c (Pipeline.arrRef spec3 1)))
          (V c (Pipeline.arrRef spec3 2)) (V c (Pipeline.arrRef spec3 3))
          (V c (Pipeline.arrRef spec3 4)) (V c (Pipeline.arrRef spec3 5)) (((cfg3.win 6).blk t).view.emb y) := by
  obtain ⟨r, j, rfl⟩ : ∃ (r : Fin 5000) (j : Fin 128), y = ix2 r j := ⟨y 0, y 1, eq_ix2 y⟩
  have ht : t.val < 8 := lt_of_lt_of_eq t.isLt N_3
  have hr : r.val < 5000 := r.isLt
  obtain ⟨-, -, -, -, -, -, -, -, -, -, -, -, e0, e1⟩ := block_indices t
  have hemb : ((cfg3.win 6).blk t).view.emb (ix2 r j) = ix2 (⟨5000 * t.val + r.val, by omega⟩ : Fin 40000) j := by
    funext a
    apply Fin.ext
    match a with
    | ⟨0, _⟩ => show win3_6.index t (0 : Fin 2) * 5000 + 1 * r.val = 5000 * t.val + r.val; omega
    | ⟨1, _⟩ => show win3_6.index t (1 : Fin 2) * 128 + 1 * j.val = j.val; omega
  rw [hemb]
  exact block_entry (iblk3 V c 0 t) (iblk3 V c 1 t) (iblk3 V c 2 t) (iblk3 V c 3 t) (iblk3 V c 4 t) (iblk3 V c 5 t)
    (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5)) r j
    ⟨5000 * t.val + r.val, by omega⟩ (fun l => rows_block0 V c t r l _ rfl) (fun l => rows_block1 V c t r l _ rfl)
    (whole_block2 V c t) (whole_block3 V c t) (whole_block4 V c t) (whole_block5 V c t)

/-- What grid point t writes back is its block of the perceptron of the summed inputs. -/
private theorem flushed_block (c : Dev nD) (t : Fin cfg3.N) :
    (dat3 (F := Ideal) V c).flushed 6 t = ((cfg3.win 6).blk t).view.read (Elt Ideal)
      (mlpRow (F := Ideal) (addf (V c (Pipeline.arrRef spec3 0)) (V c (Pipeline.arrRef spec3 1)))
          (V c (Pipeline.arrRef spec3 2)) (V c (Pipeline.arrRef spec3 3))
          (V c (Pipeline.arrRef spec3 4)) (V c (Pipeline.arrRef spec3 5))) := by
  show (cfg3.win 6).cut (grid3.coords t) ((dat3 V c).after 6 t) = _
  rw [after3_6]
  unfold out3_6
  rw [View.canon_unit_zero zero_offsets]
  simp only [View.ld_unit_zero (S := S5000x128) zero_offsets, View.ld_unit_zero (S := S128x128) zero_offsets, View.ld_unit_zero (S := S1x128) zero_offsets]
  funext y
  exact stored_entry V c t y

/-- Row i of the output array lies in the block of point i / 5000. -/
private theorem rows_covered (i : S40000x128.Idx) :
    ∃ t : Fin cfg3.N, (cfg3.win 6).flush t = true ∧ i ∈ ((cfg3.win 6).blk t).view.set := by
  have hi0 : (i 0).val < 40000 := (i 0).isLt
  have hi1 : (i 1).val < 128 := (i 1).isLt
  have hN : cfg3.N = 8 := N_3
  have hq : (i 0).val / 5000 < cfg3.N := by rw [hN]; omega
  refine ⟨⟨(i 0).val / 5000, hq⟩, flush3_6 _, ?_⟩
  obtain ⟨-, -, -, -, -, -, -, -, -, -, -, -, e0, e1⟩ := block_indices ⟨(i 0).val / 5000, hq⟩
  show i ∈ ((View.whole main_v11).slice (win3_6.rect ⟨(i 0).val / 5000, hq⟩)).set
  rw [View.set_slice_whole, Rect.mem_set_unit]
  intro a
  match a with
  | ⟨0, _⟩ =>
    show win3_6.index ⟨(i 0).val / 5000, hq⟩ (0 : Fin 2) * 5000 ≤ (i 0).val ∧ (i 0).val < win3_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win3_6.index ⟨(i 0).val / 5000, hq⟩ (1 : Fin 2) * 128 ≤ (i 1).val ∧ (i 1).val < win3_6.index ⟨(i 0).val / 5000, hq⟩ (1 : Fin 2) * 128 + 128
    rw [e1]; omega

theorem node_arr3 (V : (c : Dev nD) → (b : Ref sig .tc) → Buf (Elt Ideal) ((c : Thread nD τ).loc b)) (c : Dev nD) :
    (dat3 (F := Ideal) V c).arrAt 6 cfg3.N
      = mlpRow (F := Ideal) (addf (V c (Pipeline.arrRef spec3 0)) (V c (Pipeline.arrRef spec3 1)))
          (V c (Pipeline.arrRef spec3 2)) (V c (Pipeline.arrRef spec3 3))
          (V c (Pipeline.arrRef spec3 4)) (V c (Pipeline.arrRef spec3 5)) := by
  exact (dat3 V c).arrAt_eq_of_cover 6 _ (fun t _ => flushed_block V c t) rows_covered

end Cert.Gine

end
-- ==== Proof.NodePay5.lean ====
/-
  The node kernel's stored value at row r, column j of a block of 5000 rows: the perceptron's entry formula
  (NodeRow.lean) at the sum of the two input blocks' rows r. The two matrix products accumulate into zero, so each
  is a plain sum over the 128 contracted entries; a change of float format is the identity on extended reals.
-/
import proofs.«430419_j69750268887652_1_alg».proof.Proof.Gen.KernelIdeal.Skeleton
import proofs.«430419_j69750268887652_1_alg».proof.Proof.NodeRow
import Idealize.ShloMosaic.Lib.ValueIdx
import Idealize.ShloMosaic.Lib.ValueLayout
import Idealize.ShloMosaic.Lib.Pipeline.Value
import Idealize.ShloMosaic.PureOps.Ideal.Laws

noncomputable section

namespace Cert.Gine

open Cert.KernelIdeal Cert.KernelIdeal.Gen Idealize.ShloMosaic Idealize.ShloMosaic.TcCoe Idealize.ShloMosaic.ValueIdx

/-! ## The product's two operand indices, axis by axis -/

/-- The left operand's row is the output's row. -/
private theorem lhs_node_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted position. -/
private theorem lhs_node_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted position. -/
private theorem rhs_node_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
private theorem rhs_node_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product accumulated into zero, at row r and column j, is the sum over the 128 contracted entries of
    the products of the left operand's row r with the right operand's column j. -/
private theorem matmul_zero_apply {φ₁ φ₂ : FTy} (a : FVec Ideal S5000x128 φ₁) (b : FVec Ideal S128x128 φ₂) (r : Fin 5000) (j : Fin 128) :
    matmul dot_S5000x128_S128x128_S5000x128_1_0_0_1_n_n none a b (constant (F := Ideal) S5000x128 .f32 0x00000000#32) (ix2 r j)
      = ∑ k : Fin 128, a (ix2 r k) * b (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_node_0 _ _
    | ⟨1, _⟩ => exact (lhs_node_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_node_0 _ _).trans hk
    | ⟨1, _⟩ => exact rhs_node_1 _ _)
  rw [el, er]

theorem pay5_apply (x0 x1 : Vec Ideal S5000x128 .f32) (w1 : Vec Ideal S128x128 .f32) (b1 : Vec Ideal S1x128 .f32)
    (w2 : Vec Ideal S128x128 .f32) (b2 : Vec Ideal S1x128 .f32) (r : Fin 5000) (j : Fin 128) :
    k5_pay1 (F := Ideal) x0 x1 w1 b1 w2 b2 (ix2 r j)
      = nodeRow (fun l => x0 (ix2 r l) + x1 (ix2 r l)) (fun l k => w1 (ix2 l k)) (fun k => b1 (ix2 (0 : Fin 1) k))
          (fun k j => w2 (ix2 k j)) (fun j => b2 (ix2 (0 : Fin 1) j)) j := by
  unfold k5_pay1 nodeRow
  repeat rw [shapeCast_self]
  simp only [maximumf_apply, addf_apply, broadcast_apply, truncf_apply, matmul_zero_apply, broadcastTo_1b_ab_apply,
    Ideal.ofBits_def, Ideal.ofBits_zero_f32]

end Cert.Gine

end
-- ==== Proof.NodeArr5.lean ====
/-
  What the node kernel's pipeline leaves in its output array: the perceptron of Layer.lean applied to the sum of
  its first two input arrays, with the weights and the bias rows it was given. Grid point t writes rows
  5000·t … 5000·t + 4999; the eight blocks cover the 40000 rows.
-/
import proofs.«430419_j69750268887652_1_alg».proof.Proof.Gen.KernelIdeal.Frame
import proofs.«430419_j69750268887652_1_alg».proof.Proof.NodePay5
import proofs.«430419_j69750268887652_1_alg».proof.Proof.NodeRow
import Idealize.ShloMosaic.Lib.Pipeline.Value

noncomputable section

namespace Cert.Gine

open Cert.KernelIdeal Cert.KernelIdeal.Gen Idealize.ShloMosaic Idealize.ShloMosaic.TcCoe Idealize.ShloMosaic.ValueIdx Idealize.SL.Sem

/-- The zero offsets of a whole-block access. -/
private theorem zero_offsets : (![0, 0] : Fin 2 → Nat) = fun _ => 0 := funext fun a => by fin_cases a <;> rfl

/-- The block index maps over the grid: the row-blocked windows (the two inputs and the output) are at block
    (t, 0); the weights and bias rows are at block (0, 0) at every point. -/
private theorem block_indices : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Row r of a block whose rows r are rows i of the two input arrays and whose weights and bias rows are the given
    arrays: the kernel's stored value there is the perceptron of the summed arrays at row i. -/
private theorem block_entry (x0 x1 : Vec Ideal S5000x128 .f32) (w1 : Vec Ideal S128x128 .f32) (b1 : Vec Ideal S1x128 .f32)
    (w2 : Vec Ideal S128x128 .f32) (b2 : Vec Ideal S1x128 .f32)
    (A0 A1 : FVec Ideal S40000x128 .f32) (W1 : FVec Ideal S128x128 .f32) (B1 : FVec Ideal S1x128 .f32)
    (W2 : FVec Ideal S128x128 .f32) (B2 : FVec Ideal S1x128 .f32) (r : Fin 5000) (j : Fin 128) (i : Fin 40000)
    (h0 : ∀ l, x0 (ix2 r l) = A0 (ix2 i l)) (h1 : ∀ l, x1 (ix2 r l) = A1 (ix2 i l))
    (hw1 : w1 = W1) (hb1 : b1 = B1) (hw2 : w2 = W2) (hb2 : b2 = B2) :
    k5_pay1 (F := Ideal) x0 x1 w1 b1 w2 b2 (ix2 r j) = mlpRow (F := Ideal) (addf A0 A1) W1 B1 W2 B2 (ix2 i j) := by
  subst hw1 hb1 hw2 hb2
  rw [pay5_apply, mlpRow_apply]
  congr 1
  funext l
  rw [h0, h1]; rfl

variable (V : (c : Dev nD) → (b : Ref sig .tc) → Buf (Elt Ideal) ((c : Thread nD τ).loc b))

/-- The first input's block at point t holds rows 5000·t … 5000·t + 4999 of its array. -/
private theorem rows_block0 (c : Dev nD) (t : Fin cfg5.N) (r : Fin 5000) (l : Fin 128) (i : Fin 40000) (hi : i.val = 5000 * t.val + r.val) :
    (iblk5 V c 0 t : Vec Ideal S5000x128 .f32) (ix2 r l)
      = (V c (Pipeline.arrRef spec5 0) : FVec Ideal S40000x128 .f32) (ix2 i l) := by
  obtain ⟨e0, e1, -⟩ := block_indices t
  unfold iblk5
  rw [View.read_apply]
  refine congrArg (V c (Pipeline.arrRef spec5 0)) ?_
  funext a
  apply Fin.ext
  match a with
  | ⟨0, _⟩ => show win5_0.index t (0 : Fin 2) * 5000 + 1 * r.val = i.val; omega
  | ⟨1, _⟩ => show win5_0.index t (1 : Fin 2) * 128 + 1 * l.val = l.val; omega

/-- So does the second input's. -/
private theorem rows_block1 (c : Dev nD) (t : Fin cfg5.N) (r : Fin 5000) (l : Fin 128) (i : Fin 40000) (hi : i.val = 5000 * t.val + r.val) :
    (iblk5 V c 1 t : Vec Ideal S5000x128 .f32) (ix2 r l)
      = (V c (Pipeline.arrRef spec5 1) : FVec Ideal S40000x128 .f32) (ix2 i l) := by
  obtain ⟨-, -, e0, e1, -⟩ := block_indices t
  unfold iblk5
  rw [View.read_apply]
  refine congrArg (V c (Pipeline.arrRef spec5 1)) ?_
  funext a
  apply Fin.ext
  match a with
  | ⟨0, _⟩ => show win5_1.index t (0 : Fin 2) * 5000 + 1 * r.val = i.val; omega
  | ⟨1, _⟩ => show win5_1.index t (1 : Fin 2) * 128 + 1 * l.val = l.val; omega

/-- The first weights' block is the whole array at every point. -/
private theorem whole_block2 (c : Dev nD) (t : Fin cfg5.N) :
    (iblk5 V c 2 t : Vec Ideal S128x128 .f32) = (V c (Pipeline.arrRef spec5 2) : FVec Ideal S128x128 .f32) := by
  obtain ⟨-, -, -, -, e0, e1, -⟩ := block_indices t
  funext y
  unfold iblk5
  rw [View.read_apply]
  refine congrArg (V c (Pipeline.arrRef spec5 2)) ?_
  funext a
  apply Fin.ext
  match a with
  | ⟨0, _⟩ => show win5_2.index t (0 : Fin 2) * 128 + 1 * (y 0).val = (y 0).val; omega
  | ⟨1, _⟩ => show win5_2.index t (1 : Fin 2) * 128 + 1 * (y 1).val = (y 1).val; omega

/-- The first bias row's block is the whole row. -/
private theorem whole_block3 (c : Dev nD) (t : Fin cfg5.N) :
    (iblk5 V c 3 t : Vec Ideal S1x128 .f32) = (V c (Pipeline.arrRef spec5 3) : FVec Ideal S1x128 .f32) := by
  obtain ⟨-, -, -, -, -, -, e0, e1, -⟩ := block_indices t
  funext y
  unfold iblk5
  rw [View.read_apply]
  refine congrArg (V c (Pipeline.arrRef spec5 3)) ?_
  funext a
  apply Fin.ext
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- The second weights' block is the whole array. -/
private theorem whole_block4 (c : Dev nD) (t : Fin cfg5.N) :
    (iblk5 V c 4 t : Vec Ideal S128x128 .f32) = (V c (Pipeline.arrRef spec5 4) : FVec Ideal S128x128 .f32) := by
  obtain ⟨-, -, -, -, -, -, -, -, e0, e1, -⟩ := block_indices t
  funext y
  unfold iblk5
  rw [View.read_apply]
  refine congrArg (V c (Pipeline.arrRef spec5 4)) ?_
  funext a
  apply Fin.ext
  match a with
  | ⟨0, _⟩ => show win5_4.index t (0 : Fin 2) * 128 + 1 * (y 0).val = (y 0).val; omega
  | ⟨1, _⟩ => show win5_4.index t (1 : Fin 2) * 128 + 1 * (y 1).val = (y 1).val; omega

/-- The second bias row's block is the whole row. -/
private theorem whole_block5 (c : Dev nD) (t : Fin cfg5.N) :
    (iblk5 V c 5 t : Vec Ideal S1x128 .f32) = (V c (Pipeline.arrRef spec5 5) : FVec Ideal S1x128 .f32) := by
  obtain ⟨-, -, -, -, -, -, -, -, -, -, e0, e1, -⟩ := block_indices t
  funext y
  unfold iblk5
  rw [View.read_apply]
  refine congrArg (V c (Pipeline.arrRef spec5 5)) ?_
  funext a
  apply Fin.ext
  match a with
  | ⟨0, _⟩ => show win5_5.index t (0 : Fin 2) * 1 + 1 * (y 0).val = (y 0).val; omega
  | ⟨1, _⟩ => show win5_5.index t (1 : Fin 2) * 128 + 1 * (y 1).val = (y 1).val; omega

/-- The kernel's stored value at an entry of point t's block is the perceptron of the summed arrays at the entry
    of the output array the block's entry lies at: row 5000·t + r, same column. -/
private theorem stored_entry (c : Dev nD) (t : Fin cfg5.N) (y : S5000x128.Idx) :
    k5_pay1 (F := Ideal) (iblk5 V c 0 t) (iblk5 V c 1 t) (iblk5 V c 2 t) (iblk5 V c 3 t) (iblk5 V c 4 t) (iblk5 V c 5 t) y
      = mlpRow (F := Ideal) (addf (V c (Pipeline.arrRef spec5 0)) (V c (Pipeline.arrRef spec5 1)))
          (V c (Pipeline.arrRef spec5 2)) (V c (Pipeline.arrRef spec5 3))
          (V c (Pipeline.arrRef spec5 4)) (V c (Pipeline.arrRef spec5 5)) (((cfg5.win 6).blk t).view.emb y) := by
  obtain ⟨r, j, rfl⟩ : ∃ (r : Fin 5000) (j : Fin 128), y = ix2 r j := ⟨y 0, y 1, eq_ix2 y⟩
  have ht : t.val < 8 := lt_of_lt_of_eq t.isLt N_5
  have hr : r.val < 5000 := r.isLt
  obtain ⟨-, -, -, -, -, -, -, -, -, -, -, -, e0, e1⟩ := block_indices t
  have hemb : ((cfg5.win 6).blk t).view.emb (ix2 r j) = ix2 (⟨5000 * t.val + r.val, by omega⟩ : Fin 40000) j := by
    funext a
    apply Fin.ext
    match a with
    | ⟨0, _⟩ => show win5_6.index t (0 : Fin 2) * 5000 + 1 * r.val = 5000 * t.val + r.val; omega
    | ⟨1, _⟩ => show win5_6.index t (1 : Fin 2) * 128 + 1 * j.val = j.val; omega
  rw [hemb]
  exact block_entry (iblk5 V c 0 t) (iblk5 V c 1 t) (iblk5 V c 2 t) (iblk5 V c 3 t) (iblk5 V c 4 t) (iblk5 V c 5 t)
    (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5)) r j
    ⟨5000 * t.val + r.val, by omega⟩ (fun l => rows_block0 V c t r l _ rfl) (fun l => rows_block1 V c t r l _ rfl)
    (whole_block2 V c t) (whole_block3 V c t) (whole_block4 V c t) (whole_block5 V c t)

/-- What grid point t writes back is its block of the perceptron of the summed inputs. -/
private theorem flushed_block (c : Dev nD) (t : Fin cfg5.N) :
    (dat5 (F := Ideal) V c).flushed 6 t = ((cfg5.win 6).blk t).view.read (Elt Ideal)
      (mlpRow (F := Ideal) (addf (V c (Pipeline.arrRef spec5 0)) (V c (Pipeline.arrRef spec5 1)))
          (V c (Pipeline.arrRef spec5 2)) (V c (Pipeline.arrRef spec5 3))
          (V c (Pipeline.arrRef spec5 4)) (V c (Pipeline.arrRef spec5 5))) := by
  show (cfg5.win 6).cut (grid5.coords t) ((dat5 V c).after 6 t) = _
  rw [after5_6]
  unfold out5_6
  rw [View.canon_unit_zero zero_offsets]
  simp only [View.ld_unit_zero (S := S5000x128) zero_offsets, View.ld_unit_zero (S := S128x128) zero_offsets, View.ld_unit_zero (S := S1x128) zero_offsets]
  funext y
  exact stored_entry V c t y

/-- Row i of the output array lies in the block of point i / 5000. -/
private theorem rows_covered (i : S40000x128.Idx) :
    ∃ t : Fin cfg5.N, (cfg5.win 6).flush t = true ∧ i ∈ ((cfg5.win 6).blk t).view.set := by
  have hi0 : (i 0).val < 40000 := (i 0).isLt
  have hi1 : (i 1).val < 128 := (i 1).isLt
  have hN : cfg5.N = 8 := N_5
  have hq : (i 0).val / 5000 < cfg5.N := by rw [hN]; omega
  refine ⟨⟨(i 0).val / 5000, hq⟩, flush5_6 _, ?_⟩
  obtain ⟨-, -, -, -, -, -, -, -, -, -, -, -, e0, e1⟩ := block_indices ⟨(i 0).val / 5000, hq⟩
  show i ∈ ((View.whole main_v11).slice (win5_6.rect ⟨(i 0).val / 5000, hq⟩)).set
  rw [View.set_slice_whole, Rect.mem_set_unit]
  intro a
  match a with
  | ⟨0, _⟩ =>
    show win5_6.index ⟨(i 0).val / 5000, hq⟩ (0 : Fin 2) * 5000 ≤ (i 0).val ∧ (i 0).val < win5_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win5_6.index ⟨(i 0).val / 5000, hq⟩ (1 : Fin 2) * 128 ≤ (i 1).val ∧ (i 1).val < win5_6.index ⟨(i 0).val / 5000, hq⟩ (1 : Fin 2) * 128 + 128
    rw [e1]; omega

theorem node_arr5 (V : (c : Dev nD) → (b : Ref sig .tc) → Buf (Elt Ideal) ((c : Thread nD τ).loc b)) (c : Dev nD) :
    (dat5 (F := Ideal) V c).arrAt 6 cfg5.N
      = mlpRow (F := Ideal) (addf (V c (Pipeline.arrRef spec5 0)) (V c (Pipeline.arrRef spec5 1)))
          (V c (Pipeline.arrRef spec5 2)) (V c (Pipeline.arrRef spec5 3))
          (V c (Pipeline.arrRef spec5 4)) (V c (Pipeline.arrRef spec5 5)) := by
  exact (dat5 V c).arrAt_eq_of_cover 6 _ (fun t _ => flushed_block V c t) rows_covered

end Cert.Gine

end
-- ==== Proof.NodePay7.lean ====
/-
  The node kernel's stored value at row r, column j of a block of 5000 rows: the perceptron's entry formula
  (NodeRow.lean) at the sum of the two input blocks' rows r. The two matrix products accumulate into zero, so each
  is a plain sum over the 128 contracted entries; a change of float format is the identity on extended reals.
-/
import proofs.«430419_j69750268887652_1_alg».proof.Proof.Gen.KernelIdeal.Skeleton
import proofs.«430419_j69750268887652_1_alg».proof.Proof.NodeRow
import Idealize.ShloMosaic.Lib.ValueIdx
import Idealize.ShloMosaic.Lib.ValueLayout
import Idealize.ShloMosaic.Lib.Pipeline.Value
import Idealize.ShloMosaic.PureOps.Ideal.Laws

noncomputable section

namespace Cert.Gine

open Cert.KernelIdeal Cert.KernelIdeal.Gen Idealize.ShloMosaic Idealize.ShloMosaic.TcCoe Idealize.ShloMosaic.ValueIdx

/-! ## The product's two operand indices, axis by axis -/

/-- The left operand's row is the output's row. -/
private theorem lhs_node_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted position. -/
private theorem lhs_node_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted position. -/
private theorem rhs_node_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
private theorem rhs_node_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product accumulated into zero, at row r and column j, is the sum over the 128 contracted entries of
    the products of the left operand's row r with the right operand's column j. -/
private theorem matmul_zero_apply {φ₁ φ₂ : FTy} (a : FVec Ideal S5000x128 φ₁) (b : FVec Ideal S128x128 φ₂) (r : Fin 5000) (j : Fin 128) :
    matmul dot_S5000x128_S128x128_S5000x128_1_0_0_1_n_n none a b (constant (F := Ideal) S5000x128 .f32 0x00000000#32) (ix2 r j)
      = ∑ k : Fin 128, a (ix2 r k) * b (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_node_0 _ _
    | ⟨1, _⟩ => exact (lhs_node_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_node_0 _ _).trans hk
    | ⟨1, _⟩ => exact rhs_node_1 _ _)
  rw [el, er]

theorem pay7_apply (x0 x1 : Vec Ideal S5000x128 .f32) (w1 : Vec Ideal S128x128 .f32) (b1 : Vec Ideal S1x128 .f32)
    (w2 : Vec Ideal S128x128 .f32) (b2 : Vec Ideal S1x128 .f32) (r : Fin 5000) (j : Fin 128) :
    k7_pay1 (F := Ideal) x0 x1 w1 b1 w2 b2 (ix2 r j)
      = nodeRow (fun l => x0 (ix2 r l) + x1 (ix2 r l)) (fun l k => w1 (ix2 l k)) (fun k => b1 (ix2 (0 : Fin 1) k))
          (fun k j => w2 (ix2 k j)) (fun j => b2 (ix2 (0 : Fin 1) j)) j := by
  unfold k7_pay1 nodeRow
  repeat rw [shapeCast_self]
  simp only [maximumf_apply, addf_apply, broadcast_apply, truncf_apply, matmul_zero_apply, broadcastTo_1b_ab_apply,
    Ideal.ofBits_def, Ideal.ofBits_zero_f32]

end Cert.Gine

end
-- ==== Proof.NodeArr7.lean ====
/-
  What the node kernel's pipeline leaves in its output array: the perceptron of Layer.lean applied to the sum of
  its first two input arrays, with the weights and the bias rows it was given. Grid point t writes rows
  5000·t … 5000·t + 4999; the eight blocks cover the 40000 rows.
-/
import proofs.«430419_j69750268887652_1_alg».proof.Proof.Gen.KernelIdeal.Frame
import proofs.«430419_j69750268887652_1_alg».proof.Proof.NodePay7
import proofs.«430419_j69750268887652_1_alg».proof.Proof.NodeRow
import Idealize.ShloMosaic.Lib.Pipeline.Value

noncomputable section

namespace Cert.Gine

open Cert.KernelIdeal Cert.KernelIdeal.Gen Idealize.ShloMosaic Idealize.ShloMosaic.TcCoe Idealize.ShloMosaic.ValueIdx Idealize.SL.Sem

/-- The zero offsets of a whole-block access. -/
private theorem zero_offsets : (![0, 0] : Fin 2 → Nat) = fun _ => 0 := funext fun a => by fin_cases a <;> rfl

/-- The block index maps over the grid: the row-blocked windows (the two inputs and the output) are at block
    (t, 0); the weights and bias rows are at block (0, 0) at every point. -/
private theorem block_indices : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- Row r of a block whose rows r are rows i of the two input arrays and whose weights and bias rows are the given
    arrays: the kernel's stored value there is the perceptron of the summed arrays at row i. -/
private theorem block_entry (x0 x1 : Vec Ideal S5000x128 .f32) (w1 : Vec Ideal S128x128 .f32) (b1 : Vec Ideal S1x128 .f32)
    (w2 : Vec Ideal S128x128 .f32) (b2 : Vec Ideal S1x128 .f32)
    (A0 A1 : FVec Ideal S40000x128 .f32) (W1 : FVec Ideal S128x128 .f32) (B1 : FVec Ideal S1x128 .f32)
    (W2 : FVec Ideal S128x128 .f32) (B2 : FVec Ideal S1x128 .f32) (r : Fin 5000) (j : Fin 128) (i : Fin 40000)
    (h0 : ∀ l, x0 (ix2 r l) = A0 (ix2 i l)) (h1 : ∀ l, x1 (ix2 r l) = A1 (ix2 i l))
    (hw1 : w1 = W1) (hb1 : b1 = B1) (hw2 : w2 = W2) (hb2 : b2 = B2) :
    k7_pay1 (F := Ideal) x0 x1 w1 b1 w2 b2 (ix2 r j) = mlpRow (F := Ideal) (addf A0 A1) W1 B1 W2 B2 (ix2 i j) := by
  subst hw1 hb1 hw2 hb2
  rw [pay7_apply, mlpRow_apply]
  congr 1
  funext l
  rw [h0, h1]; rfl

variable (V : (c : Dev nD) → (b : Ref sig .tc) → Buf (Elt Ideal) ((c : Thread nD τ).loc b))

/-- The first input's block at point t holds rows 5000·t … 5000·t + 4999 of its array. -/
private theorem rows_block0 (c : Dev nD) (t : Fin cfg7.N) (r : Fin 5000) (l : Fin 128) (i : Fin 40000) (hi : i.val = 5000 * t.val + r.val) :
    (iblk7 V c 0 t : Vec Ideal S5000x128 .f32) (ix2 r l)
      = (V c (Pipeline.arrRef spec7 0) : FVec Ideal S40000x128 .f32) (ix2 i l) := by
  obtain ⟨e0, e1, -⟩ := block_indices t
  unfold iblk7
  rw [View.read_apply]
  refine congrArg (V c (Pipeline.arrRef spec7 0)) ?_
  funext a
  apply Fin.ext
  match a with
  | ⟨0, _⟩ => show win7_0.index t (0 : Fin 2) * 5000 + 1 * r.val = i.val; omega
  | ⟨1, _⟩ => show win7_0.index t (1 : Fin 2) * 128 + 1 * l.val = l.val; omega

/-- So does the second input's. -/
private theorem rows_block1 (c : Dev nD) (t : Fin cfg7.N) (r : Fin 5000) (l : Fin 128) (i : Fin 40000) (hi : i.val = 5000 * t.val + r.val) :
    (iblk7 V c 1 t : Vec Ideal S5000x128 .f32) (ix2 r l)
      = (V c (Pipeline.arrRef spec7 1) : FVec Ideal S40000x128 .f32) (ix2 i l) := by
  obtain ⟨-, -, e0, e1, -⟩ := block_indices t
  unfold iblk7
  rw [View.read_apply]
  refine congrArg (V c (Pipeline.arrRef spec7 1)) ?_
  funext a
  apply Fin.ext
  match a with
  | ⟨0, _⟩ => show win7_1.index t (0 : Fin 2) * 5000 + 1 * r.val = i.val; omega
  | ⟨1, _⟩ => show win7_1.index t (1 : Fin 2) * 128 + 1 * l.val = l.val; omega

/-- The first weights' block is the whole array at every point. -/
private theorem whole_block2 (c : Dev nD) (t : Fin cfg7.N) :
    (iblk7 V c 2 t : Vec Ideal S128x128 .f32) = (V c (Pipeline.arrRef spec7 2) : FVec Ideal S128x128 .f32) := by
  obtain ⟨-, -, -, -, e0, e1, -⟩ := block_indices t
  funext y
  unfold iblk7
  rw [View.read_apply]
  refine congrArg (V c (Pipeline.arrRef spec7 2)) ?_
  funext a
  apply Fin.ext
  match a with
  | ⟨0, _⟩ => show win7_2.index t (0 : Fin 2) * 128 + 1 * (y 0).val = (y 0).val; omega
  | ⟨1, _⟩ => show win7_2.index t (1 : Fin 2) * 128 + 1 * (y 1).val = (y 1).val; omega

/-- The first bias row's block is the whole row. -/
private theorem whole_block3 (c : Dev nD) (t : Fin cfg7.N) :
    (iblk7 V c 3 t : Vec Ideal S1x128 .f32) = (V c (Pipeline.arrRef spec7 3) : FVec Ideal S1x128 .f32) := by
  obtain ⟨-, -, -, -, -, -, e0, e1, -⟩ := block_indices t
  funext y
  unfold iblk7
  rw [View.read_apply]
  refine congrArg (V c (Pipeline.arrRef spec7 3)) ?_
  funext a
  apply Fin.ext
  match a with
  | ⟨0, _⟩ => show win7_3.index t (0 : Fin 2) * 1 + 1 * (y 0).val = (y 0).val; omega
  | ⟨1, _⟩ => show win7_3.index t (1 : Fin 2) * 128 + 1 * (y 1).val = (y 1).val; omega

/-- The second weights' block is the whole array. -/
private theorem whole_block4 (c : Dev nD) (t : Fin cfg7.N) :
    (iblk7 V c 4 t : Vec Ideal S128x128 .f32) = (V c (Pipeline.arrRef spec7 4) : FVec Ideal S128x128 .f32) := by
  obtain ⟨-, -, -, -, -, -, -, -, e0, e1, -⟩ := block_indices t
  funext y
  unfold iblk7
  rw [View.read_apply]
  refine congrArg (V c (Pipeline.arrRef spec7 4)) ?_
  funext a
  apply Fin.ext
  match a with
  | ⟨0, _⟩ => show win7_4.index t (0 : Fin 2) * 128 + 1 * (y 0).val = (y 0).val; omega
  | ⟨1, _⟩ => show win7_4.index t (1 : Fin 2) * 128 + 1 * (y 1).val = (y 1).val; omega

/-- The second bias row's block is the whole row. -/
private theorem whole_block5 (c : Dev nD) (t : Fin cfg7.N) :
    (iblk7 V c 5 t : Vec Ideal S1x128 .f32) = (V c (Pipeline.arrRef spec7 5) : FVec Ideal S1x128 .f32) := by
  obtain ⟨-, -, -, -, -, -, -, -, -, -, e0, e1, -⟩ := block_indices t
  funext y
  unfold iblk7
  rw [View.read_apply]
  refine congrArg (V c (Pipeline.arrRef spec7 5)) ?_
  funext a
  apply Fin.ext
  match a with
  | ⟨0, _⟩ => show win7_5.index t (0 : Fin 2) * 1 + 1 * (y 0).val = (y 0).val; omega
  | ⟨1, _⟩ => show win7_5.index t (1 : Fin 2) * 128 + 1 * (y 1).val = (y 1).val; omega

/-- The kernel's stored value at an entry of point t's block is the perceptron of the summed arrays at the entry
    of the output array the block's entry lies at: row 5000·t + r, same column. -/
private theorem stored_entry (c : Dev nD) (t : Fin cfg7.N) (y : S5000x128.Idx) :
    k7_pay1 (F := Ideal) (iblk7 V c 0 t) (iblk7 V c 1 t) (iblk7 V c 2 t) (iblk7 V c 3 t) (iblk7 V c 4 t) (iblk7 V c 5 t) y
      = mlpRow (F := Ideal) (addf (V c (Pipeline.arrRef spec7 0)) (V c (Pipeline.arrRef spec7 1)))
          (V c (Pipeline.arrRef spec7 2)) (V c (Pipeline.arrRef spec7 3))
          (V c (Pipeline.arrRef spec7 4)) (V c (Pipeline.arrRef spec7 5)) (((cfg7.win 6).blk t).view.emb y) := by
  obtain ⟨r, j, rfl⟩ : ∃ (r : Fin 5000) (j : Fin 128), y = ix2 r j := ⟨y 0, y 1, eq_ix2 y⟩
  have ht : t.val < 8 := lt_of_lt_of_eq t.isLt N_7
  have hr : r.val < 5000 := r.isLt
  obtain ⟨-, -, -, -, -, -, -, -, -, -, -, -, e0, e1⟩ := block_indices t
  have hemb : ((cfg7.win 6).blk t).view.emb (ix2 r j) = ix2 (⟨5000 * t.val + r.val, by omega⟩ : Fin 40000) j := by
    funext a
    apply Fin.ext
    match a with
    | ⟨0, _⟩ => show win7_6.index t (0 : Fin 2) * 5000 + 1 * r.val = 5000 * t.val + r.val; omega
    | ⟨1, _⟩ => show win7_6.index t (1 : Fin 2) * 128 + 1 * j.val = j.val; omega
  rw [hemb]
  exact block_entry (iblk7 V c 0 t) (iblk7 V c 1 t) (iblk7 V c 2 t) (iblk7 V c 3 t) (iblk7 V c 4 t) (iblk7 V c 5 t)
    (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5)) r j
    ⟨5000 * t.val + r.val, by omega⟩ (fun l => rows_block0 V c t r l _ rfl) (fun l => rows_block1 V c t r l _ rfl)
    (whole_block2 V c t) (whole_block3 V c t) (whole_block4 V c t) (whole_block5 V c t)

/-- What grid point t writes back is its block of the perceptron of the summed inputs. -/
private theorem flushed_block (c : Dev nD) (t : Fin cfg7.N) :
    (dat7 (F := Ideal) V c).flushed 6 t = ((cfg7.win 6).blk t).view.read (Elt Ideal)
      (mlpRow (F := Ideal) (addf (V c (Pipeline.arrRef spec7 0)) (V c (Pipeline.arrRef spec7 1)))
          (V c (Pipeline.arrRef spec7 2)) (V c (Pipeline.arrRef spec7 3))
          (V c (Pipeline.arrRef spec7 4)) (V c (Pipeline.arrRef spec7 5))) := by
  show (cfg7.win 6).cut (grid7.coords t) ((dat7 V c).after 6 t) = _
  rw [after7_6]
  unfold out7_6
  rw [View.canon_unit_zero zero_offsets]
  simp only [View.ld_unit_zero (S := S5000x128) zero_offsets, View.ld_unit_zero (S := S128x128) zero_offsets, View.ld_unit_zero (S := S1x128) zero_offsets]
  funext y
  exact stored_entry V c t y

/-- Row i of the output array lies in the block of point i / 5000. -/
private theorem rows_covered (i : S40000x128.Idx) :
    ∃ t : Fin cfg7.N, (cfg7.win 6).flush t = true ∧ i ∈ ((cfg7.win 6).blk t).view.set := by
  have hi0 : (i 0).val < 40000 := (i 0).isLt
  have hi1 : (i 1).val < 128 := (i 1).isLt
  have hN : cfg7.N = 8 := N_7
  have hq : (i 0).val / 5000 < cfg7.N := by rw [hN]; omega
  refine ⟨⟨(i 0).val / 5000, hq⟩, flush7_6 _, ?_⟩
  obtain ⟨-, -, -, -, -, -, -, -, -, -, -, -, e0, e1⟩ := block_indices ⟨(i 0).val / 5000, hq⟩
  show i ∈ ((View.whole main_v11).slice (win7_6.rect ⟨(i 0).val / 5000, hq⟩)).set
  rw [View.set_slice_whole, Rect.mem_set_unit]
  intro a
  match a with
  | ⟨0, _⟩ =>
    show win7_6.index ⟨(i 0).val / 5000, hq⟩ (0 : Fin 2) * 5000 ≤ (i 0).val ∧ (i 0).val < win7_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win7_6.index ⟨(i 0).val / 5000, hq⟩ (1 : Fin 2) * 128 ≤ (i 1).val ∧ (i 1).val < win7_6.index ⟨(i 0).val / 5000, hq⟩ (1 : Fin 2) * 128 + 128
    rw [e1]; omega

theorem node_arr7 (V : (c : Dev nD) → (b : Ref sig .tc) → Buf (Elt Ideal) ((c : Thread nD τ).loc b)) (c : Dev nD) :
    (dat7 (F := Ideal) V c).arrAt 6 cfg7.N
      = mlpRow (F := Ideal) (addf (V c (Pipeline.arrRef spec7 0)) (V c (Pipeline.arrRef spec7 1)))
          (V c (Pipeline.arrRef spec7 2)) (V c (Pipeline.arrRef spec7 3))
          (V c (Pipeline.arrRef spec7 4)) (V c (Pipeline.arrRef spec7 5)) := by
  exact (dat7 V c).arrAt_eq_of_cover 6 _ (fun t _ => flushed_block V c t) rows_covered

end Cert.Gine

end
-- ==== Proof.Reads.lean ====
/-
  The kernel program's fold through its segments, read layer by layer. For layer k, entered at boundary E = 4k + 1 with
  node features H: the gather stretch leaves the guarded gather of H by the source row of the edge list; the edge region
  leaves the messages of those rows and the edge attributes; the next stretch leaves the per-node sums of the messages by
  the destination row, and the two bias vectors as rows; the node region leaves the perceptron of H plus the sums. Each
  line instantiates one read of HostReads.lean, or one region's array of EdgeArr*.lean / NodeArr*.lean, at the boundary's
  contents, the buffers nothing wrote in between carried by Keep.lean.
-/
import proofs.«430419_j69750268887652_1_alg».proof.Proof.Keep
import proofs.«430419_j69750268887652_1_alg».proof.Proof.HostReads
import proofs.«430419_j69750268887652_1_alg».proof.Proof.EdgeArr0
import proofs.«430419_j69750268887652_1_alg».proof.Proof.EdgeArr2
import proofs.«430419_j69750268887652_1_alg».proof.Proof.EdgeArr4
import proofs.«430419_j69750268887652_1_alg».proof.Proof.EdgeArr6
import proofs.«430419_j69750268887652_1_alg».proof.Proof.NodeArr1
import proofs.«430419_j69750268887652_1_alg».proof.Proof.NodeArr3
import proofs.«430419_j69750268887652_1_alg».proof.Proof.NodeArr5
import proofs.«430419_j69750268887652_1_alg».proof.Proof.NodeArr7

set_option maxRecDepth 16384

noncomputable section

namespace Cert.Gine

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

theorem src_at_1 : (W1 m ρ c (Proc.devRef .tc main_v1)) = srcOf (m ((c : Thread nD τ).loc main_arg2)) := read_src (W0 m ρ c)
theorem dst_at_1 : (W1 m ρ c (Proc.devRef .tc main_v3)) = dstOf (m ((c : Thread nD τ).loc main_arg2)) := read_dst (W0 m ρ c)

/-! ## Layer 1 -/

theorem take_0 : (W2 m ρ c (Proc.devRef .tc main_v4)) = (takeFill (F := Ideal)) (m ((c : Thread nD τ).loc main_arg0)) (srcOf (m ((c : Thread nD τ).loc main_arg2))) :=
  (read_take0 (W1 m ρ c)).trans (congrArg₂ (takeFill (F := Ideal)) ((keep_main_arg0_1_0 m ρ c).trans (W0_eq m ρ c main_arg0)) (src_at_1 m ρ c))

theorem msg_0 : (W3 m ρ c (Proc.devRef .tc main_v5)) = (edgeMsg (F := Ideal)) (W2 m ρ c (Proc.devRef .tc main_v4)) (m ((c : Thread nD τ).loc main_arg1)) :=
  (W3_arr m ρ c 2).trans ((show _ = (edgeMsg (F := Ideal)) (W2 m ρ c (Proc.devRef .tc main_v4)) (W2 m ρ c (Proc.devRef .tc main_arg1)) from edge_arr0 (V2 m ρ) c).trans
    (congrArg ((edgeMsg (F := Ideal)) _) ((keep_main_arg1_2_0 m ρ c).trans (W0_eq m ρ c main_arg1))))

theorem agg_0 : (W4 m ρ c (Proc.devRef .tc main_v8)) = (aggregate (F := Ideal)) (dstOf (m ((c : Thread nD τ).loc main_arg2))) (W3 m ρ c (Proc.devRef .tc main_v5)) :=
  (read_agg0 (W3 m ρ c)).trans (congrArg (fun d => (aggregate (F := Ideal)) d _) ((keep_main_v3_3_1 m ρ c).trans (dst_at_1 m ρ c)))

theorem bias_0a : (W4 m ρ c (Proc.devRef .tc main_v9)) = (rowOf (F := Ideal)) (m ((c : Thread nD τ).loc main_arg5)) :=
  (read_bias0a (W3 m ρ c)).trans (congrArg (rowOf (F := Ideal)) ((keep_main_arg5_3_0 m ρ c).trans (W0_eq m ρ c main_arg5)))

theorem bias_0b : (W4 m ρ c (Proc.devRef .tc main_v10)) = (rowOf (F := Ideal)) (m ((c : Thread nD τ).loc main_arg7)) :=
  (read_bias0b (W3 m ρ c)).trans (congrArg (rowOf (F := Ideal)) ((keep_main_arg7_3_0 m ρ c).trans (W0_eq m ρ c main_arg7)))

theorem out_0 : (W5 m ρ c (Proc.devRef .tc main_v11)) = (mlpRow (F := Ideal)) (addf (m ((c : Thread nD τ).loc main_arg0)) (W4 m ρ c (Proc.devRef .tc main_v8))) (m ((c : Thread nD τ).loc main_arg4)) (W4 m ρ c (Proc.devRef .tc main_v9)) (m ((c : Thread nD τ).loc main_arg6)) (W4 m ρ c (Proc.devRef .tc main_v10)) :=
  (W5_arr m ρ c 6).trans ((show _ = (mlpRow (F := Ideal)) (addf (W4 m ρ c (Proc.devRef .tc main_arg0)) (W4 m ρ c (Proc.devRef .tc main_v8))) (W4 m ρ c (Proc.devRef .tc main_arg4)) (W4 m ρ c (Proc.devRef .tc main_v9)) (W4 m ρ c (Proc.devRef .tc main_arg6)) (W4 m ρ c (Proc.devRef .tc main_v10)) from node_arr1 (V4 m ρ) c).trans
    (by rw [keep_main_arg0_4_0 m ρ c, W0_eq m ρ c main_arg0, keep_main_arg4_4_0 m ρ c, W0_eq m ρ c main_arg4, keep_main_arg6_4_0 m ρ c, W0_eq m ρ c main_arg6]))

/-! ## Layer 2 -/

theorem take_1 : (W6 m ρ c (Proc.devRef .tc main_v12)) = (takeFill (F := Ideal)) (W5 m ρ c (Proc.devRef .tc main_v11)) (srcOf (m ((c : Thread nD τ).loc main_arg2))) :=
  (read_take1 (W5 m ρ c)).trans (congrArg₂ (takeFill (F := Ideal)) (rfl) ((keep_main_v1_5_1 m ρ c).trans (src_at_1 m ρ c)))

theorem msg_1 : (W7 m ρ c (Proc.devRef .tc main_v13)) = (edgeMsg (F := Ideal)) (W6 m ρ c (Proc.devRef .tc main_v12)) (m ((c : Thread nD τ).loc main_arg1)) :=
  (W7_arr m ρ c 2).trans ((show _ = (edgeMsg (F := Ideal)) (W6 m ρ c (Proc.devRef .tc main_v12)) (W6 m ρ c (Proc.devRef .tc main_arg1)) from edge_arr2 (V6 m ρ) c).trans
    (congrArg ((edgeMsg (F := Ideal)) _) ((keep_main_arg1_6_0 m ρ c).trans (W0_eq m ρ c main_arg1))))

theorem agg_1 : (W8 m ρ c (Proc.devRef .tc main_v16)) = (aggregate (F := Ideal)) (dstOf (m ((c : Thread nD τ).loc main_arg2))) (W7 m ρ c (Proc.devRef .tc main_v13)) :=
  (read_agg1 (W7 m ρ c)).trans (congrArg (fun d => (aggregate (F := Ideal)) d _) ((keep_main_v3_7_1 m ρ c).trans (dst_at_1 m ρ c)))

theorem bias_1a : (W8 m ρ c (Proc.devRef .tc main_v17)) = (rowOf (F := Ideal)) (m ((c : Thread nD τ).loc main_arg9)) :=
  (read_bias1a (W7 m ρ c)).trans (congrArg (rowOf (F := Ideal)) ((keep_main_arg9_7_0 m ρ c).trans (W0_eq m ρ c main_arg9)))

theorem bias_1b : (W8 m ρ c (Proc.devRef .tc main_v18)) = (rowOf (F := Ideal)) (m ((c : Thread nD τ).loc main_arg11)) :=
  (read_bias1b (W7 m ρ c)).trans (congrArg (rowOf (F := Ideal)) ((keep_main_arg11_7_0 m ρ c).trans (W0_eq m ρ c main_arg11)))

theorem out_1 : (W9 m ρ c (Proc.devRef .tc main_v19)) = (mlpRow (F := Ideal)) (addf (W5 m ρ c (Proc.devRef .tc main_v11)) (W8 m ρ c (Proc.devRef .tc main_v16))) (m ((c : Thread nD τ).loc main_arg8)) (W8 m ρ c (Proc.devRef .tc main_v17)) (m ((c : Thread nD τ).loc main_arg10)) (W8 m ρ c (Proc.devRef .tc main_v18)) :=
  (W9_arr m ρ c 6).trans ((show _ = (mlpRow (F := Ideal)) (addf (W8 m ρ c (Proc.devRef .tc main_v11)) (W8 m ρ c (Proc.devRef .tc main_v16))) (W8 m ρ c (Proc.devRef .tc main_arg8)) (W8 m ρ c (Proc.devRef .tc main_v17)) (W8 m ρ c (Proc.devRef .tc main_arg10)) (W8 m ρ c (Proc.devRef .tc main_v18)) from node_arr3 (V8 m ρ) c).trans
    (by rw [keep_main_v11_8_5 m ρ c, keep_main_arg8_8_0 m ρ c, W0_eq m ρ c main_arg8, keep_main_arg10_8_0 m ρ c, W0_eq m ρ c main_arg10]))

/-! ## Layer 3 -/

theorem take_2 : (W10 m ρ c (Proc.devRef .tc main_v20)) = (takeFill (F := Ideal)) (W9 m ρ c (Proc.devRef .tc main_v19)) (srcOf (m ((c : Thread nD τ).loc main_arg2))) :=
  (read_take2 (W9 m ρ c)).trans (congrArg₂ (takeFill (F := Ideal)) (rfl) ((keep_main_v1_9_1 m ρ c).trans (src_at_1 m ρ c)))

theorem msg_2 : (W11 m ρ c (Proc.devRef .tc main_v21)) = (edgeMsg (F := Ideal)) (W10 m ρ c (Proc.devRef .tc main_v20)) (m ((c : Thread nD τ).loc main_arg1)) :=
  (W11_arr m ρ c 2).trans ((show _ = (edgeMsg (F := Ideal)) (W10 m ρ c (Proc.devRef .tc main_v20)) (W10 m ρ c (Proc.devRef .tc main_arg1)) from edge_arr4 (V10 m ρ) c).trans
    (congrArg ((edgeMsg (F := Ideal)) _) ((keep_main_arg1_10_0 m ρ c).trans (W0_eq m ρ c main_arg1))))

theorem agg_2 : (W12 m ρ c (Proc.devRef .tc main_v24)) = (aggregate (F := Ideal)) (dstOf (m ((c : Thread nD τ).loc main_arg2))) (W11 m ρ c (Proc.devRef .tc main_v21)) :=
  (read_agg2 (W11 m ρ c)).trans (congrArg (fun d => (aggregate (F := Ideal)) d _) ((keep_main_v3_11_1 m ρ c).trans (dst_at_1 m ρ c)))

theorem bias_2a : (W12 m ρ c (Proc.devRef .tc main_v25)) = (rowOf (F := Ideal)) (m ((c : Thread nD τ).loc main_arg13)) :=
  (read_bias2a (W11 m ρ c)).trans (congrArg (rowOf (F := Ideal)) ((keep_main_arg13_11_0 m ρ c).trans (W0_eq m ρ c main_arg13)))

theorem bias_2b : (W12 m ρ c (Proc.devRef .tc main_v26)) = (rowOf (F := Ideal)) (m ((c : Thread nD τ).loc main_arg15)) :=
  (read_bias2b (W11 m ρ c)).trans (congrArg (rowOf (F := Ideal)) ((keep_main_arg15_11_0 m ρ c).trans (W0_eq m ρ c main_arg15)))

theorem out_2 : (W13 m ρ c (Proc.devRef .tc main_v27)) = (mlpRow (F := Ideal)) (addf (W9 m ρ c (Proc.devRef .tc main_v19)) (W12 m ρ c (Proc.devRef .tc main_v24))) (m ((c : Thread nD τ).loc main_arg12)) (W12 m ρ c (Proc.devRef .tc main_v25)) (m ((c : Thread nD τ).loc main_arg14)) (W12 m ρ c (Proc.devRef .tc main_v26)) :=
  (W13_arr m ρ c 6).trans ((show _ = (mlpRow (F := Ideal)) (addf (W12 m ρ c (Proc.devRef .tc main_v19)) (W12 m ρ c (Proc.devRef .tc main_v24))) (W12 m ρ c (Proc.devRef .tc main_arg12)) (W12 m ρ c (Proc.devRef .tc main_v25)) (W12 m ρ c (Proc.devRef .tc main_arg14)) (W12 m ρ c (Proc.devRef .tc main_v26)) from node_arr5 (V12 m ρ) c).trans
    (by rw [keep_main_v19_12_9 m ρ c, keep_main_arg12_12_0 m ρ c, W0_eq m ρ c main_arg12, keep_main_arg14_12_0 m ρ c, W0_eq m ρ c main_arg14]))

/-! ## Layer 4 -/

theorem take_3 : (W14 m ρ c (Proc.devRef .tc main_v28)) = (takeFill (F := Ideal)) (W13 m ρ c (Proc.devRef .tc main_v27)) (srcOf (m ((c : Thread nD τ).loc main_arg2))) :=
  (read_take3 (W13 m ρ c)).trans (congrArg₂ (takeFill (F := Ideal)) (rfl) ((keep_main_v1_13_1 m ρ c).trans (src_at_1 m ρ c)))

theorem msg_3 : (W15 m ρ c (Proc.devRef .tc main_v29)) = (edgeMsg (F := Ideal)) (W14 m ρ c (Proc.devRef .tc main_v28)) (m ((c : Thread nD τ).loc main_arg1)) :=
  (W15_arr m ρ c 2).trans ((show _ = (edgeMsg (F := Ideal)) (W14 m ρ c (Proc.devRef .tc main_v28)) (W14 m ρ c (Proc.devRef .tc main_arg1)) from edge_arr6 (V14 m ρ) c).trans
    (congrArg ((edgeMsg (F := Ideal)) _) ((keep_main_arg1_14_0 m ρ c).trans (W0_eq m ρ c main_arg1))))

theorem agg_3 : (W16 m ρ c (Proc.devRef .tc main_v32)) = (aggregate (F := Ideal)) (dstOf (m ((c : Thread nD τ).loc main_arg2))) (W15 m ρ c (Proc.devRef .tc main_v29)) :=
  (read_agg3 (W15 m ρ c)).trans (congrArg (fun d => (aggregate (F := Ideal)) d _) ((keep_main_v3_15_1 m ρ c).trans (dst_at_1 m ρ c)))

theorem bias_3a : (W16 m ρ c (Proc.devRef .tc main_v33)) = (rowOf (F := Ideal)) (m ((c : Thread nD τ).loc main_arg17)) :=
  (read_bias3a (W15 m ρ c)).trans (congrArg (rowOf (F := Ideal)) ((keep_main_arg17_15_0 m ρ c).trans (W0_eq m ρ c main_arg17)))

theorem bias_3b : (W16 m ρ c (Proc.devRef .tc main_v34)) = (rowOf (F := Ideal)) (m ((c : Thread nD τ).loc main_arg19)) :=
  (read_bias3b (W15 m ρ c)).trans (congrArg (rowOf (F := Ideal)) ((keep_main_arg19_15_0 m ρ c).trans (W0_eq m ρ c main_arg19)))

theorem out_3 : (W17 m ρ c (Proc.devRef .tc main_v35)) = (mlpRow (F := Ideal)) (addf (W13 m ρ c (Proc.devRef .tc main_v27)) (W16 m ρ c (Proc.devRef .tc main_v32))) (m ((c : Thread nD τ).loc main_arg16)) (W16 m ρ c (Proc.devRef .tc main_v33)) (m ((c : Thread nD τ).loc main_arg18)) (W16 m ρ c (Proc.devRef .tc main_v34)) :=
  (W17_arr m ρ c 6).trans ((show _ = (mlpRow (F := Ideal)) (addf (W16 m ρ c (Proc.devRef .tc main_v27)) (W16 m ρ c (Proc.devRef .tc main_v32))) (W16 m ρ c (Proc.devRef .tc main_arg16)) (W16 m ρ c (Proc.devRef .tc main_v33)) (W16 m ρ c (Proc.devRef .tc main_arg18)) (W16 m ρ c (Proc.devRef .tc main_v34)) from node_arr7 (V16 m ρ) c).trans
    (by rw [keep_main_v27_16_13 m ρ c, keep_main_arg16_16_0 m ρ c, W0_eq m ρ c main_arg16, keep_main_arg18_16_0 m ρ c, W0_eq m ρ c main_arg18]))

theorem pool_at_18 : (W18 m ρ c (Proc.devRef .tc main_v47)) = (pool (F := Ideal)) (m ((c : Thread nD τ).loc main_arg3)) (W17 m ρ c (Proc.devRef .tc main_v35)) :=
  (read_pool (W17 m ρ c)).trans (congrArg (fun b => (pool (F := Ideal)) b _) ((keep_main_arg3_17_0 m ρ c).trans (W0_eq m ρ c main_arg3)))

end Cert.Gine

end
-- ==== Proof.Fold.lean ====
/-
  The kernel program computes the network of Layer.lean.

  One layer, as the program's segments leave it (Reads.lean): the perceptron of H plus the per-node sums of the
  messages of the GUARDED gather of H, the biases reshaped to rows. When every source index names a node the guard
  passes everywhere (TakeMask.lean), and a reshaped bias is the broadcast one (BiasRow.lean): that is the layer of
  Layer.lean. Four layers in turn, each entered with the previous one's features, then the pool of the last.
-/
import proofs.«430419_j69750268887652_1_alg».proof.Proof.Reads
import proofs.«430419_j69750268887652_1_alg».proof.Proof.TakeMask
import proofs.«430419_j69750268887652_1_alg».proof.Proof.BiasRow

noncomputable section

namespace Cert.Gine

open Cert.KernelIdeal Cert.KernelIdeal.Gen Idealize.ShloMosaic Idealize.ShloMosaic.TcCoe Idealize.SL.Sem

/-- The layer as the program's segments compute it is the layer of Layer.lean, when every source index names a node. -/
theorem layer_of_parts (H : FVec Ideal S40000x128 .f32) (ei : IVec S2x640000 32) (ea : FVec Ideal S640000x128 .f32)
    (w1 : FVec Ideal S128x128 .f32) (b1 : FVec Ideal S128 .f32) (w2 : FVec Ideal S128x128 .f32) (b2 : FVec Ideal S128 .f32)
    (hr : SrcInRange ei) :
    mlpRow (F := Ideal) (addf H (aggregate (dstOf ei) (edgeMsg (takeFill H (srcOf ei)) ea))) w1 (rowOf b1) w2 (rowOf b2)
      = layer H ei ea w1 b1 w2 b2 := by
  unfold layer
  rw [takeFill_eq H ei hr, rowOf_eq_asRow, rowOf_eq_asRow]

/-- The same from the six reads of a layer's segments: the region's output `out` from the sums `agg` and the bias
    rows, the sums from the messages `msg`, the messages from the guarded gather `tk`. -/
theorem layer_of_reads {H out agg : FVec Ideal S40000x128 .f32} {msg tk ea : FVec Ideal S640000x128 .f32}
    {ei : IVec S2x640000 32} {w1 w2 : FVec Ideal S128x128 .f32} {b1 b2 : FVec Ideal S128 .f32} {r1 r2 : FVec Ideal S1x128 .f32}
    (hout : out = mlpRow (F := Ideal) (addf H agg) w1 r1 w2 r2) (hagg : agg = aggregate (dstOf ei) msg)
    (hmsg : msg = edgeMsg tk ea) (htk : tk = takeFill H (srcOf ei)) (h1 : r1 = rowOf b1) (h2 : r2 = rowOf b2)
    (hr : SrcInRange ei) : out = layer H ei ea w1 b1 w2 b2 := by
  subst hout hagg hmsg htk h1 h2
  exact layer_of_parts H ei ea w1 b1 w2 b2 hr

variable (m : (ℓ : Loc nD τ sig) → Buf (Elt Ideal) ℓ) (ρ : Dev nD → PrngReg) (c : Dev nD)

/-- The result array at the program's last boundary is the network of the argument arrays: the pool of the fourth
    layer's features, each layer's features the layer of the one before. -/
theorem kernel_result (hr : SrcInRange (m ((c : Thread nD τ).loc main_arg2))) :
    W18 m ρ c (Proc.devRef .tc main_v47)
      = network (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)) := by
  have f1 := layer_of_reads (out_0 m ρ c) (agg_0 m ρ c) (msg_0 m ρ c) (take_0 m ρ c) (bias_0a m ρ c) (bias_0b m ρ c) hr
  have f2 := layer_of_reads (out_1 m ρ c) (agg_1 m ρ c) (msg_1 m ρ c) (take_1 m ρ c) (bias_1a m ρ c) (bias_1b m ρ c) hr
  have f3 := layer_of_reads (out_2 m ρ c) (agg_2 m ρ c) (msg_2 m ρ c) (take_2 m ρ c) (bias_2a m ρ c) (bias_2b m ρ c) hr
  have f4 := layer_of_reads (out_3 m ρ c) (agg_3 m ρ c) (msg_3 m ρ c) (take_3 m ρ c) (bias_3a m ρ c) (bias_3b m ρ c) hr
  rw [pool_at_18 m ρ c, f4, f3, f2, f1]
  rfl

end Cert.Gine

end
-- ==== Proof.RefTerm.lean ====
/-
  The reference program's result, as its run states it, is the network of Layer.lean applied to the argument
  arrays: four layers, then the pool. Both sides are the same composition of host operations.
-/
import proofs.«430419_j69750268887652_1_alg».proof.Proof.Gen.ReferenceIdeal.Run
import proofs.«430419_j69750268887652_1_alg».proof.Proof.Layer

noncomputable section

namespace Cert.Gine

open Cert.ReferenceIdeal Cert.ReferenceIdeal.Gen Idealize.ShloMosaic Idealize.ShloMosaic.TcCoe Idealize.SL.Sem

variable {F : FTy → Type} [FloatOps F]

set_option maxRecDepth 8192 in
theorem ref_result (m : (ℓ : Loc nD τ sig) → Buf (Elt F) ℓ) (c : Dev nD) :
    Cert.ReferenceIdeal.Value.res_main_v111 (F := F) m c
      = network (F := F) (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19)) := by
  unfold Cert.ReferenceIdeal.Value.res_main_v111 network pool layer mlpRow rowBias asRow aggregate edgeMsg gatherRows zeroE zeroN
    wrapSrc srcOf dstOf
  rfl

end Cert.Gine

end
-- ==== Proof.PreRange.lean ====
/-
  The precondition, beyond the finiteness of the float inputs, says of row 0 of the edge list (the source node of
  every edge) that each entry is at least −40000 and less than 40000: its last two conjuncts are two all-reductions
  of signed comparisons of that row against the two bounds.
-/
import proofs.«430419_j69750268887652_1_alg».proof.Proof.Gen.Pre_finite_inputs
import proofs.«430419_j69750268887652_1_alg».proof.Proof.TakeMask
import Idealize.ShloMosaic.Lib.ReduceAll
import Idealize.ShloMosaic.Lib.StableHlo.Predicate

noncomputable section

namespace Cert.Gine

open Cert.KernelIdeal Cert.KernelIdeal.Gen Idealize.ShloMosaic Idealize.ShloMosaic.TcCoe

/-- The precondition's last two conjuncts are the range of the source indices. -/
theorem srcInRange_of_pre (a0 : FVec Ideal S40000x128 .f32) (a1 : FVec Ideal S640000x128 .f32) (a2 : IVec S2x640000 32) (a3 : IVec S40000 32) (a4 : FVec Ideal S128x128 .f32) (a5 : FVec Ideal S128 .f32) (a6 : FVec Ideal S128x128 .f32) (a7 : FVec Ideal S128 .f32) (a8 : FVec Ideal S128x128 .f32) (a9 : FVec Ideal S128 .f32) (a10 : FVec Ideal S128x128 .f32) (a11 : FVec Ideal S128 .f32) (a12 : FVec Ideal S128x128 .f32) (a13 : FVec Ideal S128 .f32) (a14 : FVec Ideal S128x128 .f32) (a15 : FVec Ideal S128 .f32) (a16 : FVec Ideal S128x128 .f32) (a17 : FVec Ideal S128 .f32) (a18 : FVec Ideal S128x128 .f32) (a19 : FVec Ideal S128 .f32)
    (hpre : Cert.Pre_finite_inputs.fn (F := Ideal) a0 a1 a2 a3 a4 a5 a6 a7 a8 a9 a10 a11 a12 a13 a14 a15 a16 a17 a18 a19 = (fun _ => 1#1)) : SrcInRange a2 := by
  -- a scalar has one index
  haveI : Subsingleton Cert.Pre_finite_inputs.S_.Idx := ⟨fun a b => funext fun d => d.elim0⟩
  -- the precondition at that index, spelt out: a conjunction whose last two conjuncts are the two all-reductions
  have h0 := congrFun hpre (fun d => d.elim0)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  -- a conjunction of bits is 1 exactly when both are
  obtain ⟨h1, hlt⟩ := IntOp.andi_eq_one.1 h0
  obtain ⟨-, hge⟩ := IntOp.andi_eq_one.1 h1
  intro e
  -- an all-reduction by "and" that is 1 had a 1 at every edge; a signed comparison that is 1 orders the integers
  have hge' := IntOp.cmpi_sge.1 (Host.reduce_andi_all _ _ _ _ _ hge e)
  have hlt' := IntOp.cmpi_slt.1 (Host.reduce_andi_all _ _ _ _ _ hlt e)
  -- a broadcast scalar reads the scalar at every edge
  rw [StableHlo.Predicate.bcast_scalar _ (by decide)] at hge' hlt'
  -- the two bounds read signed: the word 4294927296 is −40000, the word 40000 is 40000
  have c1 : (4294927296#32 : BitVec 32).toInt = -40000 := by decide
  have c2 : (40000#32 : BitVec 32).toInt = 40000 := by decide
  change (4294927296#32 : BitVec 32).toInt ≤ (srcOf a2 e).toInt at hge'
  change (srcOf a2 e).toInt < (40000#32 : BitVec 32).toInt at hlt'
  rw [c1] at hge'
  rw [c2] at hlt'
  exact ⟨hge', hlt'⟩

end Cert.Gine

end
-- ==== Proof.lean ====
/-
  The certificate of the four-layer graph network (edge messages max(h[src] + ea, 0), summed into their destination
  nodes, a two-layer perceptron per node, a mean over each graph), the kernel program against the reference.

  The three frames: the kernel program's and its idealization's are the generated frame certificates; the reference
  has no kernel region, and its frame is its generated run with the result dropped. The idealization applied no
  rewrite, so there is nothing to preserve. The equivalence: at exact arithmetic the kernel program's result array is
  the network of Layer.lean of its argument arrays (KernelRun.lean for the run, Fold.lean for the value), and so is the
  reference's (its generated run, RefTerm.lean); the two programs start from the same arguments. The one place they
  differ is a source index outside −40000 … 39999, where the kernel program's gather fills and the reference's clamps:
  the precondition excludes it (PreRange.lean).
-/
import proofs.«430419_j69750268887652_1_alg».proof.Defs
import proofs.«430419_j69750268887652_1_alg».proof.Proof.Gen.Kernel
import proofs.«430419_j69750268887652_1_alg».proof.Proof.Gen.Kernel.Skeleton
import proofs.«430419_j69750268887652_1_alg».proof.Proof.Gen.Kernel.Launch
import proofs.«430419_j69750268887652_1_alg».proof.Proof.Gen.Kernel.Points
import proofs.«430419_j69750268887652_1_alg».proof.Proof.Gen.Kernel.Frame
import proofs.«430419_j69750268887652_1_alg».proof.Proof.Gen.KernelIdeal
import proofs.«430419_j69750268887652_1_alg».proof.Proof.Gen.KernelIdeal.Skeleton
import proofs.«430419_j69750268887652_1_alg».proof.Proof.Gen.KernelIdeal.Launch
import proofs.«430419_j69750268887652_1_alg».proof.Proof.Gen.KernelIdeal.Points
import proofs.«430419_j69750268887652_1_alg».proof.Proof.Gen.KernelIdeal.Frame
import proofs.«430419_j69750268887652_1_alg».proof.Proof.Gen.ReferenceIdeal
import proofs.«430419_j69750268887652_1_alg».proof.Proof.Gen.ReferenceIdeal.Run
import proofs.«430419_j69750268887652_1_alg».proof.Proof.Gen.ReferenceIdeal.Read
import proofs.«430419_j69750268887652_1_alg».proof.Proof.Gen.Pre_finite_inputs
import proofs.«430419_j69750268887652_1_alg».proof.Proof.KernelRun
import proofs.«430419_j69750268887652_1_alg».proof.Proof.Fold
import proofs.«430419_j69750268887652_1_alg».proof.Proof.RefTerm
import proofs.«430419_j69750268887652_1_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of their (equal) arguments in the result array. -/
theorem algebraic : Cert.algebraic_KernelIdeal_ReferenceIdeal := by
  intro m ρ m' ρ' hpre hagree
  have hr : ∀ c : Dev Cert.KernelIdeal.nD, Cert.Gine.SrcInRange (m ((c.tc : Thread Cert.KernelIdeal.nD Cert.KernelIdeal.τ).loc Cert.KernelIdeal.main_arg2)) :=
    fun c => Cert.Gine.srcInRange_of_pre _ _ _ _ _ _ _ _ _ _ _ _ _ _ _ _ _ _ _ _ (hpre c)
  refine ⟨_, (θ_run Cert.KernelIdeal.defs _ _).mono (fun r h c => ⟨(h c).1.trans (Cert.Gine.kernel_result m ρ c (hr c)), (h c).2⟩)
    (Cert.KernelIdeal.RunValue.run_value (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.Gine.ref_result m' c]
  obtain ⟨e0, e1, e2, e3, e4, e5, e6, e7, e8, e9, e10, e11, e12, e13, e14, e15, e16, e17, e18, e19⟩ := hagree c
  rw [e0, e1, e2, e3, e4, e5, e6, e7, e8, e9, e10, e11, e12, e13, e14, e15, e16, e17, e18, e19]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
